-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x256 : Shape := ⟨3, ![16, 1024, 256]⟩
abbrev S16x1024x2 : Shape := ⟨3, ![16, 1024, 2]⟩
abbrev S16x128x2 : Shape := ⟨3, ![16, 128, 2]⟩
abbrev S16x128 : Shape := ⟨2, ![16, 128]⟩
abbrev S16384x2 : Shape := ⟨2, ![16384, 2]⟩
abbrev S2048x2 : Shape := ⟨2, ![2048, 2]⟩
abbrev S16384x1 : Shape := ⟨2, ![16384, 1]⟩
abbrev S16384 : Shape := ⟨1, ![16384]⟩
abbrev S_ : Shape := ⟨0, ![]⟩
abbrev S2048x1 : Shape := ⟨2, ![2048, 1]⟩
abbrev S2048 : Shape := ⟨1, ![2048]⟩
abbrev S1x2048 : Shape := ⟨2, ![1, 2048]⟩
abbrev S16384x2048 : Shape := ⟨2, ![16384, 2048]⟩

class Facts : Prop where
  shapeCasts_S16x1024x2_S16384x2 : S16x1024x2.ShapeCasts S16384x2
  shapeCasts_S16x128x2_S2048x2 : S16x128x2.ShapeCasts S2048x2
  slices_S16384x2_S16384x1_0_0 : S16384x2.Slices ![0, 0] S16384x1
  shapeCasts_S16384x1_S16384 : S16384x1.ShapeCasts S16384
  slices_S16384x2_S16384x1_0_1 : S16384x2.Slices ![0, 1] S16384x1
  bcast_S_S16384 : S_.BroadcastsInDim S16384 (![] : Fin 0 → Fin S16384.rank)
  bcast_S16384_S16384x1_0 : S16384.BroadcastsInDim S16384x1 (![0] : Fin 1 → Fin S16384x1.rank)
  slices_S2048x2_S2048x1_0_0 : S2048x2.Slices ![0, 0] S2048x1
  shapeCasts_S2048x1_S2048 : S2048x1.ShapeCasts S2048
  bcast_S2048_S1x2048_1 : S2048.BroadcastsInDim S1x2048 (![1] : Fin 1 → Fin S1x2048.rank)
  bcast_S16384x1_S16384x2048_0_1 : S16384x1.BroadcastsInDim S16384x2048 (![0, 1] : Fin 2 → Fin S16384x2048.rank)
  bcast_S1x2048_S16384x2048_0_1 : S1x2048.BroadcastsInDim S16384x2048 (![0, 1] : Fin 2 → Fin S16384x2048.rank)
  slices_S2048x2_S2048x1_0_1 : S2048x2.Slices ![0, 1] S2048x1
  bcast_S_S16x1024x256 : S_.BroadcastsInDim S16x1024x256 (![] : Fin 0 → Fin S16x1024x256.rank)
  reducesTo_S16x1024x256_S_d0_1_2 : S16x1024x256.ReducesTo [0, 1, 2] S_
  h_S_ : 0 < S_.numel
  bcast_S_S16x1024x2 : S_.BroadcastsInDim S16x1024x2 (![] : Fin 0 → Fin S16x1024x2.rank)
  reducesTo_S16x1024x2_S_d0_1_2 : S16x1024x2.ReducesTo [0, 1, 2] S_
  bcast_S_S16x128x2 : S_.BroadcastsInDim S16x128x2 (![] : Fin 0 → Fin S16x128x2.rank)
  reducesTo_S16x128x2_S_d0_1_2 : S16x128x2.ReducesTo [0, 1, 2] S_
  bcast_S_S16x128 : S_.BroadcastsInDim S16x128 (![] : Fin 0 → Fin S16x128.rank)
  reducesTo_S16x128_S_d0_1 : S16x128.ReducesTo [0, 1] S_
  bcast_S_S16384x2048 : S_.BroadcastsInDim S16384x2048 (![] : Fin 0 → Fin S16384x2048.rank)
  reducesTo_S16384x2048_S_d0_1 : S16384x2048.ReducesTo [0, 1] S_

variable [Facts]

def fn_part2 {F : FTy → Type} [FloatOps F] (main_arg3 : IVec S16x128 32) (main_v22 : FVec F S16384x2048 .f32) (main_v29 : FVec F S16384x2048 .f32) (main_v38 : IVec S_ 1) (main_v39 : FVec F S16x128x2 .f32) (main_v40 : FVec F S16x128x2 .f32) : IVec S_ 1 :=
  let main_v41 : IVec S16x128x2 1 := cmpf .olt main_v39 main_v40
  let main_c_5 : IVec S_ 1 := constantI S_ 1 1#1
  let main_v42 : IVec S_ 1 := (fun x v => Host.reduce IntOp.andi x v reducesTo_S16x128x2_S_d0_1_2 h_S_) main_v41 main_c_5
  let main_v43 : IVec S_ 1 := andi main_v38 main_v42
  let main_c_6 : IVec S_ 32 := constantI S_ 32 0#32
  let main_v44 : IVec S16x128 32 := broadcastInDim S16x128 ![] bcast_S_S16x128 main_c_6
  let main_v45 : IVec S16x128 1 := cmpi .sge main_arg3 main_v44
  let main_c_7 : IVec S_ 1 := constantI S_ 1 1#1
  let main_v46 : IVec S_ 1 := (fun x v => Host.reduce IntOp.andi x v reducesTo_S16x128_S_d0_1 h_S_) main_v45 main_c_7
  let main_v47 : IVec S_ 1 := andi main_v43 main_v46
  let main_c_8 : IVec S_ 32 := constantI S_ 32 256#32
  let main_v48 : IVec S16x128 32 := broadcastInDim S16x128 ![] bcast_S_S16x128 main_c_8
  let main_v49 : IVec S16x128 1 := cmpi .slt main_arg3 main_v48
  let main_c_9 : IVec S_ 1 := constantI S_ 1 1#1
  let main_v50 : IVec S_ 1 := (fun x v => Host.reduce IntOp.andi x v reducesTo_S16x128_S_d0_1 h_S_) main_v49 main_c_9
  let main_v51 : IVec S_ 1 := andi main_v47 main_v50
  let main_v52 : FVec F S16384x2048 .f32 := subf main_v29 main_v22
  let main_cst_10 : FVec F S_ .f32 := constant S_ .f32 0x00000000#32
  let main_v53 : FVec F S16384x2048 .f32 := broadcastInDim S16384x2048 ![] bcast_S_S16384x2048 main_cst_10
  let main_v54 : IVec S16384x2048 1 := cmpf .ogt main_v52 main_v53
  let main_c_11 : IVec S_ 1 := constantI S_ 1 1#1
  let main_v55 : IVec S_ 1 := (fun x v => Host.reduce IntOp.andi x v reducesTo_S16384x2048_S_d0_1 h_S_) main_v54 main_c_11
  let main_v56 : IVec S_ 1 := andi main_v51 main_v55
  main_v56

def fn_part1 {F : FTy → Type} [FloatOps F] (main_arg0 : FVec F S16x1024x256 .f32) (main_arg1 : FVec F S16x1024x2 .f32) (main_arg2 : FVec F S16x128x2 .f32) (main_arg3 : IVec S16x128 32) (main_v1 : FVec F S2048x2 .f32) (main_v15 : FVec F S16384 .f32) (main_v20 : FVec F S16384x2048 .f32) (main_v21 : FVec F S16384x2048 .f32) : IVec S_ 1 :=
  let main_v22 : FVec F S16384x2048 .f32 := minimumf main_v20 main_v21
  let main_v23 : FVec F S16384x1 .f32 := broadcastInDim S16384x1 ![0] bcast_S16384_S16384x1_0 main_v15
  let main_v24 : FVec F S2048x1 .f32 := (extractStridedSlice S2048x1 ![0, 1] · slices_S2048x2_S2048x1_0_1) main_v1
  let main_v25 : FVec F S2048 .f32 := shapeCast S2048 main_v24 shapeCasts_S2048x1_S2048
  let main_v26 : FVec F S1x2048 .f32 := broadcastInDim S1x2048 ![1] bcast_S2048_S1x2048_1 main_v25
  let main_v27 : FVec F S16384x2048 .f32 := broadcastInDim S16384x2048 ![0, 1] bcast_S16384x1_S16384x2048_0_1 main_v23
  let main_v28 : FVec F S16384x2048 .f32 := broadcastInDim S16384x2048 ![0, 1] bcast_S1x2048_S16384x2048_0_1 main_v26
  let main_v29 : FVec F S16384x2048 .f32 := maximumf main_v27 main_v28
  let main_v30 : FVec F S16x1024x256 .f32 := Host.absf main_arg0
  let main_cst_1 : FVec F S_ .f32 := constant S_ .f32 0x7F800000#32
  let main_v31 : FVec F S16x1024x256 .f32 := broadcastInDim S16x1024x256 ![] bcast_S_S16x1024x256 main_cst_1
  let main_v32 : IVec S16x1024x256 1 := cmpf .olt main_v30 main_v31
  let main_c : IVec S_ 1 := constantI S_ 1 1#1
  let main_v33 : IVec S_ 1 := (fun x v => Host.reduce IntOp.andi x v reducesTo_S16x1024x256_S_d0_1_2 h_S_) main_v32 main_c
  let main_v34 : FVec F S16x1024x2 .f32 := Host.absf main_arg1
  let main_cst_2 : FVec F S_ .f32 := constant S_ .f32 0x7F800000#32
  let main_v35 : FVec F S16x1024x2 .f32 := broadcastInDim S16x1024x2 ![] bcast_S_S16x1024x2 main_cst_2
  let main_v36 : IVec S16x1024x2 1 := cmpf .olt main_v34 main_v35
  let main_c_3 : IVec S_ 1 := constantI S_ 1 1#1
  let main_v37 : IVec S_ 1 := (fun x v => Host.reduce IntOp.andi x v reducesTo_S16x1024x2_S_d0_1_2 h_S_) main_v36 main_c_3
  let main_v38 : IVec S_ 1 := andi main_v33 main_v37
  let main_v39 : FVec F S16x128x2 .f32 := Host.absf main_arg2
  let main_cst_4 : FVec F S_ .f32 := constant S_ .f32 0x7F800000#32
  let main_v40 : FVec F S16x128x2 .f32 := broadcastInDim S16x128x2 ![] bcast_S_S16x128x2 main_cst_4
  fn_part2 (F := F) main_arg3 main_v22 main_v29 main_v38 main_v39 main_v40

def fn {F : FTy → Type} [FloatOps F] (main_arg0 : FVec F S16x1024x256 .f32) (main_arg1 : FVec F S16x1024x2 .f32) (main_arg2 : FVec F S16x128x2 .f32) (main_arg3 : IVec S16x128 32) : IVec S_ 1 :=
  let main_v0 : FVec F S16384x2 .f32 := shapeCast S16384x2 main_arg1 shapeCasts_S16x1024x2_S16384x2
  let main_v1 : FVec F S2048x2 .f32 := shapeCast S2048x2 main_arg2 shapeCasts_S16x128x2_S2048x2
  let main_v2 : FVec F S16384x1 .f32 := (extractStridedSlice S16384x1 ![0, 0] · slices_S16384x2_S16384x1_0_0) main_v0
  let main_v3 : FVec F S16384 .f32 := shapeCast S16384 main_v2 shapeCasts_S16384x1_S16384
  let main_v4 : FVec F S16384x1 .f32 := (extractStridedSlice S16384x1 ![0, 1] · slices_S16384x2_S16384x1_0_1) main_v0
  let main_v5 : FVec F S16384 .f32 := shapeCast S16384 main_v4 shapeCasts_S16384x1_S16384
  let main_cst : FVec F S_ .f32 := constant S_ .f32 0x3F000000#32
  let main_v6 : FVec F S16384 .f32 := broadcastInDim S16384 ![] bcast_S_S16384 main_cst
  let main_v7 : FVec F S16384 .f32 := mulf main_v6 main_v5
  let main_v8 : FVec F S16384 .f32 := subf main_v3 main_v7
  let main_v9 : FVec F S16384x1 .f32 := (extractStridedSlice S16384x1 ![0, 0] · slices_S16384x2_S16384x1_0_0) main_v0
  let main_v10 : FVec F S16384 .f32 := shapeCast S16384 main_v9 shapeCasts_S16384x1_S16384
  let main_v11 : FVec F S16384x1 .f32 := (extractStridedSlice S16384x1 ![0, 1] · slices_S16384x2_S16384x1_0_1) main_v0
  let main_v12 : FVec F S16384 .f32 := shapeCast S16384 main_v11 shapeCasts_S16384x1_S16384
  let main_cst_0 : FVec F S_ .f32 := constant S_ .f32 0x3F000000#32
  let main_v13 : FVec F S16384 .f32 := broadcastInDim S16384 ![] bcast_S_S16384 main_cst_0
  let main_v14 : FVec F S16384 .f32 := mulf main_v13 main_v12
  let main_v15 : FVec F S16384 .f32 := addf main_v10 main_v14
  let main_v16 : FVec F S16384x1 .f32 := broadcastInDim S16384x1 ![0] bcast_S16384_S16384x1_0 main_v8
  let main_v17 : FVec F S2048x1 .f32 := (extractStridedSlice S2048x1 ![0, 0] · slices_S2048x2_S2048x1_0_0) main_v1
  let main_v18 : FVec F S2048 .f32 := shapeCast S2048 main_v17 shapeCasts_S2048x1_S2048
  let main_v19 : FVec F S1x2048 .f32 := broadcastInDim S1x2048 ![1] bcast_S2048_S1x2048_1 main_v18
  let main_v20 : FVec F S16384x2048 .f32 := broadcastInDim S16384x2048 ![0, 1] bcast_S16384x1_S16384x2048_0_1 main_v16
  let main_v21 : FVec F S16384x2048 .f32 := broadcastInDim S16384x2048 ![0, 1] bcast_S1x2048_S16384x2048_0_1 main_v19
  fn_part1 (F := F) main_arg0 main_arg1 main_arg2 main_arg3 main_v1 main_v15 main_v20 main_v21
-- ==== Kernel.lean ====
abbrev S16x1024x256 : Shape := ⟨3, ![16, 1024, 256]⟩
abbrev S16x1024x2 : Shape := ⟨3, ![16, 1024, 2]⟩
abbrev S16x128x2 : Shape := ⟨3, ![16, 128, 2]⟩
abbrev S16x128 : Shape := ⟨2, ![16, 128]⟩
abbrev S16384x256 : Shape := ⟨2, ![16384, 256]⟩
abbrev S16384x2 : Shape := ⟨2, ![16384, 2]⟩
abbrev S2048x2 : Shape := ⟨2, ![2048, 2]⟩
abbrev S2048 : Shape := ⟨1, ![2048]⟩
abbrev S2048x1 : Shape := ⟨2, ![2048, 1]⟩
abbrev S1x256 : Shape := ⟨2, ![1, 256]⟩
abbrev S2048x256 : Shape := ⟨2, ![2048, 256]⟩
abbrev S256x2048 : Shape := ⟨2, ![256, 2048]⟩
abbrev S1x2048 : Shape := ⟨2, ![1, 2048]⟩
abbrev S3x2048 : Shape := ⟨2, ![3, 2048]⟩
abbrev S16384x2048 : Shape := ⟨2, ![16384, 2048]⟩
abbrev S512x256 : Shape := ⟨2, ![512, 256]⟩
abbrev S512x2 : Shape := ⟨2, ![512, 2]⟩
abbrev S512x2048 : Shape := ⟨2, ![512, 2048]⟩
abbrev S512 : Shape := ⟨1, ![512]⟩
abbrev S512x1 : Shape := ⟨2, ![512, 1]⟩
abbrev S16x1024x2048 : Shape := ⟨3, ![16, 1024, 2048]⟩

abbrev nBuf : Space → Nat
  | .hbm => 26
  | .vmem => 8
  | .smem => 0
  | _ => 0

abbrev bufTy : (tb : Table) → Fin (tcTables nBuf tb) → BufTy
  | .hbm, ⟨0, _⟩ => ⟨S16x1024x256, .f32⟩
  | .hbm, ⟨1, _⟩ => ⟨S16x1024x2, .f32⟩
  | .hbm, ⟨2, _⟩ => ⟨S16x128x2, .f32⟩
  | .hbm, ⟨3, _⟩ => ⟨S16x128, .i32⟩
  | .hbm, ⟨4, _⟩ => ⟨S16384x256, .f32⟩
  | .hbm, ⟨5, _⟩ => ⟨S16384x2, .f32⟩
  | .hbm, ⟨6, _⟩ => ⟨S2048x2, .f32⟩
  | .hbm, ⟨7, _⟩ => ⟨S2048, .i32⟩
  | .hbm, ⟨8, _⟩ => ⟨S2048x1, .i32⟩
  | .hbm, ⟨9, _⟩ => ⟨S1x256, .i32⟩
  | .hbm, ⟨10, _⟩ => ⟨S2048x256, .i32⟩
  | .hbm, ⟨11, _⟩ => ⟨S2048x256, .i32⟩
  | .hbm, ⟨12, _⟩ => ⟨S2048x256, .i1⟩
  | .hbm, ⟨13, _⟩ => ⟨S2048x256, .bf16⟩
  | .hbm, ⟨14, _⟩ => ⟨S256x2048, .bf16⟩
  | .hbm, ⟨15, _⟩ => ⟨S2048x1, .f32⟩
  | .hbm, ⟨16, _⟩ => ⟨S2048, .f32⟩
  | .hbm, ⟨17, _⟩ => ⟨S2048x1, .f32⟩
  | .hbm, ⟨18, _⟩ => ⟨S2048, .f32⟩
  | .hbm, ⟨19, _⟩ => ⟨S2048, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S3x2048, .f32⟩
  | .hbm, ⟨24, _⟩ => ⟨S16384x2048, .f32⟩
  | .hbm, ⟨25, _⟩ => ⟨S16x1024x2048, .f32⟩
  | .local _ .vmem, ⟨0, _⟩ => ⟨S512x256, .f32⟩
  | .local _ .vmem, ⟨1, _⟩ => ⟨S512x256, .f32⟩
  | .local _ .vmem, ⟨2, _⟩ => ⟨S512x2, .f32⟩
  | .local _ .vmem, ⟨3, _⟩ => ⟨S512x2, .f32⟩
  | .local _ .vmem, ⟨4, _⟩ => ⟨S256x2048, .bf16⟩
  | .local _ .vmem, ⟨5, _⟩ => ⟨S3x2048, .f32⟩
  | .local _ .vmem, ⟨6, _⟩ => ⟨S512x2048, .f32⟩
  | .local _ .vmem, ⟨7, _⟩ => ⟨S512x2048, .f32⟩
  | _, _ => ⟨S16x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x1024x256_S16384x256 : S16x1024x256.ShapeCasts S16384x256
  shapeCasts_S16x1024x2_S16384x2 : S16x1024x2.ShapeCasts S16384x2
  shapeCasts_S16x128x2_S2048x2 : S16x128x2.ShapeCasts S2048x2
  shapeCasts_S16x128_S2048 : S16x128.ShapeCasts S2048
  bcast_S2048_S2048x1_0 : S2048.BroadcastsInDim S2048x1 (![0] : Fin 1 → Fin S2048x1.rank)
  bcast_S2048x1_S2048x256_0_1 : S2048x1.BroadcastsInDim S2048x256 (![0, 1] : Fin 2 → Fin S2048x256.rank)
  bcast_S1x256_S2048x256_0_1 : S1x256.BroadcastsInDim S2048x256 (![0, 1] : Fin 2 → Fin S2048x256.rank)
  transposes_S2048x256_S256x2048_1_0 : S2048x256.Transposes [1, 0] S256x2048
  slices_S2048x2_S2048x1_0_0 : S2048x2.Slices ![0, 0] S2048x1
  shapeCasts_S2048x1_S2048 : S2048x1.ShapeCasts S2048
  slices_S2048x2_S2048x1_0_1 : S2048x2.Slices ![0, 1] S2048x1
  bcast_S2048_S1x2048_1 : S2048.BroadcastsInDim S1x2048 (![1] : Fin 1 → Fin S1x2048.rank)
  concatenates_S1x2048_S1x2048_S1x2048_S3x2048_d0 : Shape.Concatenates [S1x2048, S1x2048, S1x2048] S3x2048 0
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x256_S512 : S512x256.Reduces [1] S512
  shapeCasts_S512_S512x1 : S512.ShapeCasts S512x1
  broadcasts_S512x1_S512x256 : S512x1.Broadcasts S512x256
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S512x2_S512x2_0_0 : ∀ a, (![0, 0] : Fin 2 → Nat) a + S512x2.size a ≤ S512x2.size a
  h_S512x2 : 0 < S512x2.numel
  shapeCasts_S512x2_S512x2 : S512x2.ShapeCasts S512x2
  slices_S512x2_o0_0_S512x1 : S512x2.Slices ![0, 0] S512x1
  slices_S512x2_o0_1_S512x1 : S512x2.Slices ![0, 1] S512x1
  inb_S3x2048_S3x2048_0_0 : ∀ a, (![0, 0] : Fin 2 → Nat) a + S3x2048.size a ≤ S3x2048.size a
  h_S3x2048 : 0 < S3x2048.numel
  shapeCasts_S3x2048_S3x2048 : S3x2048.ShapeCasts S3x2048
  slices_S3x2048_o0_0_S1x2048 : S3x2048.Slices ![0, 0] S1x2048
  slices_S3x2048_o1_0_S1x2048 : S3x2048.Slices ![1, 0] S1x2048
  slices_S3x2048_o2_0_S1x2048 : S3x2048.Slices ![2, 0] S1x2048
  broadcasts_S512x1_S512x2048 : S512x1.Broadcasts S512x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  shapeCasts_S16384x2048_S16x1024x2048 : S16384x2048.ShapeCasts S16x1024x2048
  dot_S512x256_S256x2048_S512x2048_1_0_0_1_n_n_wf : DotDims.WF S512x256 S256x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S16384x256.size a
  hwx0_0 : ∀ i : grid0.Coords, EltTy.bits .f32 = 32 ∨ (Rect.block (s := S16384x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2.size a ≤ S16384x2.size a
  hwx0_1 : ∀ i : grid0.Coords, EltTy.bits .f32 = 32 ∨ (Rect.block (s := S16384x2) S512x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S256x2048.size a
  hwx0_2 : ∀ i : grid0.Coords, EltTy.bits .bf16 = 32 ∨ (Rect.block (s := S256x2048) S256x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x2048.size a ≤ S3x2048.size a
  hwx0_3 : ∀ i : grid0.Coords, EltTy.bits .f32 = 32 ∨ (Rect.block (s := S3x2048) S3x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S16384x2048.size a
  hwx0_4 : ∀ i : grid0.Coords, EltTy.bits .f32 = 32 ∨ (Rect.block (s := S16384x2048) S512x2048.size (cc0_transform_4 i) (hinb0_4 i)).WholeWords (EltTy.packing .f32)

variable [Facts₀]

def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf

abbrev win0_0 : Pipeline.Window sig grid0 :=
  Pipeline.Window.ofSpec (Memref.whole main_v0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S3x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x1024x256 : Shape := ⟨3, ![16, 1024, 256]⟩
abbrev S16x1024x2 : Shape := ⟨3, ![16, 1024, 2]⟩
abbrev S16x128x2 : Shape := ⟨3, ![16, 128, 2]⟩
abbrev S16x128 : Shape := ⟨2, ![16, 128]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S16384x2 : Shape := ⟨2, ![16384, 2]⟩
abbrev S2048x2 : Shape := ⟨2, ![2048, 2]⟩
abbrev S2048 : Shape := ⟨1, ![2048]⟩
abbrev S2048x1 : Shape := ⟨2, ![2048, 1]⟩
abbrev S16384x2048 : Shape := ⟨2, ![16384, 2048]⟩
abbrev S1x2048 : Shape := ⟨2, ![1, 2048]⟩
abbrev S16x1024x2048 : Shape := ⟨3, ![16, 1024, 2048]⟩

abbrev nBuf : Space → Nat
  | .hbm => 147
  | .vmem => 0
  | .smem => 0
  | _ => 0

abbrev hbmTy0_0 (i : Nat) : BufTy := match i % 128 with
  | 0 => ⟨S16x1024x256, .f32⟩
  | 1 => ⟨S16x1024x2, .f32⟩
  | 2 => ⟨S16x128x2, .f32⟩
  | 3 => ⟨S16x128, .i32⟩
  | 4 => ⟨S16384x256, .f32⟩
  | 5 => ⟨S_, .f32⟩
  | 6 => ⟨S16384, .f32⟩
  | 7 => ⟨S_, .f32⟩
  | 8 => ⟨S16384, .f32⟩
  | 9 => ⟨S16384, .f32⟩
  | 10 => ⟨S16384x1, .f32⟩
  | 11 => ⟨S16384x256, .f32⟩
  | 12 => ⟨S16384x256, .f32⟩
  | 13 => ⟨S16384x256, .f32⟩
  | 14 => ⟨S_, .f32⟩
  | 15 => ⟨S16384, .f32⟩
  | 16 => ⟨S16384x1, .f32⟩
  | 17 => ⟨S16384x256, .f32⟩
  | 18 => ⟨S16384x256, .f32⟩
  | 19 => ⟨S16384x2, .f32⟩
  | 20 => ⟨S16384x1, .f32⟩
  | 21 => ⟨S16384, .f32⟩
  | 22 => ⟨S16384x1, .f32⟩
  | 23 => ⟨S16384, .f32⟩
  | 24 => ⟨S_, .f32⟩
  | 25 => ⟨S16384, .f32⟩
  | 26 => ⟨S16384, .f32⟩
  | 27 => ⟨S16384, .f32⟩
  | 28 => ⟨S_, .f32⟩
  | 29 => ⟨S16384, .f32⟩
  | 30 => ⟨S16384, .f32⟩
  | 31 => ⟨S16384, .f32⟩
  | 32 => ⟨S16384x1, .f32⟩
  | 33 => ⟨S16384x1, .f32⟩
  | 34 => ⟨S16384x2, .f32⟩
  | 35 => ⟨S2048x2, .f32⟩
  | 36 => ⟨S2048, .i32⟩
  | 37 => ⟨S_, .i32⟩
  | 38 => ⟨S2048, .i32⟩
  | 39 => ⟨S2048, .i1⟩
  | 40 => ⟨S_, .i32⟩
  | 41 => ⟨S2048, .i32⟩
  | 42 => ⟨S2048, .i32⟩
  | 43 => ⟨S2048, .i32⟩
  | 44 => ⟨S2048x1, .i32⟩
  | 45 => ⟨S16384x2048, .f32⟩
  | 46 => ⟨S16384x2048, .f32⟩
  | 47 => ⟨S16384x1, .f32⟩
  | 48 => ⟨S16384, .f32⟩
  | 49 => ⟨S16384x1, .f32⟩
  | 50 => ⟨S2048x1, .f32⟩
  | 51 => ⟨S2048, .f32⟩
  | 52 => ⟨S1x2048, .f32⟩
  | 53 => ⟨S16384x2048, .f32⟩
  | 54 => ⟨S16384x2048, .f32⟩
  | 55 => ⟨S16384x2048, .f32⟩
  | 56 => ⟨S16384x2048, .f32⟩
  | 57 => ⟨S16384x1, .f32⟩
  | 58 => ⟨S16384, .f32⟩
  | 59 => ⟨S16384x1, .f32⟩
  | 60 => ⟨S2048x1, .f32⟩
  | 61 => ⟨S2048, .f32⟩
  | 62 => ⟨S1x2048, .f32⟩
  | 63 => ⟨S16384x2048, .f32⟩
  | 64 => ⟨S16384x2048, .f32⟩
  | 65 => ⟨S16384x2048, .f32⟩
  | 66 => ⟨S16384x2048, .f32⟩
  | 67 => ⟨S16384x2048, .f32⟩
  | 68 => ⟨S16384x1, .f32⟩
  | 69 => ⟨S16384, .f32⟩
  | 70 => ⟨S16384x1, .f32⟩
  | 71 => ⟨S16384, .f32⟩
  | 72 => ⟨S16384, .f32⟩
  | 73 => ⟨S2048x1, .f32⟩
  | 74 => ⟨S2048, .f32⟩
  | 75 => ⟨S2048x1, .f32⟩
  | 76 => ⟨S2048, .f32⟩
  | 77 => ⟨S2048, .f32⟩
  | 78 => ⟨S16384x1, .f32⟩
  | 79 => ⟨S16384, .f32⟩
  | 80 => ⟨S16384x1, .f32⟩
  | 81 => ⟨S2048x1, .f32⟩
  | 82 => ⟨S2048, .f32⟩
  | 83 => ⟨S1x2048, .f32⟩
  | 84 => ⟨S16384x2048, .f32⟩
  | 85 => ⟨S16384x2048, .f32⟩
  | 86 => ⟨S16384x2048, .f32⟩
  | 87 => ⟨S16384x1, .f32⟩
  | 88 => ⟨S16384, .f32⟩
  | 89 => ⟨S16384x1, .f32⟩
  | 90 => ⟨S2048x1, .f32⟩
  | 91 => ⟨S2048, .f32⟩
  | 92 => ⟨S1x2048, .f32⟩
  | 93 => ⟨S16384x2048, .f32⟩
  | 94 => ⟨S16384x2048, .f32⟩
  | 95 => ⟨S16384x2048, .f32⟩
  | 96 => ⟨S16384x2048, .f32⟩
  | 97 => ⟨S_, .f32⟩
  | 98 => ⟨S_, .f32⟩
  | 99 => ⟨S16384x2048, .f32⟩
  | 100 => ⟨S16384x2048, .f32⟩
  | 101 => ⟨S16384x1, .f32⟩
  | 102 => ⟨S1x2048, .f32⟩
  | 103 => ⟨S16384x2048, .f32⟩
  | 104 => ⟨S16384x2048, .f32⟩
  | 105 => ⟨S16384x2048, .f32⟩
  | 106 => ⟨S16384x2048, .f32⟩
  | 107 => ⟨S16384x2048, .f32⟩
  | 108 => ⟨S16384x1, .f32⟩
  | 109 => ⟨S16384, .f32⟩
  | 110 => ⟨S16384x1, .f32⟩
  | 111 => ⟨S2048x1, .f32⟩
  | 112 => ⟨S2048, .f32⟩
  | 113 => ⟨S1x2048, .f32⟩
  | 114 => ⟨S16384x2048, .f32⟩
  | 115 => ⟨S16384x2048, .f32⟩
  | 116 => ⟨S16384x2048, .f32⟩
  | 117 => ⟨S16384x1, .f32⟩
  | 118 => ⟨S16384, .f32⟩
  | 119 => ⟨S16384x1, .f32⟩
  | 120 => ⟨S2048x1, .f32⟩
  | 121 => ⟨S2048, .f32⟩
  | 122 => ⟨S1x2048, .f32⟩
  | 123 => ⟨S16384x2048, .f32⟩
  | 124 => ⟨S16384x2048, .f32⟩
  | 125 => ⟨S16384x2048, .f32⟩
  | 126 => ⟨S16384x2048, .f32⟩
  | 127 => ⟨S_, .f32⟩
  | _ => ⟨S16x1024x256, .f32⟩

abbrev hbmTy0_1 (i : Nat) : BufTy := match i % 128 with
  | 0 => ⟨S_, .f32⟩
  | 1 => ⟨S16384x2048, .f32⟩
  | 2 => ⟨S16384x2048, .f32⟩
  | 3 => ⟨S16384x2048, .f32⟩
  | 4 => ⟨S16384x2048, .f32⟩
  | 5 => ⟨S16384x2048, .f32⟩
  | 6 => ⟨S16384x2048, .f32⟩
  | 7 => ⟨S_, .f32⟩
  | 8 => ⟨S16384x2048, .f32⟩
  | 9 => ⟨S16384x2048, .f32⟩
  | 10 => ⟨S_, .f32⟩
  | 11 => ⟨S16384x2048, .f32⟩
  | 12 => ⟨S16384x2048, .f32⟩
  | 13 => ⟨S16384x2048, .f32⟩
  | 14 => ⟨S_, .f32⟩
  | 15 => ⟨S16384x2048, .f32⟩
  | 16 => ⟨S16384x2048, .f32⟩
  | 17 => ⟨S16384x2048, .f32⟩
  | 18 => ⟨S16x1024x2048, .f32⟩
  | _ => ⟨S16x1024x256, .f32⟩

abbrev hbmTy (i : Nat) : BufTy := match i / 128 with
  | 0 => hbmTy0_0 i
  | 1 => hbmTy0_1 i
  | _ => ⟨S16x1024x256, .f32⟩

abbrev bufTy : (tb : Table) → Fin (tcTables nBuf tb) → BufTy
  | .hbm, ⟨i, _⟩ => hbmTy i
  | _, _ => ⟨S16x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c : Ref sig .tc := ⟨.hbm, 37, rfl⟩
abbrev main_v28 : Ref sig .tc := ⟨.hbm, 38, rfl⟩
abbrev main_v29 : Ref sig .tc := ⟨.hbm, 39, rfl⟩
abbrev main_c_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_cst_5 : Ref sig .tc := ⟨.hbm, 97, rfl⟩
abbrev main_call0_v0 : Ref sig .tc := ⟨.hbm, 98, rfl⟩
abbrev main_call0_v1 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_cst_6 : Ref sig .tc := ⟨.hbm, 127, rfl⟩
abbrev main_call1_v0 : Ref sig .tc := ⟨.hbm, 128, rfl⟩
abbrev main_call1_v1 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_cst_7 : Ref sig .tc := ⟨.hbm, 135, rfl⟩
abbrev main_v118 : Ref sig .tc := ⟨.hbm, 136, rfl⟩
abbrev main_v119 : Ref sig .tc := ⟨.hbm, 137, rfl⟩
abbrev main_cst_8 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_cst_9 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩

abbrev nD : Nat := 1
abbrev τ : Topo := Topo.v7x

variable {F : FTy → Type} [FloatOps F]

class Facts₀ : Prop where
  shapeCasts_S16x1024x256_S16384x256 : S16x1024x256.ShapeCasts S16384x256
  reducesTo_S16384x256_S16384_d1 : S16384x256.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x256_0_1 : S16384x1.BroadcastsInDim S16384x256 (![0, 1] : Fin 2 → Fin S16384x256.rank)
  shapeCasts_S16x1024x2_S16384x2 : S16x1024x2.ShapeCasts S16384x2
  slices_S16384x2_S16384x1_0_0 : S16384x2.Slices ![0, 0] S16384x1
  shapeCasts_S16384x1_S16384 : S16384x1.ShapeCasts S16384
  slices_S16384x2_S16384x1_0_1 : S16384x2.Slices ![0, 1] S16384x1
  concatenates_S16384x1_S16384x1_S16384x2_d1 : Shape.Concatenates [S16384x1, S16384x1] S16384x2 1
  shapeCasts_S16x128x2_S2048x2 : S16x128x2.ShapeCasts S2048x2
  shapeCasts_S16x128_S2048 : S16x128.ShapeCasts S2048
  bcast_S_S2048 : S_.BroadcastsInDim S2048 (![] : Fin 0 → Fin S2048.rank)
  bcast_S2048_S2048x1_0 : S2048.BroadcastsInDim S2048x1 (![0] : Fin 1 → Fin S2048x1.rank)
  slices_S2048x2_S2048x1_0_0 : S2048x2.Slices ![0, 0] S2048x1
  shapeCasts_S2048x1_S2048 : S2048x1.ShapeCasts S2048
  bcast_S2048_S1x2048_1 : S2048.BroadcastsInDim S1x2048 (![1] : Fin 1 → Fin S1x2048.rank)
  bcast_S16384x1_S16384x2048_0_1 : S16384x1.BroadcastsInDim S16384x2048 (![0, 1] : Fin 2 → Fin S16384x2048.rank)
  bcast_S1x2048_S16384x2048_0_1 : S1x2048.BroadcastsInDim S16384x2048 (![0, 1] : Fin 2 → Fin S16384x2048.rank)
  slices_S2048x2_S2048x1_0_1 : S2048x2.Slices ![0, 1] S2048x1
  bcast_S_S16384x2048 : S_.BroadcastsInDim S16384x2048 (![] : Fin 0 → Fin S16384x2048.rank)
  shapeCasts_S16384x2048_S16x1024x2048 : S16384x2048.ShapeCasts S16x1024x2048
  gather_S16384x256_S2048x1_S16384x2048_0_1_n_n_1_1_163841_wf : GatherDims.WF S16384x256 S2048x1 S16384x2048 [0] [1] [] [1] [] 1 ![16384, 1]

variable [Facts₀]

def gather_S16384x256_S2048x1_S16384x2048_0_1_n_n_1_1_163841 : GatherDims S16384x256 S2048x1 S16384x2048 where
  offsetDims := [0]
  collapsedSliceDims := [1]
  operandBatchingDims := []
  startIndicesBatchingDims := []
  startIndexMap := [1]
  indexVectorDim := 1
  sliceSizes := ![16384, 1]
  wf := gather_S16384x256_S2048x1_S16384x2048_0_1_n_n_1_1_163841_wf

class Facts : Prop extends Facts₀ where

variable [Facts]
-- ==== Proof.KBody.lean ====
/-
  What the kernel body stores, as one pure function of the four input blocks it loads.

  The body loads its four input blocks whole (the logits block, the predictions block, the 0/1 class table and the
  target table), computes, and stores one value over the whole output block.  `pay` is that stored value as a
  function of the loaded blocks, and `out4` is what the output buffer holds afterwards: the one store covers it.
-/
import proofs.«409946_j67886253080772_2_alg».proof.Proof.Gen.Kernel.Skeleton
import Idealize.ShloMosaic.Lib.Pipeline.FrameBody

set_option maxRecDepth 16384

noncomputable section

namespace Cert.Kernel.Hand

open Idealize.ShloMosaic Idealize.ShloMosaic.TcCoe Idealize.SL.Sem
open Cert.Kernel Cert.Kernel.Gen

variable {F : FTy → Type} [FloatOps F]

/-- The whole-buffer rectangles the body loads and stores through. -/
abbrev r0 : Rect S512x256 := Rect.unit (s := S512x256) ![0, 0] S512x256.size inb_S512x256_S512x256_0_0
abbrev r1 : Rect S512x2 := Rect.unit (s := S512x2) ![0, 0] S512x2.size inb_S512x2_S512x2_0_0
abbrev r2 : Rect S256x2048 := Rect.unit (s := S256x2048) ![0, 0] S256x2048.size inb_S256x2048_S256x2048_0_0
abbrev r3 : Rect S3x2048 := Rect.unit (s := S3x2048) ![0, 0] S3x2048.size inb_S3x2048_S3x2048_0_0
abbrev r4 : Rect S512x2048 := Rect.unit (s := S512x2048) ![0, 0] S512x2048.size inb_S512x2048_S512x2048_0_0

/-- The value the body stores, from the blocks it loaded: `v0` the logits, `v15` the predictions, `v12` the class
    table, `v25` the target table. -/
def payOf (v0 : Vec F S512x256 .f32) (v15 : Vec F S512x2 .f32) (v12 : Vec F S256x2048 .bf16) (v25 : Vec F S3x2048 .f32) :
    FVec F S512x2048 .f32 :=
  k0_pay1 (k0_pay2 v0 v12) (k0_pay6 v15) (k0_pay7 v15) (k0_pay11 v25) (k0_pay12 v15 v25) (k0_pay13 v15 v25)
    (k0_pay14 v15 v25) (Scalar.ofBits .f32 0x00000000#32)

/-- The same from the four buffers' contents, each read through its whole-buffer rectangle. -/
def pay (x0 : Vec F S512x256 .f32) (x1 : Vec F S512x2 .f32) (x2 : Vec F S256x2048 .bf16) (x3 : Vec F S3x2048 .f32) :
    FVec F S512x2048 .f32 :=
  payOf (View.ld x0 r0) (View.ld x1 r1) (View.ld x2 r2) (View.ld x3 r3)

/-- The output buffer after the body: its one store, over the whole block. -/
def out4 (x0 : Vec F S512x256 .f32) (x1 : Vec F S512x2 .f32) (x2 : Vec F S256x2048 .bf16) (x3 : Vec F S3x2048 .f32) :
    Vec F S512x2048 .f32 :=
  View.canon [⟨r4, pay x0 x1 x2 x3⟩]

/-- The one store covers the buffer. -/
theorem cover4 (p0 : Vec F S512x2048 .f32) (y : S512x2048.Idx) :
    ∃ pc ∈ ([⟨r4, p0⟩] : List (View.Piece (Elt F) S512x2048 .f32)), y ∈ pc.1.set :=
  View.cover_of_tiled [⟨r4, p0⟩] S512x2048.size (by rfl) y

end Cert.Kernel.Hand

end
-- ==== Proof.KFrame.lean ====
/-
  The frame of the fused program.

  Its @main is three stretches of host lines (the arguments flattened to two axes, the 0/1 class table built and
  transposed, the target table assembled by a concatenation), then one pipelined region over 32 grid points, then one
  reshape of the result.  The host lines before the region write none of the four arguments and the line after it
  writes only the reshaped result, so the arguments end as they were launched.

  The region's body loads its four input blocks whole and stores one value over the whole output block: what it
  leaves in the output buffer is a closed function of the input blocks (`out4`), and every input buffer holds its
  block at every point, fetched there or not.  From these the library's frame run around a region gives the run of
  @main and the frame claim.
-/
import proofs.«409946_j67886253080772_2_alg».proof.Proof.Gen.Kernel.Launch
import proofs.«409946_j67886253080772_2_alg».proof.Proof.Gen.Kernel.Skeleton
import proofs.«409946_j67886253080772_2_alg».proof.Proof.Gen.Kernel.Points
import proofs.«409946_j67886253080772_2_alg».proof.Proof.KBody
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents of a core when the region is entered, as a valuation: after the host lines before it. -/
abbrev V0 (c : Dev nD) : Valuation τ sig (Elt F) := StableHlo.after (List.flatten [hostOps0, hostOps0_1, hostOps0_2]) (fun b => m (c, b))
/-- The same read at a reference. -/
abbrev V (c : Dev nD) (b : Ref sig .tc) : Buf (Elt F) ((c : Thread nD τ).loc b) := V0 m c (Proc.devRef .tc b)

/-- No host line allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the one later line, at the contents after the earlier lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩)
    (fun c => (main_chain c).trans rfl)

/-- The line after the region touches the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And writes no array of the pipeline: it writes the reshaped result only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- The host lines before the region write none of the four arguments. -/
theorem V_main_arg0 (c : Dev nD) : V m c main_arg0 = m ((c : Thread nD τ).loc main_arg0) := by
  dsimp only [V, V0]
  simp only [hostOps0, hostOps0_1, hostOps0_2, List.flatten_cons, List.flatten_nil, List.append_nil, List.cons_append, List.nil_append]
  after_results
theorem V_main_arg1 (c : Dev nD) : V m c main_arg1 = m ((c : Thread nD τ).loc main_arg1) := by
  dsimp only [V, V0]
  simp only [hostOps0, hostOps0_1, hostOps0_2, List.flatten_cons, List.flatten_nil, List.append_nil, List.cons_append, List.nil_append]
  after_results
theorem V_main_arg2 (c : Dev nD) : V m c main_arg2 = m ((c : Thread nD τ).loc main_arg2) := by
  dsimp only [V, V0]
  simp only [hostOps0, hostOps0_1, hostOps0_2, List.flatten_cons, List.flatten_nil, List.append_nil, List.cons_append, List.nil_append]
  after_results
theorem V_main_arg3 (c : Dev nD) : V m c main_arg3 = m ((c : Thread nD τ).loc main_arg3) := by
  dsimp only [V, V0]
  simp only [hostOps0, hostOps0_1, hostOps0_2, List.flatten_cons, List.flatten_nil, List.append_nil, List.cons_append, List.nil_append]
  after_results

/-! ## The windows' blocks -/

/-- A window's block at a point, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, fetched there or not, for any proof
    data whose array is the region-entry contents and whose body leaves the block in place: where a window is not
    fetched its block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A buffer that is no array of the pipeline and is not the reshaped result ends, after the line that follows the
    region, at its region-entry contents. -/
theorem tail_of_ne (dats : (p : Fin 1) → (c : Dev nD) → Dat τ (Elt F) Unit ℕ (UR sig nD τ) ℕ (cfgs p) c) (c : Dev nD)
    (b : Ref sig .tc) (hb : ∀ w, Pipeline.arrRef spec0 w ≠ b) (hne : b ≠ main_v16) :
    Pipeline.afterTail₀ cfgs dats 0 (V0 m) [hostOps1] c b = V m c b := by
  unfold Pipeline.afterTail₀
  simp only [hostOps1, List.flatten_cons, List.flatten_nil, List.append_nil, StableHlo.after_cons, StableHlo.after_nil]
  rw [StableHlo.reshape_result_ne (h := hne)]
  exact Pipeline.withArrays_of_ne _ c _ _ b hb

/-- The frame claim's post from a frame run: no argument is an array of the pipeline, so each ends as the line after
    the region leaves it, which is as the region found it, which is as it was launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans
        ((tail_of_ne m dats c main_arg0 (by decide) (by decide)).trans (V_main_arg0 m c)),
      ((h c).2 main_arg1 (Pipeline.mem_restRefs_of main_arg1 (by decide) (by decide))).trans
        ((tail_of_ne m dats c main_arg1 (by decide) (by decide)).trans (V_main_arg1 m c)),
      ((h c).2 main_arg2 (Pipeline.mem_restRefs_of main_arg2 (by decide) (by decide))).trans
        ((tail_of_ne m dats c main_arg2 (by decide) (by decide)).trans (V_main_arg2 m c)),
      ((h c).2 main_arg3 (Pipeline.mem_restRefs_of main_arg3 (by decide) (by decide))).trans
        ((tail_of_ne m dats c main_arg3 (by decide) (by decide)).trans (V_main_arg3 m c))⟩) h

/-! ## The body's triple -/

set_option maxHeartbeats 1000000 in
/-- The body at any grid point, on whole staging memrefs, the inputs' at read contents and the output's at anything,
    runs to the continuation holding the inputs' as they were and the output's at `out4` of the inputs'. -/
theorem sound_kernel (c : Dev nD) (E : Set ℕ) (i : grid0.Coords)
    (arg1 : Memref sig .tc .vmem S512x256 .f32) (harg1 : arg1.IsWhole) (arg2 : Memref sig .tc .vmem S512x2 .f32) (harg2 : arg2.IsWhole)
    (arg3 : Memref sig .tc .vmem S256x2048 .bf16) (harg3 : arg3.IsWhole) (arg4 : Memref sig .tc .vmem S3x2048 .f32) (harg4 : arg4.IsWhole)
    (arg5 : Memref sig .tc .vmem S512x2048 .f32) (harg5 : arg5.IsWhole)
    (x0 : Vec F S512x256 .f32) (x1 : Vec F S512x2 .f32) (x2 : Vec F S256x2048 .bf16) (x3 : Vec F S3x2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4 x0 x1 x2 x3)) -∗ K ⟨⟩))
      ⊢ wp frame (wpE (defs₀ (F := F)) Variants.none c none) E (cc0__matcher_kernel i arg1 harg1 arg2 harg2 arg3 harg3 arg4 harg4 arg5 harg5) K := by
  simp only [cc0__matcher_kernel_eq_skeleton, k0_part1_eq_skeleton]; unfold cc0__matcher_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

/-! ## The pipeline's proof data -/

/-- The proof data of the one pipeline on a core: the arrays as the region finds them; after the body at a point each
    input's buffer at its block and the output's at `out4` of the input blocks; the class's invariant; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t) (iblk m c 2 t) (iblk m c 3 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out4 (iblk m c 0 t) (iblk m c 1 t) (iblk m c 2 t) (iblk m c 3 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- For any values, from any memory with zero counters: every weakly fair execution of @main terminates, and every
    final state has every array of the pipeline at what the library computes from the proof data and every other
    unscoped buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim at any float instance: the program runs and its four arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.Kernel.Hand

end
-- ==== Proof.KIBody.lean ====
/-
  What the kernel body stores, as one pure function of the four input blocks it loads.

  The body loads its four input blocks whole (the logits block, the predictions block, the 0/1 class table and the
  target table), computes, and stores one value over the whole output block.  `pay` is that stored value as a
  function of the loaded blocks, and `out4` is what the output buffer holds afterwards: the one store covers it.
-/
import proofs.«409946_j67886253080772_2_alg».proof.Proof.Gen.KernelIdeal.Skeleton
import Idealize.ShloMosaic.Lib.Pipeline.FrameBody

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F]

/-- The whole-buffer rectangles the body loads and stores through. -/
abbrev r0 : Rect S512x256 := Rect.unit (s := S512x256) ![0, 0] S512x256.size inb_S512x256_S512x256_0_0
abbrev r1 : Rect S512x2 := Rect.unit (s := S512x2) ![0, 0] S512x2.size inb_S512x2_S512x2_0_0
abbrev r2 : Rect S256x2048 := Rect.unit (s := S256x2048) ![0, 0] S256x2048.size inb_S256x2048_S256x2048_0_0
abbrev r3 : Rect S3x2048 := Rect.unit (s := S3x2048) ![0, 0] S3x2048.size inb_S3x2048_S3x2048_0_0
abbrev r4 : Rect S512x2048 := Rect.unit (s := S512x2048) ![0, 0] S512x2048.size inb_S512x2048_S512x2048_0_0

/-- The value the body stores, from the blocks it loaded: `v0` the logits, `v15` the predictions, `v12` the class
    table, `v25` the target table. -/
def payOf (v0 : Vec F S512x256 .f32) (v15 : Vec F S512x2 .f32) (v12 : Vec F S256x2048 .bf16) (v25 : Vec F S3x2048 .f32) :
    FVec F S512x2048 .f32 :=
  k0_pay1 (k0_pay2 v0 v12) (k0_pay6 v15) (k0_pay7 v15) (k0_pay11 v25) (k0_pay12 v15 v25) (k0_pay13 v15 v25)
    (k0_pay14 v15 v25) (Scalar.ofBits .f32 0x00000000#32)

/-- The same from the four buffers' contents, each read through its whole-buffer rectangle. -/
def pay (x0 : Vec F S512x256 .f32) (x1 : Vec F S512x2 .f32) (x2 : Vec F S256x2048 .bf16) (x3 : Vec F S3x2048 .f32) :
    FVec F S512x2048 .f32 :=
  payOf (View.ld x0 r0) (View.ld x1 r1) (View.ld x2 r2) (View.ld x3 r3)

/-- The output buffer after the body: its one store, over the whole block. -/
def out4 (x0 : Vec F S512x256 .f32) (x1 : Vec F S512x2 .f32) (x2 : Vec F S256x2048 .bf16) (x3 : Vec F S3x2048 .f32) :
    Vec F S512x2048 .f32 :=
  View.canon [⟨r4, pay x0 x1 x2 x3⟩]

/-- The one store covers the buffer. -/
theorem cover4 (p0 : Vec F S512x2048 .f32) (y : S512x2048.Idx) :
    ∃ pc ∈ ([⟨r4, p0⟩] : List (View.Piece (Elt F) S512x2048 .f32)), y ∈ pc.1.set :=
  View.cover_of_tiled [⟨r4, p0⟩] S512x2048.size (by rfl) y

end Cert.KernelIdeal.Hand

end
-- ==== Proof.KIFrame.lean ====
/-
  The frame of the fused program.

  Its @main is three stretches of host lines (the arguments flattened to two axes, the 0/1 class table built and
  transposed, the target table assembled by a concatenation), then one pipelined region over 32 grid points, then one
  reshape of the result.  The host lines before the region write none of the four arguments and the line after it
  writes only the reshaped result, so the arguments end as they were launched.

  The region's body loads its four input blocks whole and stores one value over the whole output block: what it
  leaves in the output buffer is a closed function of the input blocks (`out4`), and every input buffer holds its
  block at every point, fetched there or not.  From these the library's frame run around a region gives the run of
  @main and the frame claim.
-/
import proofs.«409946_j67886253080772_2_alg».proof.Proof.Gen.KernelIdeal.Launch
import proofs.«409946_j67886253080772_2_alg».proof.Proof.Gen.KernelIdeal.Skeleton
import proofs.«409946_j67886253080772_2_alg».proof.Proof.Gen.KernelIdeal.Points
import proofs.«409946_j67886253080772_2_alg».proof.Proof.KIBody
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents of a core when the region is entered, as a valuation: after the host lines before it. -/
abbrev V0 (c : Dev nD) : Valuation τ sig (Elt F) := StableHlo.after (List.flatten [hostOps0, hostOps0_1, hostOps0_2]) (fun b => m (c, b))
/-- The same read at a reference. -/
abbrev V (c : Dev nD) (b : Ref sig .tc) : Buf (Elt F) ((c : Thread nD τ).loc b) := V0 m c (Proc.devRef .tc b)

/-- No host line allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the one later line, at the contents after the earlier lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩)
    (fun c => (main_chain c).trans rfl)

/-- The line after the region touches the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And writes no array of the pipeline: it writes the reshaped result only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- The host lines before the region write none of the four arguments. -/
theorem V_main_arg0 (c : Dev nD) : V m c main_arg0 = m ((c : Thread nD τ).loc main_arg0) := by
  dsimp only [V, V0]
  simp only [hostOps0, hostOps0_1, hostOps0_2, List.flatten_cons, List.flatten_nil, List.append_nil, List.cons_append, List.nil_append]
  after_results
theorem V_main_arg1 (c : Dev nD) : V m c main_arg1 = m ((c : Thread nD τ).loc main_arg1) := by
  dsimp only [V, V0]
  simp only [hostOps0, hostOps0_1, hostOps0_2, List.flatten_cons, List.flatten_nil, List.append_nil, List.cons_append, List.nil_append]
  after_results
theorem V_main_arg2 (c : Dev nD) : V m c main_arg2 = m ((c : Thread nD τ).loc main_arg2) := by
  dsimp only [V, V0]
  simp only [hostOps0, hostOps0_1, hostOps0_2, List.flatten_cons, List.flatten_nil, List.append_nil, List.cons_append, List.nil_append]
  after_results
theorem V_main_arg3 (c : Dev nD) : V m c main_arg3 = m ((c : Thread nD τ).loc main_arg3) := by
  dsimp only [V, V0]
  simp only [hostOps0, hostOps0_1, hostOps0_2, List.flatten_cons, List.flatten_nil, List.append_nil, List.cons_append, List.nil_append]
  after_results

/-! ## The windows' blocks -/

/-- A window's block at a point, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, fetched there or not, for any proof
    data whose array is the region-entry contents and whose body leaves the block in place: where a window is not
    fetched its block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A buffer that is no array of the pipeline and is not the reshaped result ends, after the line that follows the
    region, at its region-entry contents. -/
theorem tail_of_ne (dats : (p : Fin 1) → (c : Dev nD) → Dat τ (Elt F) Unit ℕ (UR sig nD τ) ℕ (cfgs p) c) (c : Dev nD)
    (b : Ref sig .tc) (hb : ∀ w, Pipeline.arrRef spec0 w ≠ b) (hne : b ≠ main_v16) :
    Pipeline.afterTail₀ cfgs dats 0 (V0 m) [hostOps1] c b = V m c b := by
  unfold Pipeline.afterTail₀
  simp only [hostOps1, List.flatten_cons, List.flatten_nil, List.append_nil, StableHlo.after_cons, StableHlo.after_nil]
  rw [StableHlo.reshape_result_ne (h := hne)]
  exact Pipeline.withArrays_of_ne _ c _ _ b hb

/-- The frame claim's post from a frame run: no argument is an array of the pipeline, so each ends as the line after
    the region leaves it, which is as the region found it, which is as it was launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans
        ((tail_of_ne m dats c main_arg0 (by decide) (by decide)).trans (V_main_arg0 m c)),
      ((h c).2 main_arg1 (Pipeline.mem_restRefs_of main_arg1 (by decide) (by decide))).trans
        ((tail_of_ne m dats c main_arg1 (by decide) (by decide)).trans (V_main_arg1 m c)),
      ((h c).2 main_arg2 (Pipeline.mem_restRefs_of main_arg2 (by decide) (by decide))).trans
        ((tail_of_ne m dats c main_arg2 (by decide) (by decide)).trans (V_main_arg2 m c)),
      ((h c).2 main_arg3 (Pipeline.mem_restRefs_of main_arg3 (by decide) (by decide))).trans
        ((tail_of_ne m dats c main_arg3 (by decide) (by decide)).trans (V_main_arg3 m c))⟩) h

/-! ## The body's triple -/

set_option maxHeartbeats 1000000 in
/-- The body at any grid point, on whole staging memrefs, the inputs' at read contents and the output's at anything,
    runs to the continuation holding the inputs' as they were and the output's at `out4` of the inputs'. -/
theorem sound_kernel (c : Dev nD) (E : Set ℕ) (i : grid0.Coords)
    (arg1 : Memref sig .tc .vmem S512x256 .f32) (harg1 : arg1.IsWhole) (arg2 : Memref sig .tc .vmem S512x2 .f32) (harg2 : arg2.IsWhole)
    (arg3 : Memref sig .tc .vmem S256x2048 .bf16) (harg3 : arg3.IsWhole) (arg4 : Memref sig .tc .vmem S3x2048 .f32) (harg4 : arg4.IsWhole)
    (arg5 : Memref sig .tc .vmem S512x2048 .f32) (harg5 : arg5.IsWhole)
    (x0 : Vec F S512x256 .f32) (x1 : Vec F S512x2 .f32) (x2 : Vec F S256x2048 .bf16) (x3 : Vec F S3x2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4 x0 x1 x2 x3)) -∗ K ⟨⟩))
      ⊢ wp frame (wpE (defs₀ (F := F)) Variants.none c none) E (cc0__matcher_kernel i arg1 harg1 arg2 harg2 arg3 harg3 arg4 harg4 arg5 harg5) K := by
  simp only [cc0__matcher_kernel_eq_skeleton, k0_part1_eq_skeleton]; unfold cc0__matcher_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

/-! ## The pipeline's proof data -/

/-- The proof data of the one pipeline on a core: the arrays as the region finds them; after the body at a point each
    input's buffer at its block and the output's at `out4` of the input blocks; the class's invariant; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t) (iblk m c 2 t) (iblk m c 3 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out4 (iblk m c 0 t) (iblk m c 1 t) (iblk m c 2 t) (iblk m c 3 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- For any values, from any memory with zero counters: every weakly fair execution of @main terminates, and every
    final state has every array of the pipeline at what the library computes from the proof data and every other
    unscoped buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim at any float instance: the program runs and its four arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.KernelIdeal.Hand

end
-- ==== Proof.LibRows.lean ====
/-
  Row-wise reading of two-dimensional arrays at the ideal values, for any number of rows.

  A network that treats every row of its input alike (a chain of affine layers, pointwise
  functions, joins of feature vectors and reductions along the feature axis) is one function of a
  single row. This file says so layer by layer, at the level of whole arrays: an array is
  `ofRows f` when its row `i` is `f i`, and each layer sends `ofRows f` to `ofRows` of the
  layer's row function applied to `f i`. The statements hold for every row count, so the same
  lemma reads a block of rows and the whole array.

  * `lin w b v`: the affine map `j ↦ (∑ₖ v k · w (j,k)) + b j` (weights stored output-major).
  * `cat u v`: two feature vectors joined.
  * `rowMax`, `rowSum`: the fold of `max` from `⊥`, and the sum, over a row.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Idealize.ShloMosaic.Rows

open Idealize.ShloMosaic Idealize.ShloMosaic.ValueIdx

variable {N K M : ℕ}

/-! ## Arrays as families of rows -/

/-- The array whose row `i` is `f i`. -/
def ofRows (f : Fin N → Fin K → EReal) : FVec Ideal ⟨2, ![N, K]⟩ .f32 := fun i => f (i 0) (i 1)

/-- Row `i` of an array. -/
def rowOf (A : FVec Ideal ⟨2, ![N, K]⟩ .f32) (i : Fin N) : Fin K → EReal := fun k => A (ix2 i k)

theorem rowOf_ofRows (f : Fin N → Fin K → EReal) (i : Fin N) : rowOf (ofRows f) i = f i := rfl

theorem ofRows_apply (f : Fin N → Fin K → EReal) (i : Fin N) (k : Fin K) : ofRows f (ix2 i k) = f i k := rfl

theorem ofRows_rowOf (A : FVec Ideal ⟨2, ![N, K]⟩ .f32) : ofRows (rowOf A) = A :=
  funext fun i => (congrArg A (eq_ix2 i)).symm

/-- Two arrays are equal when they agree at every (row, column). -/
theorem ext_ix2 {A B : FVec Ideal ⟨2, ![N, K]⟩ .f32} (h : ∀ i k, A (ix2 i k) = B (ix2 i k)) : A = B :=
  funext fun j => by rw [eq_ix2 j]; exact h _ _

/-! ## A plain matrix product read at (row, column) -/

theorem plain_lhs_0 (i : (⟨2, ![N, M]⟩ : Shape).Idx) (q : (DotDims.plain N K M).contr.Idx) :
    ((DotDims.plain N K M).lhsIdx i q 0).val = (i 0).val := by
  unfold DotDims.lhsIdx
  rw [dif_neg (show ¬(0 : Fin (⟨2, ![N, K]⟩ : Shape).rank) ∈ (DotDims.plain N K M).lhsBatch from List.not_mem_nil),
    dif_pos (show (0 : Fin (⟨2, ![N, K]⟩ : Shape).rank) ∈ (DotDims.plain N K M).lhsNonContracting from List.mem_singleton.mpr rfl)]
  rfl

theorem plain_lhs_1 (i : (⟨2, ![N, M]⟩ : Shape).Idx) (q : (DotDims.plain N K M).contr.Idx) :
    ((DotDims.plain N K M).lhsIdx i q 1).val = (q ⟨0, Nat.one_pos⟩).val :=
  (DotDims.plain N K M).lhsIdx_val_of_single rfl i q

theorem plain_rhs_0 (i : (⟨2, ![N, M]⟩ : Shape).Idx) (q : (DotDims.plain N K M).contr.Idx) :
    ((DotDims.plain N K M).rhsIdx i q 0).val = (q ⟨0, Nat.one_pos⟩).val :=
  (DotDims.plain N K M).rhsIdx_val_of_single rfl i q

theorem plain_rhs_1 (i : (⟨2, ![N, M]⟩ : Shape).Idx) (q : (DotDims.plain N K M).contr.Idx) :
    ((DotDims.plain N K M).rhsIdx i q 1).val = (i 1).val := by
  unfold DotDims.rhsIdx
  rw [dif_neg (show ¬(1 : Fin (⟨2, ![K, M]⟩ : Shape).rank) ∈ (DotDims.plain N K M).rhsBatch from List.not_mem_nil),
    dif_pos (show (1 : Fin (⟨2, ![K, M]⟩ : Shape).rank) ∈ (DotDims.plain N K M).rhsNonContracting from List.mem_singleton.mpr rfl)]
  rfl

/-- The sum over the one contracted axis, re-indexed by its coordinate. -/
theorem plain_sum (l : FVec Ideal ⟨2, ![N, K]⟩ .f32) (r : FVec Ideal ⟨2, ![K, M]⟩ .f32) (i : Fin N) (j : Fin M) :
    (∑ q : (DotDims.plain N K M).contr.Idx, l ((DotDims.plain N K M).lhsIdx (ix2 i j) q) * r ((DotDims.plain N K M).rhsIdx (ix2 i j) q))
      = ∑ k : Fin K, l (ix2 i k) * r (ix2 k j) := by
  rw [← Equiv.sum_comp (contrEquiv1 (DotDims.plain N K M) K rfl rfl).symm]
  refine Finset.sum_congr rfl fun k _ => ?_
  have hk := contrEquiv1_symm_val (DotDims.plain N K M) K rfl rfl k
  have el : (DotDims.plain N K M).lhsIdx (ix2 i j) ((contrEquiv1 (DotDims.plain N K M) K rfl rfl).symm k) = ix2 i k :=
    funext fun a => Fin.ext (by
      match a with
      | ⟨0, _⟩ => exact plain_lhs_0 _ _
      | ⟨1, _⟩ => exact (plain_lhs_1 _ _).trans hk)
  have er : (DotDims.plain N K M).rhsIdx (ix2 i j) ((contrEquiv1 (DotDims.plain N K M) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into a zero accumulator, at (i, j): the sum over k of l (i,k) · r (k,j). -/
theorem matmul_plain_apply (l : FVec Ideal ⟨2, ![N, K]⟩ .f32) (r : FVec Ideal ⟨2, ![K, M]⟩ .f32) (i : Fin N) (j : Fin M) :
    matmul (DotDims.plain N K M) none l r (constant ⟨2, ![N, M]⟩ .f32 0x00000000#32) (ix2 i j)
      = ∑ k : Fin K, l (ix2 i k) * r (ix2 k j) := by
  show FloatOps.matmul (DotDims.plain N K M) none l r (constant ⟨2, ![N, M]⟩ .f32 0x00000000#32) (ix2 i j) = _
  rw [Ideal.matmul_constant_zero_apply]
  exact plain_sum l r i j

/-- The host's product, at (i, j): the same sum. -/
theorem dotGeneral_plain_apply (l : FVec Ideal ⟨2, ![N, K]⟩ .f32) (r : FVec Ideal ⟨2, ![K, M]⟩ .f32) (i : Fin N) (j : Fin M) :
    Host.dotGeneral (DotDims.plain N K M) none l r (ix2 i j) = ∑ k : Fin K, l (ix2 i k) * r (ix2 k j) := by
  show FloatOps.dotGeneral (DotDims.plain N K M) none .single l r (ix2 i j) = _
  rw [Ideal.dotGeneral_apply]
  exact plain_sum l r i j

/-! ## An affine layer -/

/-- One affine layer on a row `v`: output feature `j` is `(∑ₖ v k · w (j,k)) + b j`. -/
def lin (w : FVec Ideal ⟨2, ![M, K]⟩ .f32) (b : FVec Ideal ⟨1, ![M]⟩ .f32) (v : Fin K → EReal) : Fin M → EReal :=
  fun j => (∑ k : Fin K, v k * w (ix2 j k)) + b (ix1 j)

/-- The kernel's spelling of an affine layer: product with the transposed weights into a zero accumulator, plus the
    bias laid along every row. -/
theorem klin_eq (h : FVec Ideal ⟨2, ![N, K]⟩ .f32) (w : FVec Ideal ⟨2, ![M, K]⟩ .f32) (b : FVec Ideal ⟨1, ![M]⟩ .f32)
    (tr : (⟨2, ![M, K]⟩ : Shape).Transposes [1, 0] ⟨2, ![K, M]⟩) (sc : (⟨1, ![M]⟩ : Shape).ShapeCasts ⟨2, ![1, M]⟩)
    (bc : (⟨2, ![1, M]⟩ : Shape).Broadcasts ⟨2, ![N, M]⟩) :
    addf (matmul (DotDims.plain N K M) none h (transpose ⟨2, ![K, M]⟩ [1, 0] w tr) (constant ⟨2, ![N, M]⟩ .f32 0x00000000#32))
        (broadcastTo ⟨2, ![N, M]⟩ (shapeCast ⟨2, ![1, M]⟩ b sc) bc)
      = ofRows fun i => lin w b (rowOf h i) := by
  refine ext_ix2 fun i j => ?_
  rw [addf_apply, matmul_plain_apply, broadcastTo_1b_ab_apply, shapeCast_a_1a_apply, ofRows_apply]
  unfold lin rowOf
  exact congrArg (· + b (ix1 j)) (Finset.sum_congr rfl fun k _ => by rw [transpose_ix2_apply])

/-- The host's spelling: `dot_general` with the transposed weights, plus the bias broadcast in two steps. -/
theorem hlin_eq (h : FVec Ideal ⟨2, ![N, K]⟩ .f32) (w : FVec Ideal ⟨2, ![M, K]⟩ .f32) (b : FVec Ideal ⟨1, ![M]⟩ .f32)
    (tr : (⟨2, ![M, K]⟩ : Shape).Transposes [1, 0] ⟨2, ![K, M]⟩)
    (b1 : (⟨1, ![M]⟩ : Shape).BroadcastsInDim ⟨2, ![1, M]⟩ ![1])
    (b2 : (⟨2, ![1, M]⟩ : Shape).BroadcastsInDim ⟨2, ![N, M]⟩ ![0, 1]) :
    addf (Host.dotGeneral (DotDims.plain N K M) none h (transpose ⟨2, ![K, M]⟩ [1, 0] w tr))
        (broadcastInDim ⟨2, ![N, M]⟩ ![0, 1] b2 (broadcastInDim ⟨2, ![1, M]⟩ ![1] b1 b))
      = ofRows fun i => lin w b (rowOf h i) := by
  refine ext_ix2 fun i j => ?_
  rw [addf_apply, dotGeneral_plain_apply, Idealize.ShloMosaic.broadcastInDim_oneRow_apply, ofRows_apply]
  have e : broadcastInDim ⟨2, ![1, M]⟩ ![1] b1 b (ix2 (0 : Fin 1) j) = b (ix1 j) :=
    broadcastInDim_apply ![1] b1 b (ix2 (0 : Fin 1) j) (ix1 j) fun a => by
      match a with
      | ⟨0, _⟩ =>
        show j.val = if M = 1 then 0 else j.val
        split
        · have := j.isLt; omega
        · rfl
  rw [e]
  unfold lin rowOf
  exact congrArg (· + b (ix1 j)) (Finset.sum_congr rfl fun k _ => by rw [transpose_ix2_apply])

/-! ## Two feature vectors joined -/

/-- `u` followed by `v`. -/
def cat {A B C : ℕ} (hC : A + B = C) (u : Fin A → EReal) (v : Fin B → EReal) : Fin C → EReal :=
  fun j => if h : j.val < A then u ⟨j.val, h⟩ else v ⟨j.val - A, by have := j.isLt; omega⟩

/-- Joining two arrays along the feature axis joins their rows. -/
theorem cat_eq {A B C : ℕ} (hC : A + B = C) (x₁ : FVec Ideal ⟨2, ![N, A]⟩ .f32) (x₂ : FVec Ideal ⟨2, ![N, B]⟩ .f32)
    (hc : Shape.Concatenates [⟨2, ![N, A]⟩, ⟨2, ![N, B]⟩] ⟨2, ![N, C]⟩ 1) :
    concatenate ⟨2, ![N, C]⟩ 1 [⟨⟨2, ![N, A]⟩, x₁⟩, ⟨⟨2, ![N, B]⟩, x₂⟩] hc
      = ofRows fun i => cat hC (rowOf x₁ i) (rowOf x₂ i) := by
  refine ext_ix2 fun i j => ?_
  rw [ofRows_apply]
  unfold cat rowOf
  by_cases h : j.val < A
  · rw [dif_pos h]
    exact concatenate_pair_apply_left 1 x₁ x₂ hc (ix2 i j) rfl (ix2 i ⟨j.val, h⟩) fun b => by
      match b with
      | ⟨0, _⟩ => rfl
      | ⟨1, _⟩ => rfl
  · rw [dif_neg h]
    have hj := j.isLt
    refine concatenate_pair_apply_right 1 x₁ x₂ hc (ix2 i j) rfl rfl (ix2 i ⟨j.val - A, by omega⟩) (fun b hb => ?_) ?_
    · match b with
      | ⟨0, _⟩ => rfl
      | ⟨1, _⟩ => exact absurd rfl hb
    · show j.val - A + A = j.val
      omega

/-! ## Pointwise operations, row by row -/

section Pointwise
variable (x y : FVec Ideal ⟨2, ![N, K]⟩ .f32)

theorem sin_rows : sin x = ofRows fun i k => Ideal.sin (rowOf x i k) := ext_ix2 fun _ _ => rfl
theorem cos_rows : cos x = ofRows fun i k => Ideal.cos (rowOf x i k) := ext_ix2 fun _ _ => rfl
theorem exp_rows : exp x = ofRows fun i k => Ideal.exp (rowOf x i k) := ext_ix2 fun _ _ => rfl
theorem hsin_rows : Host.sin x = ofRows fun i k => Ideal.sin (rowOf x i k) := ext_ix2 fun _ _ => rfl
theorem hcos_rows : Host.cos x = ofRows fun i k => Ideal.cos (rowOf x i k) := ext_ix2 fun _ _ => rfl
theorem hexp_rows : Host.exp x = ofRows fun i k => Ideal.exp (rowOf x i k) := ext_ix2 fun _ _ => rfl
theorem addf_rows : addf x y = ofRows fun i k => rowOf x i k + rowOf y i k := ext_ix2 fun _ _ => rfl
theorem subf_rows : subf x y = ofRows fun i k => rowOf x i k - rowOf y i k := ext_ix2 fun _ _ => rfl
theorem mulf_rows : mulf x y = ofRows fun i k => rowOf x i k * rowOf y i k := ext_ix2 fun _ _ => rfl
theorem maximumf_rows : maximumf x y = ofRows fun i k => max (rowOf x i k) (rowOf y i k) := ext_ix2 fun _ _ => rfl
theorem divf_rows : divf x y = ofRows fun i k => Ideal.div (rowOf x i k) (rowOf y i k) := ext_ix2 fun _ _ => rfl
theorem hdivf_rows : Host.divf x y = ofRows fun i k => Ideal.div (rowOf x i k) (rowOf y i k) := ext_ix2 fun _ _ => rfl

end Pointwise

/-- A row of a kernel's scalar splat. -/
theorem rowOf_broadcast (b : BitVec 32) (i : Fin N) :
    rowOf (broadcast ⟨2, ![N, K]⟩ (Scalar.ofBits (F := Ideal) .f32 b)) i = fun _ => Ideal.ofBits .f32 b := rfl

/-- A row of the host's scalar constant broadcast to an array. -/
theorem rowOf_broadcastInDim_const (b : BitVec 32) (hb : (⟨0, ![]⟩ : Shape).BroadcastsInDim ⟨2, ![N, K]⟩ ![]) (i : Fin N) :
    rowOf (broadcastInDim ⟨2, ![N, K]⟩ ![] hb (constant (F := Ideal) ⟨0, ![]⟩ .f32 b)) i = fun _ => Ideal.ofBits .f32 b :=
  funext fun k => broadcastInDim_scalar_apply hb _ (ix2 i k)

/-! ## One value per row -/

/-- The one-axis array whose entry `i` is `f i`. -/
def ofVals (f : Fin N → EReal) : FVec Ideal ⟨1, ![N]⟩ .f32 := fun i => f (i 0)

/-- Entry `i` of a one-axis array. -/
def valOf (c : FVec Ideal ⟨1, ![N]⟩ .f32) (i : Fin N) : EReal := c (ix1 i)

theorem valOf_ofVals (f : Fin N → EReal) (i : Fin N) : valOf (ofVals f) i = f i := rfl

theorem ext_ix1 {a b : FVec Ideal ⟨1, ![N]⟩ .f32} (h : ∀ i, a (ix1 i) = b (ix1 i)) : a = b :=
  funext fun j => by rw [eq_ix1 j]; exact h _

theorem maximumf_vals (a b : FVec Ideal ⟨1, ![N]⟩ .f32) : maximumf a b = ofVals fun i => max (valOf a i) (valOf b i) :=
  ext_ix1 fun _ => rfl

theorem valOf_broadcast (b : BitVec 32) (i : Fin N) :
    valOf (broadcast ⟨1, ![N]⟩ (Scalar.ofBits (F := Ideal) .f32 b)) i = Ideal.ofBits .f32 b := rfl

theorem valOf_broadcastInDim_const (b : BitVec 32) (hb : (⟨0, ![]⟩ : Shape).BroadcastsInDim ⟨1, ![N]⟩ ![]) (i : Fin N) :
    valOf (broadcastInDim ⟨1, ![N]⟩ ![] hb (constant (F := Ideal) ⟨0, ![]⟩ .f32 b)) i = Ideal.ofBits .f32 b :=
  broadcastInDim_scalar_apply hb _ (ix1 i)

/-- The index a reduction over the feature axis reads: row `i`, feature `k`. -/
theorem lift_ix1 (h : (⟨2, ![N, M]⟩ : Shape).Reduces [1] ⟨1, ![N]⟩) (i : Fin N) (k : Fin M) :
    h.lift (ix1 i) k = ix2 i k :=
  funext fun a => Fin.ext (by
    match a with
    | ⟨0, _⟩ => rfl
    | ⟨1, _⟩ => rfl)

/-- The largest entry of a row, folded from the word `0xFF800000`'s value. -/
def rowMax (v : Fin M → EReal) : EReal := (Finset.univ : Finset (Fin M)).fold max (Ideal.ofBits .f32 0xFF800000#32) v

/-- A kernel's maximum along the feature axis. -/
theorem kmax_eq (x : FVec Ideal ⟨2, ![N, M]⟩ .f32) (h : (⟨2, ![N, M]⟩ : Shape).Reduces [1] ⟨1, ![N]⟩)
    (hφ : FKind.Formats .f32) (hacc : (0xFF800000#32 : BitVec 32) = FKind.maximumf.neutral .f32 hφ) :
    multiReduction .maximumf [1] ⟨1, ![N]⟩ x 0xFF800000#32 h hφ hacc = ofVals fun i => rowMax (rowOf x i) := by
  refine ext_ix1 fun i => ?_
  rw [Ideal.multiReduction_maximumf_single]
  show _ = rowMax (rowOf x i)
  unfold rowMax
  congr 1
  funext k
  exact congrArg x (lift_ix1 h i k)

/-- The host's maximum along the feature axis, from the same initial word. -/
theorem hmax_eq (x : FVec Ideal ⟨2, ![N, M]⟩ .f32) (h' : (⟨2, ![N, M]⟩ : Shape).ReducesTo [1] ⟨1, ![N]⟩)
    (h : (⟨2, ![N, M]⟩ : Shape).Reduces [1] ⟨1, ![N]⟩) (hu : 0 < (⟨0, ![]⟩ : Shape).numel) :
    Host.reduce FloatOps.maximumf x (constant (F := Ideal) ⟨0, ![]⟩ .f32 0xFF800000#32) h' hu
      = ofVals fun i => rowMax (rowOf x i) := by
  refine ext_ix1 fun i => ?_
  rw [Host.reduce_eq_fold_single FloatOps.maximumf x _ h' h hu]
  show _ = rowMax (rowOf x i)
  unfold rowMax
  congr 1
  funext k
  exact congrArg x (lift_ix1 h i k)

/-- A kernel's sum along the feature axis. -/
theorem ksum_eq (x : FVec Ideal ⟨2, ![N, M]⟩ .f32) (h : (⟨2, ![N, M]⟩ : Shape).Reduces [1] ⟨1, ![N]⟩)
    (hφ : FKind.Formats .f32) (hacc : (0x00000000#32 : BitVec 32) = FKind.add.neutral .f32 hφ) :
    multiReduction .add [1] ⟨1, ![N]⟩ x 0x00000000#32 h hφ hacc = ofVals fun i => ∑ k : Fin M, rowOf x i k := by
  refine ext_ix1 fun i => ?_
  rw [Ideal.multiReduction_add_single]
  exact Finset.sum_congr rfl fun k _ => congrArg x (lift_ix1 h i k)

/-- The host's sum along the feature axis from a zero initial value. -/
theorem hsum_eq (x : FVec Ideal ⟨2, ![N, M]⟩ .f32) (h' : (⟨2, ![N, M]⟩ : Shape).ReducesTo [1] ⟨1, ![N]⟩)
    (h : (⟨2, ![N, M]⟩ : Shape).Reduces [1] ⟨1, ![N]⟩) (hu : 0 < (⟨0, ![]⟩ : Shape).numel) :
    Host.reduceAdd x (constant (F := Ideal) ⟨0, ![]⟩ .f32 0x00000000#32) h' hu
      = ofVals fun i => ∑ k : Fin M, rowOf x i k := by
  refine ext_ix1 fun i => ?_
  rw [hostReduceAdd_apply, Ideal.hostReduceAdd_single h' h]
  show Ideal.ofBits .f32 0x00000000#32 + _ = _
  rw [Ideal.ofBits_zero_f32, zero_add]
  exact Finset.sum_congr rfl fun k _ => congrArg x (lift_ix1 h i k)

/-! ## One value per row laid along the row -/

/-- The kernel's way: a unit feature axis added, then broadcast along it. -/
theorem kcol_eq (c : FVec Ideal ⟨1, ![N]⟩ .f32) (sc : (⟨1, ![N]⟩ : Shape).ShapeCasts ⟨2, ![N, 1]⟩)
    (bc : (⟨2, ![N, 1]⟩ : Shape).Broadcasts ⟨2, ![N, M]⟩) :
    broadcastTo ⟨2, ![N, M]⟩ (shapeCast ⟨2, ![N, 1]⟩ c sc) bc = ofRows fun i _ => valOf c i := by
  refine ext_ix2 fun i j => ?_
  have e1 := broadcastTo_apply (shapeCast ⟨2, ![N, 1]⟩ c sc) bc (ix2 i j) (ix2 i (0 : Fin 1)) (by
    intro a
    match a with
    | ⟨0, _⟩ =>
      show i.val = if N = 1 then 0 else i.val
      split
      · have := i.isLt; omega
      · rfl
    | ⟨1, _⟩ => rfl)
  have e2 := shapeCast_apply c sc (ix2 i (0 : Fin 1)) (ix1 i) (by
    rw [Shape.rowMajor_val_two, Shape.rowMajor_val_one]; show i.val = i.val * 1 + 0; omega)
  exact e1.trans e2

/-- A unit feature axis added to a one-axis array. -/
theorem kcol1_eq (c : FVec Ideal ⟨1, ![N]⟩ .f32) (sc : (⟨1, ![N]⟩ : Shape).ShapeCasts ⟨2, ![N, 1]⟩) :
    shapeCast ⟨2, ![N, 1]⟩ c sc = ofRows fun i _ => valOf c i := by
  refine ext_ix2 fun i j => ?_
  exact shapeCast_apply c sc (ix2 i j) (ix1 i) (by
    rw [Shape.rowMajor_val_two, Shape.rowMajor_val_one]; show i.val = i.val * 1 + j.val; have := j.isLt; omega)

/-- The host's way: two `broadcast_in_dim`s. -/
theorem hcol_eq (c : FVec Ideal ⟨1, ![N]⟩ .f32) (b1 : (⟨1, ![N]⟩ : Shape).BroadcastsInDim ⟨2, ![N, 1]⟩ ![0])
    (b2 : (⟨2, ![N, 1]⟩ : Shape).BroadcastsInDim ⟨2, ![N, M]⟩ ![0, 1]) :
    broadcastInDim ⟨2, ![N, M]⟩ ![0, 1] b2 (broadcastInDim ⟨2, ![N, 1]⟩ ![0] b1 c) = ofRows fun i _ => valOf c i := by
  refine ext_ix2 fun i j => ?_
  have e1 := broadcastInDim_apply ![0, 1] b2 (broadcastInDim ⟨2, ![N, 1]⟩ ![0] b1 c) (ix2 i j) (ix2 i (0 : Fin 1)) (by
    intro a
    match a with
    | ⟨0, _⟩ =>
      show i.val = if N = 1 then 0 else i.val
      split
      · have := i.isLt; omega
      · rfl
    | ⟨1, _⟩ => rfl)
  have e2 := broadcastInDim_apply ![0] b1 c (ix2 i (0 : Fin 1)) (ix1 i) (by
    intro a
    match a with
    | ⟨0, _⟩ =>
      show i.val = if N = 1 then 0 else i.val
      split
      · have := i.isLt; omega
      · rfl)
  exact e1.trans e2

end Idealize.ShloMosaic.Rows

end
-- ==== Proof.LibDotT.lean ====
/-
  A product with output-major weights,  a · wᵀ,  read at (row, column), at the ideal values and for
  any sizes.

  The weights `w` are stored M × K (one row per OUTPUT feature); the operand `a` is N × K. Two spellings
  of the same product:
  * the kernel's: one matrix product contracting axis 1 of BOTH operands (the right operand on its
    last axis) into a zero accumulator;
  * the host's: the weights transposed to K × M first, then a plain product contracting the left
    operand's axis 1 with the transposed weights' axis 0.
  At (i, j) each is the one sum  ∑ₖ a (i, k) · w (j, k).  The statements hold for every row count, so
  the same lemma reads a block of rows and the whole array.
-/
import proofs.«409946_j67886253080772_2_alg».proof.Proof.LibRows
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.Rows

open Idealize.ShloMosaic Idealize.ShloMosaic.ValueIdx

variable {N K M : ℕ}

/-! ## The operand indices of a product whose right operand is contracted on its last axis -/

/-- The left operand's row is the result's row. -/
theorem trhs_lhs_0 (i : (⟨2, ![N, M]⟩ : Shape).Idx) (q : (DotDims.transposedRhs N K M).contr.Idx) :
    ((DotDims.transposedRhs N K M).lhsIdx i q 0).val = (i 0).val := by
  unfold DotDims.lhsIdx
  rw [dif_neg (show ¬(0 : Fin (⟨2, ![N, K]⟩ : Shape).rank) ∈ (DotDims.transposedRhs N K M).lhsBatch from List.not_mem_nil),
    dif_pos (show (0 : Fin (⟨2, ![N, K]⟩ : Shape).rank) ∈ (DotDims.transposedRhs N K M).lhsNonContracting from List.mem_singleton.mpr rfl)]
  rfl

/-- The left operand's column is the contraction coordinate. -/
theorem trhs_lhs_1 (i : (⟨2, ![N, M]⟩ : Shape).Idx) (q : (DotDims.transposedRhs N K M).contr.Idx) :
    ((DotDims.transposedRhs N K M).lhsIdx i q 1).val = (q ⟨0, Nat.one_pos⟩).val :=
  (DotDims.transposedRhs N K M).lhsIdx_val_of_single rfl i q

/-- The right operand's row is the result's column. -/
theorem trhs_rhs_0 (i : (⟨2, ![N, M]⟩ : Shape).Idx) (q : (DotDims.transposedRhs N K M).contr.Idx) :
    ((DotDims.transposedRhs N K M).rhsIdx i q 0).val = (i 1).val := by
  unfold DotDims.rhsIdx
  rw [dif_neg (show ¬(0 : Fin (⟨2, ![M, K]⟩ : Shape).rank) ∈ (DotDims.transposedRhs N K M).rhsBatch from List.not_mem_nil),
    dif_pos (show (0 : Fin (⟨2, ![M, K]⟩ : Shape).rank) ∈ (DotDims.transposedRhs N K M).rhsNonContracting from List.mem_singleton.mpr rfl)]
  rfl

/-- The right operand's column is the contraction coordinate. -/
theorem trhs_rhs_1 (i : (⟨2, ![N, M]⟩ : Shape).Idx) (q : (DotDims.transposedRhs N K M).contr.Idx) :
    ((DotDims.transposedRhs N K M).rhsIdx i q 1).val = (q ⟨0, Nat.one_pos⟩).val :=
  (DotDims.transposedRhs N K M).rhsIdx_val_of_single rfl i q

/-- The sum over the one contracted axis, re-indexed by its coordinate: the right operand is read at (column, k). -/
theorem trhs_sum {φ₁ φ₂ : FTy} (l : FVec Ideal ⟨2, ![N, K]⟩ φ₁) (r : FVec Ideal ⟨2, ![M, K]⟩ φ₂) (i : Fin N) (j : Fin M) :
    (∑ q : (DotDims.transposedRhs N K M).contr.Idx,
        l ((DotDims.transposedRhs N K M).lhsIdx (ix2 i j) q) * r ((DotDims.transposedRhs N K M).rhsIdx (ix2 i j) q))
      = ∑ k : Fin K, l (ix2 i k) * r (ix2 j k) := by
  rw [← Equiv.sum_comp (contrEquiv1 (DotDims.transposedRhs N K M) K rfl rfl).symm]
  refine Finset.sum_congr rfl fun k _ => ?_
  have hk := contrEquiv1_symm_val (DotDims.transposedRhs N K M) K rfl rfl k
  have el : (DotDims.transposedRhs N K M).lhsIdx (ix2 i j) ((contrEquiv1 (DotDims.transposedRhs N K M) K rfl rfl).symm k) = ix2 i k :=
    funext fun a => Fin.ext (by
      match a with
      | ⟨0, _⟩ => exact trhs_lhs_0 _ _
      | ⟨1, _⟩ => exact (trhs_lhs_1 _ _).trans hk)
  have er : (DotDims.transposedRhs N K M).rhsIdx (ix2 i j) ((contrEquiv1 (DotDims.transposedRhs N K M) K rfl rfl).symm k) = ix2 j k :=
    funext fun a => Fin.ext (by
      match a with
      | ⟨0, _⟩ => exact trhs_rhs_0 _ _
      | ⟨1, _⟩ => exact (trhs_rhs_1 _ _).trans hk)
  rw [el, er]

/-! ## The two spellings at (row, column) -/

/-- The kernel's spelling: a product contracting axis 1 of both operands into a zero accumulator, at (i, j), is
    ∑ₖ l (i,k) · r (j,k) — whatever the operands' float formats. -/
theorem matmul_trhs_apply {φ₁ φ₂ : FTy} (l : FVec Ideal ⟨2, ![N, K]⟩ φ₁) (r : FVec Ideal ⟨2, ![M, K]⟩ φ₂) (i : Fin N) (j : Fin M) :
    matmul (DotDims.transposedRhs N K M) none l r (constant ⟨2, ![N, M]⟩ .f32 0x00000000#32) (ix2 i j)
      = ∑ k : Fin K, l (ix2 i k) * r (ix2 j k) := by
  show FloatOps.matmul (DotDims.transposedRhs N K M) none l r (constant ⟨2, ![N, M]⟩ .f32 0x00000000#32) (ix2 i j) = _
  rw [Ideal.matmul_constant_zero_apply]
  exact trhs_sum l r i j

/-- The host's spelling: the weights transposed, then the plain product, at (i, j): the same sum. -/
theorem dotGeneral_transpose_apply (l : FVec Ideal ⟨2, ![N, K]⟩ .f32) (w : FVec Ideal ⟨2, ![M, K]⟩ .f32)
    (tr : (⟨2, ![M, K]⟩ : Shape).Transposes [1, 0] ⟨2, ![K, M]⟩) (i : Fin N) (j : Fin M) :
    Host.dotGeneral (DotDims.plain N K M) none l (transpose ⟨2, ![K, M]⟩ [1, 0] w tr) (ix2 i j)
      = ∑ k : Fin K, l (ix2 i k) * w (ix2 j k) := by
  rw [dotGeneral_plain_apply]
  exact Finset.sum_congr rfl fun k _ => by rw [transpose_ix2_apply]

end Idealize.ShloMosaic.Rows

end
-- ==== Proof.LibCosineSoftmax.lean ====
/-
  Cosine similarity of every row of an array against a table of class prototypes, then a softmax
  over the classes: row by row, at the ideal values, for any sizes.

  * `unitRow b v`: the vector `v` divided by its Euclidean length, the length clamped below by the
    value of the word `b`:  v d / max (√(∑ₑ v e · v e)) b.
  * `dots w u`: the inner products of `u` with every row of the table `w`:  k ↦ ∑_d u d · w (k,d).
  * `softmaxRow s`: k ↦ exp (s k − max s) / ∑ⱼ exp (s j − max s), the maximum folded from −∞.

  Each is read off the kernel's spelling (lane reductions, a unit axis added and broadcast, a product
  contracting the last axis of both operands into a zero accumulator) and off the host's
  (`reduce`, two `broadcast_in_dim`s, `dot_general`), as arrays of rows. The statements hold for
  every row count, so one lemma reads a block of rows and the whole array.
-/
import proofs.«409946_j67886253080772_2_alg».proof.Proof.LibRows
import proofs.«409946_j67886253080772_2_alg».proof.Proof.LibDotT
import Mathlib.Data.Finset.Fold

noncomputable section

namespace Idealize.ShloMosaic.Rows

open Idealize.ShloMosaic Idealize.ShloMosaic.ValueIdx

variable {N D K M : ℕ}

/-! ## More layers read row by row -/

theorem sqrt_rows (x : FVec Ideal ⟨2, ![N, K]⟩ .f32) : sqrt x = ofRows fun i k => Ideal.sqrt (rowOf x i k) :=
  ext_ix2 fun _ _ => rfl

theorem hsqrt_rows (x : FVec Ideal ⟨2, ![N, K]⟩ .f32) : Host.sqrt x = ofRows fun i k => Ideal.sqrt (rowOf x i k) :=
  ext_ix2 fun _ _ => rfl

/-- A column (one entry per row) laid along every row, the kernel's way. -/
theorem kspread_eq (a : FVec Ideal ⟨2, ![N, 1]⟩ .f32) (bc : (⟨2, ![N, 1]⟩ : Shape).Broadcasts ⟨2, ![N, M]⟩) :
    broadcastTo ⟨2, ![N, M]⟩ a bc = ofRows fun i _ => a (ix2 i (0 : Fin 1)) := by
  refine ext_ix2 fun i j => ?_
  exact broadcastTo_apply a bc (ix2 i j) (ix2 i (0 : Fin 1)) (by
    intro b
    match b with
    | ⟨0, _⟩ =>
      show i.val = if N = 1 then 0 else i.val
      split
      · have := i.isLt; omega
      · rfl
    | ⟨1, _⟩ => rfl)

/-- A column laid along every row, the host's way. -/
theorem hspread_eq (a : FVec Ideal ⟨2, ![N, 1]⟩ .f32) (b2 : (⟨2, ![N, 1]⟩ : Shape).BroadcastsInDim ⟨2, ![N, M]⟩ ![0, 1]) :
    broadcastInDim ⟨2, ![N, M]⟩ ![0, 1] b2 a = ofRows fun i _ => a (ix2 i (0 : Fin 1)) := by
  refine ext_ix2 fun i j => ?_
  exact broadcastInDim_apply ![0, 1] b2 a (ix2 i j) (ix2 i (0 : Fin 1)) (by
    intro b
    match b with
    | ⟨0, _⟩ =>
      show i.val = if N = 1 then 0 else i.val
      split
      · have := i.isLt; omega
      · rfl
    | ⟨1, _⟩ => rfl)

/-- One value per row given a unit feature axis, the host's way. -/
theorem hcol1_eq (c : FVec Ideal ⟨1, ![N]⟩ .f32) (b1 : (⟨1, ![N]⟩ : Shape).BroadcastsInDim ⟨2, ![N, 1]⟩ ![0]) :
    broadcastInDim ⟨2, ![N, 1]⟩ ![0] b1 c = ofRows fun i _ => valOf c i := by
  refine ext_ix2 fun i j => ?_
  exact broadcastInDim_apply ![0] b1 c (ix2 i j) (ix1 i) (by
    intro b
    match b with
    | ⟨0, _⟩ =>
      show i.val = if N = 1 then 0 else i.val
      split
      · have := i.isLt; omega
      · rfl)

/-- The host's product contracting the last axis of both operands, at (i, j): ∑ₖ l (i,k) · r (j,k). -/
theorem dotGeneral_trhs_apply (l : FVec Ideal ⟨2, ![N, K]⟩ .f32) (r : FVec Ideal ⟨2, ![M, K]⟩ .f32) (i : Fin N) (j : Fin M) :
    Host.dotGeneral (DotDims.transposedRhs N K M) none l r (ix2 i j) = ∑ k : Fin K, l (ix2 i k) * r (ix2 j k) := by
  show FloatOps.dotGeneral (DotDims.transposedRhs N K M) none .single l r (ix2 i j) = _
  rw [Ideal.dotGeneral_apply]
  exact trhs_sum l r i j

/-! ## A row divided by its clamped length -/

/-- `v` over its Euclidean length, the length clamped below by the value of the word `b`. -/
def unitRow (b : BitVec 32) (v : Fin D → EReal) : Fin D → EReal :=
  fun d => Ideal.div (v d) (max (Ideal.sqrt (∑ e : Fin D, v e * v e)) (Ideal.ofBits .f32 b))

/-- The kernel's spelling: the lane sum of squares, a unit axis, the root, the clamp against a splat, the column
    broadcast along the row, the quotient. -/
theorem knormalize_eq (x : FVec Ideal ⟨2, ![N, D]⟩ .f32) (b : BitVec 32)
    (h : (⟨2, ![N, D]⟩ : Shape).Reduces [1] ⟨1, ![N]⟩) (hφ : FKind.Formats .f32)
    (hacc : (0x00000000#32 : BitVec 32) = FKind.add.neutral .f32 hφ)
    (sc : (⟨1, ![N]⟩ : Shape).ShapeCasts ⟨2, ![N, 1]⟩) (bc : (⟨2, ![N, 1]⟩ : Shape).Broadcasts ⟨2, ![N, D]⟩) :
    divf x (broadcastTo ⟨2, ![N, D]⟩
        (maximumf (sqrt (shapeCast ⟨2, ![N, 1]⟩ (multiReduction .add [1] ⟨1, ![N]⟩ (mulf x x) 0x00000000#32 h hφ hacc) sc))
          (broadcast ⟨2, ![N, 1]⟩ (Scalar.ofBits (F := Ideal) .f32 b))) bc)
      = ofRows fun i => unitRow b (rowOf x i) := by
  rw [mulf_rows, ksum_eq, kcol1_eq, sqrt_rows, maximumf_rows, kspread_eq, divf_rows]
  rfl

/-- The host's spelling: `reduce` from zero, `broadcast_in_dim` to a column, the root, the clamp against a broadcast
    constant, `broadcast_in_dim` along the row, the quotient. -/
theorem hnormalize_eq (x : FVec Ideal ⟨2, ![N, D]⟩ .f32) (b : BitVec 32)
    (h' : (⟨2, ![N, D]⟩ : Shape).ReducesTo [1] ⟨1, ![N]⟩) (h : (⟨2, ![N, D]⟩ : Shape).Reduces [1] ⟨1, ![N]⟩)
    (hu : 0 < (⟨0, ![]⟩ : Shape).numel)
    (b1 : (⟨1, ![N]⟩ : Shape).BroadcastsInDim ⟨2, ![N, 1]⟩ ![0])
    (b0 : (⟨0, ![]⟩ : Shape).BroadcastsInDim ⟨2, ![N, 1]⟩ ![])
    (b2 : (⟨2, ![N, 1]⟩ : Shape).BroadcastsInDim ⟨2, ![N, D]⟩ ![0, 1]) :
    Host.divf x (broadcastInDim ⟨2, ![N, D]⟩ ![0, 1] b2
        (maximumf (Host.sqrt (broadcastInDim ⟨2, ![N, 1]⟩ ![0] b1
            (Host.reduceAdd (mulf x x) (constant (F := Ideal) ⟨0, ![]⟩ .f32 0x00000000#32) h' hu)))
          (broadcastInDim ⟨2, ![N, 1]⟩ ![] b0 (constant (F := Ideal) ⟨0, ![]⟩ .f32 b))))
      = ofRows fun i => unitRow b (rowOf x i) := by
  rw [mulf_rows, hsum_eq _ h' h hu, hcol1_eq, hsqrt_rows, maximumf_rows, hspread_eq, hdivf_rows]
  rfl

/-! ## Inner products with every row of a table -/

/-- The inner products of `u` with the rows of `w`. -/
def dots (w : (⟨2, ![K, D]⟩ : Shape).Idx → EReal) (u : Fin D → EReal) : Fin K → EReal :=
  fun k => ∑ d : Fin D, u d * w (ix2 k d)

/-- The kernel's spelling, whatever the operands' float formats. -/
theorem kdots_eq {φ₁ φ₂ : FTy} (a : FVec Ideal ⟨2, ![N, D]⟩ φ₁) (w : FVec Ideal ⟨2, ![K, D]⟩ φ₂) :
    matmul (DotDims.transposedRhs N D K) none a w (constant ⟨2, ![N, K]⟩ .f32 0x00000000#32)
      = ofRows fun i => dots w fun d => a (ix2 i d) :=
  ext_ix2 fun i j => by rw [matmul_trhs_apply]; rfl

/-- The host's spelling. -/
theorem hdots_eq (a : FVec Ideal ⟨2, ![N, D]⟩ .f32) (w : FVec Ideal ⟨2, ![K, D]⟩ .f32) :
    Host.dotGeneral (DotDims.transposedRhs N D K) none a w = ofRows fun i => dots w (rowOf a i) :=
  ext_ix2 fun i j => by rw [dotGeneral_trhs_apply]; rfl

/-- The kernel's cosine scores: the rows divided by their clamped lengths, changed to a narrower float format (no change
    at the ideal values), multiplied with the table. -/
theorem kcosine_eq {φ₂ : FTy} (x : FVec Ideal ⟨2, ![N, D]⟩ .f32) (w : FVec Ideal ⟨2, ![K, D]⟩ φ₂) (b : BitVec 32)
    (h : (⟨2, ![N, D]⟩ : Shape).Reduces [1] ⟨1, ![N]⟩) (hφ : FKind.Formats .f32)
    (hacc : (0x00000000#32 : BitVec 32) = FKind.add.neutral .f32 hφ)
    (sc : (⟨1, ![N]⟩ : Shape).ShapeCasts ⟨2, ![N, 1]⟩) (bc : (⟨2, ![N, 1]⟩ : Shape).Broadcasts ⟨2, ![N, D]⟩)
    (hb : FTy.bits .bf16 < FTy.bits .f32) :
    matmul (DotDims.transposedRhs N D K) none
        (truncf .bf16 (divf x (broadcastTo ⟨2, ![N, D]⟩
          (maximumf (sqrt (shapeCast ⟨2, ![N, 1]⟩ (multiReduction .add [1] ⟨1, ![N]⟩ (mulf x x) 0x00000000#32 h hφ hacc) sc))
            (broadcast ⟨2, ![N, 1]⟩ (Scalar.ofBits (F := Ideal) .f32 b))) bc)) hb)
        w (constant ⟨2, ![N, K]⟩ .f32 0x00000000#32)
      = ofRows fun i => dots w (unitRow b (rowOf x i)) := by
  rw [kdots_eq, knormalize_eq]
  rfl

/-- The host's cosine scores: both operands' rows divided by their clamped lengths, then the product. -/
theorem hcosine_eq (x : FVec Ideal ⟨2, ![N, D]⟩ .f32) (mu : FVec Ideal ⟨2, ![K, D]⟩ .f32) (b : BitVec 32) :
    Host.dotGeneral (DotDims.transposedRhs N D K) none (ofRows fun i => unitRow b (rowOf x i)) (ofRows fun k => unitRow b (rowOf mu k))
      = ofRows fun i => dots (ofRows fun k => unitRow b (rowOf mu k)) (unitRow b (rowOf x i)) := by
  rw [hdots_eq]
  rfl

/-! ## Softmax along a row -/

/-- The softmax of a row, shifted by its maximum. -/
def softmaxRow (s : Fin K → EReal) : Fin K → EReal :=
  fun k => Ideal.div (Ideal.exp (s k - rowMax s)) (∑ j : Fin K, Ideal.exp (s j - rowMax s))

/-- The fold of `max` is at least the value it starts from. -/
theorem max_init_rowMax (v : Fin M → EReal) : max (Ideal.ofBits .f32 0xFF800000#32) (rowMax v) = rowMax v :=
  max_eq_right ((Finset.le_fold_max _).mpr (Or.inl le_rfl))

/-- The kernel's numerator: exp of the row shifted by its lane maximum. -/
theorem kexpshift_eq (s : FVec Ideal ⟨2, ![N, K]⟩ .f32)
    (h : (⟨2, ![N, K]⟩ : Shape).Reduces [1] ⟨1, ![N]⟩) (hφ : FKind.Formats .f32)
    (hacc : (0xFF800000#32 : BitVec 32) = FKind.maximumf.neutral .f32 hφ)
    (sc : (⟨1, ![N]⟩ : Shape).ShapeCasts ⟨2, ![N, 1]⟩) (bc : (⟨2, ![N, 1]⟩ : Shape).Broadcasts ⟨2, ![N, K]⟩) :
    exp (subf s (broadcastTo ⟨2, ![N, K]⟩
        (shapeCast ⟨2, ![N, 1]⟩ (multiReduction .maximumf [1] ⟨1, ![N]⟩ s 0xFF800000#32 h hφ hacc) sc) bc))
      = ofRows fun i k => Ideal.exp (rowOf s i k - rowMax (rowOf s i)) := by
  rw [kmax_eq, kcol_eq, subf_rows, exp_rows]
  rfl

/-- The kernel's quotient by the lane sum. -/
theorem kdivsum_eq (v e : FVec Ideal ⟨2, ![N, K]⟩ .f32)
    (h : (⟨2, ![N, K]⟩ : Shape).Reduces [1] ⟨1, ![N]⟩) (hφ : FKind.Formats .f32)
    (hacc : (0x00000000#32 : BitVec 32) = FKind.add.neutral .f32 hφ)
    (sc : (⟨1, ![N]⟩ : Shape).ShapeCasts ⟨2, ![N, 1]⟩) (bc : (⟨2, ![N, 1]⟩ : Shape).Broadcasts ⟨2, ![N, K]⟩) :
    divf v (broadcastTo ⟨2, ![N, K]⟩
        (shapeCast ⟨2, ![N, 1]⟩ (multiReduction .add [1] ⟨1, ![N]⟩ e 0x00000000#32 h hφ hacc) sc) bc)
      = ofRows fun i k => Ideal.div (rowOf v i k) (∑ j : Fin K, rowOf e i j) := by
  rw [ksum_eq, kcol_eq, divf_rows]
  rfl

/-- The host's numerator: the row maximum from −∞, joined once more with −∞, broadcast in two steps, subtracted,
    exponentiated. -/
theorem hexpshift_eq (s : FVec Ideal ⟨2, ![N, K]⟩ .f32)
    (h' : (⟨2, ![N, K]⟩ : Shape).ReducesTo [1] ⟨1, ![N]⟩) (h : (⟨2, ![N, K]⟩ : Shape).Reduces [1] ⟨1, ![N]⟩)
    (hu : 0 < (⟨0, ![]⟩ : Shape).numel)
    (b0 : (⟨0, ![]⟩ : Shape).BroadcastsInDim ⟨1, ![N]⟩ ![])
    (b1 : (⟨1, ![N]⟩ : Shape).BroadcastsInDim ⟨2, ![N, 1]⟩ ![0])
    (b2 : (⟨2, ![N, 1]⟩ : Shape).BroadcastsInDim ⟨2, ![N, K]⟩ ![0, 1]) :
    Host.exp (subf s (broadcastInDim ⟨2, ![N, K]⟩ ![0, 1] b2 (broadcastInDim ⟨2, ![N, 1]⟩ ![0] b1
        (maximumf (broadcastInDim ⟨1, ![N]⟩ ![] b0 (constant (F := Ideal) ⟨0, ![]⟩ .f32 0xFF800000#32))
          (Host.reduce FloatOps.maximumf s (constant (F := Ideal) ⟨0, ![]⟩ .f32 0xFF800000#32) h' hu)))))
      = ofRows fun i k => Ideal.exp (rowOf s i k - rowMax (rowOf s i)) := by
  rw [hmax_eq s h' h hu, maximumf_vals, hcol_eq, subf_rows, hexp_rows]
  refine ext_ix2 fun i k => ?_
  show Ideal.exp (s (ix2 i k) - max (Ideal.ofBits .f32 0xFF800000#32) (rowMax (rowOf s i))) = _
  rw [max_init_rowMax]
  rfl

/-- The host's quotient by the row sum. -/
theorem hdivsum_eq (v e : FVec Ideal ⟨2, ![N, K]⟩ .f32)
    (h' : (⟨2, ![N, K]⟩ : Shape).ReducesTo [1] ⟨1, ![N]⟩) (h : (⟨2, ![N, K]⟩ : Shape).Reduces [1] ⟨1, ![N]⟩)
    (hu : 0 < (⟨0, ![]⟩ : Shape).numel)
    (b1 : (⟨1, ![N]⟩ : Shape).BroadcastsInDim ⟨2, ![N, 1]⟩ ![0])
    (b2 : (⟨2, ![N, 1]⟩ : Shape).BroadcastsInDim ⟨2, ![N, K]⟩ ![0, 1]) :
    Host.divf v (broadcastInDim ⟨2, ![N, K]⟩ ![0, 1] b2 (broadcastInDim ⟨2, ![N, 1]⟩ ![0] b1
        (Host.reduceAdd e (constant (F := Ideal) ⟨0, ![]⟩ .f32 0x00000000#32) h' hu)))
      = ofRows fun i k => Ideal.div (rowOf v i k) (∑ j : Fin K, rowOf e i j) := by
  rw [hsum_eq e h' h hu, hcol_eq, hdivf_rows]
  rfl

/-- Numerator over its row sum is the softmax of the row. -/
theorem softmax_of_expshift (s : FVec Ideal ⟨2, ![N, K]⟩ .f32) :
    (ofRows fun i k => Ideal.div (rowOf (ofRows fun i k => Ideal.exp (rowOf s i k - rowMax (rowOf s i))) i k)
        (∑ j : Fin K, rowOf (ofRows fun i k => Ideal.exp (rowOf s i k - rowMax (rowOf s i))) i j))
      = (ofRows fun i => softmaxRow (rowOf s i) : FVec Ideal ⟨2, ![N, K]⟩ .f32) := rfl

/-! ## The whole operator -/

/-- Row `n` of the result: the softmax over the classes of the cosine similarities of row `n` of `x` with the rows of
    `mu`, every length clamped below by the value of the word `b`. -/
def cosineSoftmax (b : BitVec 32) (x : FVec Ideal ⟨2, ![N, D]⟩ .f32) (mu : FVec Ideal ⟨2, ![K, D]⟩ .f32) :
    FVec Ideal ⟨2, ![N, K]⟩ .f32 :=
  ofRows fun n => softmaxRow (dots (ofRows fun k => unitRow b (rowOf mu k)) (unitRow b (rowOf x n)))

end Idealize.ShloMosaic.Rows

end
-- ==== Proof.Spec.lean ====
/-
  The matching cost of one (prediction, target) pair, in the two arrangements the two programs compute, and the
  whole cost matrix in each arrangement.

  A prediction is an interval given by its midpoint and width: its ends are  a = mid − ½·w  and  b = mid + ½·w.
  A target is an interval given by its ends  c, d.  With
      I = max (min b d − max a c) 0          (the length of the overlap)
      U = (b − a) + (d − c) − I              (the length of the union)
      H = max b d − min a c                  (the length of the hull)
  the cost is  5·(|a − c| + |b − d|) − p − 2·giou,  where p is the class probability of the target's label under the
  softmax of the prediction's logits and  giou = I/U − (H − U)/H.
  The first arrangement writes  |a − c| + |b − d|  as  H − (min b d − max a c),  the class probability as the inner
  product of the softmax row with a 0/1 column, and  giou  as  (I·H + U·U)/(U·H) − 1  with the hull unclipped;
  the second is the textbook one, with the hull clipped at zero.
-/
import proofs.«409946_j67886253080772_2_alg».proof.Proof.LibRows
import proofs.«409946_j67886253080772_2_alg».proof.Proof.LibCosineSoftmax

noncomputable section

namespace Matcher

open Idealize.ShloMosaic Idealize.ShloMosaic.ValueIdx Idealize.ShloMosaic.Rows

/-- The float words the programs carry, at the ideal values: ½, 0, 1, 2, 5. -/
abbrev cHalf : EReal := Ideal.ofBits .f32 0x3F000000#32
abbrev cZero : EReal := Ideal.ofBits .f32 0x00000000#32
abbrev cOne : EReal := Ideal.ofBits .f32 0x3F800000#32
abbrev cTwo : EReal := Ideal.ofBits .f32 0x40000000#32
abbrev cFive : EReal := Ideal.ofBits .f32 0x40A00000#32

/-- The left end of an interval given by midpoint and width. -/
def lo (mid w : EReal) : EReal := mid - cHalf * w
/-- Its right end. -/
def hi (mid w : EReal) : EReal := mid + cHalf * w

/-- The cost of a pair in the fused arrangement: `cls` the class term, `a b` the prediction's ends, `c d` the
    target's ends, `ar` the target's length as it is handed over (it is `d − c`). -/
def kerCost (cls a b c d ar : EReal) : EReal :=
  (cFive * ((max b d - min a c) - (min b d - max a c)) - cOne * cls)
    - cTwo * (Ideal.div
        (max (min b d - max a c) cZero * (max b d - min a c)
          + (((b - a) + ar) - max (min b d - max a c) cZero) * (((b - a) + ar) - max (min b d - max a c) cZero))
        ((((b - a) + ar) - max (min b d - max a c) cZero) * (max b d - min a c)) - cOne)

/-- The cost of a pair in the textbook arrangement: `p` the class probability. -/
def refCost (p a b c d : EReal) : EReal :=
  (cFive * (max (a - c) (-(a - c)) + max (b - d) (-(b - d))) + cOne * (-p))
    + cTwo * (-(Ideal.div (max cZero (min b d - max a c)) (((b - a) + (d - c)) - max cZero (min b d - max a c))
        - Ideal.div (max cZero (max b d - min a c) - (((b - a) + (d - c)) - max cZero (min b d - max a c)))
            (max cZero (max b d - min a c))))

/-- The fused cost matrix from the logits `L` (one row per prediction), the predictions `PB` (midpoint, width), the
    0/1 class table `OH` (one column per target) and the target table `TT` (rows: left end, right end, length). -/
def kerMatrix {N K M : ℕ} (L : FVec Ideal ⟨2, ![N, K]⟩ .f32) (PB : FVec Ideal ⟨2, ![N, 2]⟩ .f32)
    (OH : FVec Ideal ⟨2, ![K, M]⟩ .bf16) (TT : FVec Ideal ⟨2, ![3, M]⟩ .f32) : FVec Ideal ⟨2, ![N, M]⟩ .f32 :=
  fun i => kerCost (∑ k : Fin K, softmaxRow (rowOf L (i 0)) k * OH (ix2 k (i 1)))
    (lo (PB (ix2 (i 0) 0)) (PB (ix2 (i 0) 1))) (hi (PB (ix2 (i 0) 0)) (PB (ix2 (i 0) 1)))
    (TT (ix2 0 (i 1))) (TT (ix2 1 (i 1))) (TT (ix2 2 (i 1)))

/-- The textbook cost matrix from the logits, the predictions, the targets `TB` (left end, right end) and each
    target's label `lab`. -/
def refMatrix {N K M : ℕ} (L : FVec Ideal ⟨2, ![N, K]⟩ .f32) (PB : FVec Ideal ⟨2, ![N, 2]⟩ .f32)
    (TB : FVec Ideal ⟨2, ![M, 2]⟩ .f32) (lab : Fin M → Fin K) : FVec Ideal ⟨2, ![N, M]⟩ .f32 :=
  fun i => refCost (softmaxRow (rowOf L (i 0)) (lab (i 1)))
    (lo (PB (ix2 (i 0) 0)) (PB (ix2 (i 0) 1))) (hi (PB (ix2 (i 0) 0)) (PB (ix2 (i 0) 1)))
    (TB (ix2 (i 1) 0)) (TB (ix2 (i 1) 1))

/-- Each target's label as a class number, for labels known to lie in the class range. -/
def labOf {M K : ℕ} (LB : IVec ⟨1, ![M]⟩ 32)
    (h : ∀ j : Fin M, 0 ≤ (LB (ix1 j)).toInt ∧ (LB (ix1 j)).toInt < (K : ℤ)) (j : Fin M) : Fin K :=
  ⟨(LB (ix1 j)).toInt.toNat, by have := h j; omega⟩

end Matcher

end
-- ==== Proof.LibPlainAny.lean ====
/-
  A plain matrix product  a · b  (left operand N × K, right operand K × M, contracting the left operand's
  axis 1 with the right operand's axis 0) into a zero accumulator, read at (row, column) at the ideal values,
  WHATEVER THE OPERANDS' FLOAT FORMATS: at (i, j) it is the one sum  ∑ₖ a (i, k) · b (k, j).
  At the ideal values every float format is the extended reals, so a kernel that narrows its operands before
  the product computes the same sum; the statements hold for every size.
  Also: the squashing function `tanh` of an array read at an index.
-/
import proofs.«409946_j67886253080772_2_alg».proof.Proof.LibRows
import Idealize.ShloMosaic.Lib.ValueIdx
import Idealize.ShloMosaic.PureOps.Ideal.Laws

noncomputable section

namespace Idealize.ShloMosaic.Rows

open Idealize.ShloMosaic Idealize.ShloMosaic.ValueIdx

variable {N K M : ℕ}

/-- The contraction sum of a plain product re-indexed by the contracted coordinate, whatever the operands' float
    formats (at the ideal values every format is the extended reals). -/
theorem plain_sum_any {φ₁ φ₂ : FTy} (l : FVec Ideal ⟨2, ![N, K]⟩ φ₁) (r : FVec Ideal ⟨2, ![K, M]⟩ φ₂) (i : Fin N) (j : Fin M) :
    (∑ q : (DotDims.plain N K M).contr.Idx, l ((DotDims.plain N K M).lhsIdx (ix2 i j) q) * r ((DotDims.plain N K M).rhsIdx (ix2 i j) q))
      = ∑ k : Fin K, l (ix2 i k) * r (ix2 k j) := by
  rw [← Equiv.sum_comp (contrEquiv1 (DotDims.plain N K M) K rfl rfl).symm]
  refine Finset.sum_congr rfl fun k _ => ?_
  have hk := contrEquiv1_symm_val (DotDims.plain N K M) K rfl rfl k
  have el : (DotDims.plain N K M).lhsIdx (ix2 i j) ((contrEquiv1 (DotDims.plain N K M) K rfl rfl).symm k) = ix2 i k :=
    funext fun a => Fin.ext (by
      match a with
      | ⟨0, _⟩ => exact plain_lhs_0 _ _
      | ⟨1, _⟩ => exact (plain_lhs_1 _ _).trans hk)
  have er : (DotDims.plain N K M).rhsIdx (ix2 i j) ((contrEquiv1 (DotDims.plain N K M) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's plain product into a zero accumulator at (i, j), whatever the operands' float formats. -/
theorem matmul_plain_any {φ₁ φ₂ : FTy} (l : FVec Ideal ⟨2, ![N, K]⟩ φ₁) (r : FVec Ideal ⟨2, ![K, M]⟩ φ₂) (i : Fin N) (j : Fin M) :
    matmul (DotDims.plain N K M) none l r (constant ⟨2, ![N, M]⟩ .f32 0x00000000#32) (ix2 i j)
      = ∑ k : Fin K, l (ix2 i k) * r (ix2 k j) := by
  show FloatOps.matmul (DotDims.plain N K M) none l r (constant ⟨2, ![N, M]⟩ .f32 0x00000000#32) (ix2 i j) = _
  rw [Ideal.matmul_constant_zero_apply]
  exact plain_sum_any l r i j

/-- The squashing function at an index. -/
theorem tanh_at {s : Shape} {φ : FTy} (x : FVec Ideal s φ) (i : s.Idx) : tanh x i = Ideal.tanh (x i) := rfl

end Idealize.ShloMosaic.Rows

end
-- ==== Proof.KIPayload.lean ====
/-
  The value the kernel body stores, read at an index, at the ideal values.

  The body's stored block is a pointwise expression in seven arrays: the class term (a softmax of the logits,
  row by row, multiplied with the 0/1 class table), the two ends of every prediction (a column each, from the
  midpoint and the width), the targets' lengths (a row), and three arrays built from the columns of the
  predictions' ends and the rows of the targets' ends.  Read at (row p, column q) each of these is a number in
  the logits' row p, the prediction p and the target q, and the whole expression is the fused cost of that pair.
-/
import proofs.«409946_j67886253080772_2_alg».proof.Proof.KIBody
import proofs.«409946_j67886253080772_2_alg».proof.Proof.Spec
import proofs.«409946_j67886253080772_2_alg».proof.Proof.LibRows
import proofs.«409946_j67886253080772_2_alg».proof.Proof.LibCosineSoftmax
import proofs.«409946_j67886253080772_2_alg».proof.Proof.LibPlainAny
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.ValueIdx Idealize.ShloMosaic.Rows
open Cert.KernelIdeal Cert.KernelIdeal.Gen

/-! ## Layout steps read at an index -/

section Layout
variable {α : Type} {N M : ℕ}

/-- Column 0 of a two-column array, kept as a one-column array. -/
theorem col0_at (x : (⟨2, ![N, 2]⟩ : Shape).Idx → α) (h : (⟨2, ![N, 2]⟩ : Shape).Slices ![0, 0] ⟨2, ![N, 1]⟩)
    (p : Fin N) (z : Fin 1) : extractStridedSlice ⟨2, ![N, 1]⟩ ![0, 0] x h (ix2 p z) = x (ix2 p (0 : Fin 2)) :=
  extractStridedSlice_apply ![0, 0] x h (ix2 p z) (ix2 p (0 : Fin 2)) fun a => by
    match a with
    | ⟨0, _⟩ => show p.val = 0 + p.val; omega
    | ⟨1, _⟩ => show 0 = 0 + z.val; have := z.isLt; omega

/-- Column 1 of a two-column array, kept as a one-column array. -/
theorem col1_at (x : (⟨2, ![N, 2]⟩ : Shape).Idx → α) (h : (⟨2, ![N, 2]⟩ : Shape).Slices ![0, 1] ⟨2, ![N, 1]⟩)
    (p : Fin N) (z : Fin 1) : extractStridedSlice ⟨2, ![N, 1]⟩ ![0, 1] x h (ix2 p z) = x (ix2 p (1 : Fin 2)) :=
  extractStridedSlice_apply ![0, 1] x h (ix2 p z) (ix2 p (1 : Fin 2)) fun a => by
    match a with
    | ⟨0, _⟩ => show p.val = 0 + p.val; omega
    | ⟨1, _⟩ => show 1 = 1 + z.val; have := z.isLt; omega

/-- Row `r` of a three-row array, kept as a one-row array. -/
theorem row_at (r : Fin 3) (x : (⟨2, ![3, M]⟩ : Shape).Idx → α) (h : (⟨2, ![3, M]⟩ : Shape).Slices ![r.val, 0] ⟨2, ![1, M]⟩)
    (z : Fin 1) (q : Fin M) : extractStridedSlice ⟨2, ![1, M]⟩ ![r.val, 0] x h (ix2 z q) = x (ix2 r q) :=
  extractStridedSlice_apply ![r.val, 0] x h (ix2 z q) (ix2 r q) fun a => by
    match a with
    | ⟨0, _⟩ => show r.val = r.val + z.val; have := z.isLt; omega
    | ⟨1, _⟩ => show q.val = 0 + q.val; omega

/-- A one-column array laid along every row, read at (p, q): the column's entry p. -/
theorem spread_col_at (a : (⟨2, ![N, 1]⟩ : Shape).Idx → α) (bc : (⟨2, ![N, 1]⟩ : Shape).Broadcasts ⟨2, ![N, M]⟩)
    (p : Fin N) (q : Fin M) : broadcastTo ⟨2, ![N, M]⟩ a bc (ix2 p q) = a (ix2 p (0 : Fin 1)) :=
  broadcastTo_apply a bc (ix2 p q) (ix2 p (0 : Fin 1)) (by
    intro b
    match b with
    | ⟨0, _⟩ =>
      show p.val = if N = 1 then 0 else p.val
      split
      · have := p.isLt; omega
      · rfl
    | ⟨1, _⟩ => rfl)

end Layout

/-! ## The class term -/

/-- The softmax of every row, in the kernel's spelling: the lane maximum, the shifted exponentials, the lane sum,
    the quotient. -/
theorem softmax_block {N K : ℕ} (s : FVec Ideal ⟨2, ![N, K]⟩ .f32)
    (h : (⟨2, ![N, K]⟩ : Shape).Reduces [1] ⟨1, ![N]⟩) (hφ : FKind.Formats .f32)
    (hmax : (0xFF800000#32 : BitVec 32) = FKind.maximumf.neutral .f32 hφ)
    (hadd : (0x00000000#32 : BitVec 32) = FKind.add.neutral .f32 hφ)
    (sc : (⟨1, ![N]⟩ : Shape).ShapeCasts ⟨2, ![N, 1]⟩) (bc : (⟨2, ![N, 1]⟩ : Shape).Broadcasts ⟨2, ![N, K]⟩) :
    divf (exp (subf s (broadcastTo ⟨2, ![N, K]⟩
          (shapeCast ⟨2, ![N, 1]⟩ (multiReduction .maximumf [1] ⟨1, ![N]⟩ s 0xFF800000#32 h hφ hmax) sc) bc)))
        (broadcastTo ⟨2, ![N, K]⟩ (shapeCast ⟨2, ![N, 1]⟩ (multiReduction .add [1] ⟨1, ![N]⟩
          (exp (subf s (broadcastTo ⟨2, ![N, K]⟩
            (shapeCast ⟨2, ![N, 1]⟩ (multiReduction .maximumf [1] ⟨1, ![N]⟩ s 0xFF800000#32 h hφ hmax) sc) bc)))
          0x00000000#32 h hφ hadd) sc) bc)
      = ofRows fun i => softmaxRow (rowOf s i) := by
  rw [kexpshift_eq, kdivsum_eq, softmax_of_expshift]

/-- The softmax of every row, narrowed to a shorter float format (no change at the ideal values), multiplied with a
    table into a zero accumulator: at (p, q) the inner product of the softmax of row p with the table's column q. -/
theorem class_term_at {N K M : ℕ} (s : FVec Ideal ⟨2, ![N, K]⟩ .f32) (t : FVec Ideal ⟨2, ![K, M]⟩ .bf16)
    (h : (⟨2, ![N, K]⟩ : Shape).Reduces [1] ⟨1, ![N]⟩) (hφ : FKind.Formats .f32)
    (hmax : (0xFF800000#32 : BitVec 32) = FKind.maximumf.neutral .f32 hφ)
    (hadd : (0x00000000#32 : BitVec 32) = FKind.add.neutral .f32 hφ)
    (sc : (⟨1, ![N]⟩ : Shape).ShapeCasts ⟨2, ![N, 1]⟩) (bc : (⟨2, ![N, 1]⟩ : Shape).Broadcasts ⟨2, ![N, K]⟩)
    (hb : FTy.bits .bf16 < FTy.bits .f32) (p : Fin N) (q : Fin M) :
    matmul (DotDims.plain N K M) none
        (truncf .bf16 (divf (exp (subf s (broadcastTo ⟨2, ![N, K]⟩
            (shapeCast ⟨2, ![N, 1]⟩ (multiReduction .maximumf [1] ⟨1, ![N]⟩ s 0xFF800000#32 h hφ hmax) sc) bc)))
          (broadcastTo ⟨2, ![N, K]⟩ (shapeCast ⟨2, ![N, 1]⟩ (multiReduction .add [1] ⟨1, ![N]⟩
            (exp (subf s (broadcastTo ⟨2, ![N, K]⟩
              (shapeCast ⟨2, ![N, 1]⟩ (multiReduction .maximumf [1] ⟨1, ![N]⟩ s 0xFF800000#32 h hφ hmax) sc) bc)))
            0x00000000#32 h hφ hadd) sc) bc)) hb)
        t (constant ⟨2, ![N, M]⟩ .f32 0x00000000#32) (ix2 p q)
      = ∑ k : Fin K, softmaxRow (rowOf s p) k * t (ix2 k q) := by
  rw [softmax_block, matmul_plain_any]
  rfl

/-- The class term at (p, q): the softmax of the logits' row p against column q of the class table. -/
theorem pay2_at (v0 : Vec Ideal S512x256 .f32) (v12 : Vec Ideal S256x2048 .bf16) (p : Fin 512) (q : Fin 2048) :
    k0_pay2 (F := Ideal) v0 v12 (ix2 p q) = ∑ k : Fin 256, softmaxRow (rowOf v0 p) k * v12 (ix2 k q) := by
  have e0 : shapeCast S512x256 v0 shapeCasts_S512x256_S512x256 = v0 := shapeCast_self v0 _
  have e12 : shapeCast S256x2048 v12 shapeCasts_S256x2048_S256x2048 = v12 := shapeCast_self v12 _
  have key := class_term_at (N := 512) (K := 256) (M := 2048) (shapeCast S512x256 v0 shapeCasts_S512x256_S512x256)
    (shapeCast S256x2048 v12 shapeCasts_S256x2048_S256x2048) reduces_S512x256_S512 (.inl rfl) rfl rfl
    shapeCasts_S512_S512x1 broadcasts_S512x1_S512x256 bitsLt_bf16_f32 p q
  exact key.trans (by rw [e0, e12])

/-! ## The predictions' ends (columns) and the targets' rows -/

/-- A prediction's midpoint. -/
theorem pay4_at (v15 : Vec Ideal S512x2 .f32) (p : Fin 512) (z : Fin 1) :
    k0_pay4 (F := Ideal) v15 (ix2 p z) = v15 (ix2 p (0 : Fin 2)) :=
  (col0_at (shapeCast S512x2 v15 shapeCasts_S512x2_S512x2) slices_S512x2_o0_0_S512x1 p z).trans
    (congrFun (shapeCast_self v15 shapeCasts_S512x2_S512x2) _)

/-- A prediction's width. -/
theorem pay5_at (v15 : Vec Ideal S512x2 .f32) (p : Fin 512) (z : Fin 1) :
    k0_pay5 (F := Ideal) v15 (ix2 p z) = v15 (ix2 p (1 : Fin 2)) :=
  (col1_at (shapeCast S512x2 v15 shapeCasts_S512x2_S512x2) slices_S512x2_o0_1_S512x1 p z).trans
    (congrFun (shapeCast_self v15 shapeCasts_S512x2_S512x2) _)

/-- A prediction's left end. -/
theorem pay6_at (v15 : Vec Ideal S512x2 .f32) (p : Fin 512) (z : Fin 1) :
    k0_pay6 (F := Ideal) v15 (ix2 p z) = Matcher.lo (v15 (ix2 p (0 : Fin 2))) (v15 (ix2 p (1 : Fin 2))) := by
  show (k0_pay4 (F := Ideal) v15 (ix2 p z) : EReal) - Matcher.cHalf * (k0_pay5 (F := Ideal) v15 (ix2 p z) : EReal) = _
  rw [pay4_at, pay5_at]
  rfl

/-- A prediction's right end. -/
theorem pay7_at (v15 : Vec Ideal S512x2 .f32) (p : Fin 512) (z : Fin 1) :
    k0_pay7 (F := Ideal) v15 (ix2 p z) = Matcher.hi (v15 (ix2 p (0 : Fin 2))) (v15 (ix2 p (1 : Fin 2))) := by
  show (k0_pay4 (F := Ideal) v15 (ix2 p z) : EReal) + Matcher.cHalf * (k0_pay5 (F := Ideal) v15 (ix2 p z) : EReal) = _
  rw [pay4_at, pay5_at]
  rfl

/-- The targets' left ends. -/
theorem pay9_at (v25 : Vec Ideal S3x2048 .f32) (z : Fin 1) (q : Fin 2048) :
    k0_pay9 (F := Ideal) v25 (ix2 z q) = v25 (ix2 (0 : Fin 3) q) :=
  (row_at (0 : Fin 3) (shapeCast S3x2048 v25 shapeCasts_S3x2048_S3x2048) slices_S3x2048_o0_0_S1x2048 z q).trans
    (congrFun (shapeCast_self v25 shapeCasts_S3x2048_S3x2048) _)

/-- The targets' right ends. -/
theorem pay10_at (v25 : Vec Ideal S3x2048 .f32) (z : Fin 1) (q : Fin 2048) :
    k0_pay10 (F := Ideal) v25 (ix2 z q) = v25 (ix2 (1 : Fin 3) q) :=
  (row_at (1 : Fin 3) (shapeCast S3x2048 v25 shapeCasts_S3x2048_S3x2048) slices_S3x2048_o1_0_S1x2048 z q).trans
    (congrFun (shapeCast_self v25 shapeCasts_S3x2048_S3x2048) _)

/-- The targets' lengths. -/
theorem pay11_at (v25 : Vec Ideal S3x2048 .f32) (z : Fin 1) (q : Fin 2048) :
    k0_pay11 (F := Ideal) v25 (ix2 z q) = v25 (ix2 (2 : Fin 3) q) :=
  (row_at (2 : Fin 3) (shapeCast S3x2048 v25 shapeCasts_S3x2048_S3x2048) slices_S3x2048_o2_0_S1x2048 z q).trans
    (congrFun (shapeCast_self v25 shapeCasts_S3x2048_S3x2048) _)

/-! ## The pairwise arrays -/

/-- A column laid along the rows of the block, read at (p, q): the column's entry p. -/
theorem col_at (a : FVec Ideal S512x1 .f32) (p : Fin 512) (q : Fin 2048) :
    broadcastTo S512x2048 a broadcasts_S512x1_S512x2048 (ix2 p q) = a (ix2 p (0 : Fin 1)) :=
  spread_col_at a broadcasts_S512x1_S512x2048 p q

/-- A row laid down the columns of the block, read at (p, q): the row's entry q. -/
theorem rowv_at (a : FVec Ideal S1x2048 .f32) (p : Fin 512) (q : Fin 2048) :
    broadcastTo S512x2048 a broadcasts_S1x2048_S512x2048 (ix2 p q) = a (ix2 (0 : Fin 1) q) :=
  broadcastTo_1b_ab_apply a broadcasts_S1x2048_S512x2048 p q

/-- The signed overlap of prediction p and target q: the smaller right end less the larger left end. -/
theorem pay12_at (v15 : Vec Ideal S512x2 .f32) (v25 : Vec Ideal S3x2048 .f32) (p : Fin 512) (q : Fin 2048) :
    k0_pay12 (F := Ideal) v15 v25 (ix2 p q)
      = min (Matcher.hi (v15 (ix2 p (0 : Fin 2))) (v15 (ix2 p (1 : Fin 2)))) (v25 (ix2 (1 : Fin 3) q))
        - max (Matcher.lo (v15 (ix2 p (0 : Fin 2))) (v15 (ix2 p (1 : Fin 2)))) (v25 (ix2 (0 : Fin 3) q)) := by
  show min (broadcastTo S512x2048 (k0_pay7 (F := Ideal) v15) broadcasts_S512x1_S512x2048 (ix2 p q) : EReal)
        (broadcastTo S512x2048 (k0_pay10 (F := Ideal) v25) broadcasts_S1x2048_S512x2048 (ix2 p q))
      - max (broadcastTo S512x2048 (k0_pay6 (F := Ideal) v15) broadcasts_S512x1_S512x2048 (ix2 p q) : EReal)
        (broadcastTo S512x2048 (k0_pay9 (F := Ideal) v25) broadcasts_S1x2048_S512x2048 (ix2 p q)) = _
  rw [col_at, col_at, rowv_at, rowv_at, pay6_at, pay7_at, pay9_at, pay10_at]

/-- The hull of prediction p and target q: the larger right end less the smaller left end. -/
theorem pay13_at (v15 : Vec Ideal S512x2 .f32) (v25 : Vec Ideal S3x2048 .f32) (p : Fin 512) (q : Fin 2048) :
    k0_pay13 (F := Ideal) v15 v25 (ix2 p q)
      = max (Matcher.hi (v15 (ix2 p (0 : Fin 2))) (v15 (ix2 p (1 : Fin 2)))) (v25 (ix2 (1 : Fin 3) q))
        - min (Matcher.lo (v15 (ix2 p (0 : Fin 2))) (v15 (ix2 p (1 : Fin 2)))) (v25 (ix2 (0 : Fin 3) q)) := by
  show max (broadcastTo S512x2048 (k0_pay7 (F := Ideal) v15) broadcasts_S512x1_S512x2048 (ix2 p q) : EReal)
        (broadcastTo S512x2048 (k0_pay10 (F := Ideal) v25) broadcasts_S1x2048_S512x2048 (ix2 p q))
      - min (broadcastTo S512x2048 (k0_pay6 (F := Ideal) v15) broadcasts_S512x1_S512x2048 (ix2 p q) : EReal)
        (broadcastTo S512x2048 (k0_pay9 (F := Ideal) v25) broadcasts_S1x2048_S512x2048 (ix2 p q)) = _
  rw [col_at, col_at, rowv_at, rowv_at, pay6_at, pay7_at, pay9_at, pay10_at]

/-- The hull less the signed overlap: the sum of the distances between the left ends and between the right ends. -/
theorem pay14_at (v15 : Vec Ideal S512x2 .f32) (v25 : Vec Ideal S3x2048 .f32) (p : Fin 512) (q : Fin 2048) :
    k0_pay14 (F := Ideal) v15 v25 (ix2 p q)
      = (k0_pay13 (F := Ideal) v15 v25 (ix2 p q) : EReal) - k0_pay12 (F := Ideal) v15 v25 (ix2 p q) := rfl

/-! ## The stored value -/

/-- The stored expression at (p, q), in the seven arrays it is built from. -/
theorem pay1_at (v14 : FVec Ideal S512x2048 .f32) (v21 v24 : FVec Ideal S512x1 .f32) (v29 : FVec Ideal S1x2048 .f32)
    (v42 v43 v44 : FVec Ideal S512x2048 .f32) (p : Fin 512) (q : Fin 2048) :
    k0_pay1 (F := Ideal) v14 v21 v24 v29 v42 v43 v44 (Scalar.ofBits .f32 0x00000000#32) (ix2 p q)
      = (Matcher.cFive * v44 (ix2 p q) - Matcher.cOne * v14 (ix2 p q))
        - Matcher.cTwo * (Ideal.div
            (max (v42 (ix2 p q)) Matcher.cZero * v43 (ix2 p q)
              + (((v24 (ix2 p (0 : Fin 1)) - v21 (ix2 p (0 : Fin 1))) + v29 (ix2 (0 : Fin 1) q)) - max (v42 (ix2 p q)) Matcher.cZero)
                * (((v24 (ix2 p (0 : Fin 1)) - v21 (ix2 p (0 : Fin 1))) + v29 (ix2 (0 : Fin 1) q)) - max (v42 (ix2 p q)) Matcher.cZero))
            ((((v24 (ix2 p (0 : Fin 1)) - v21 (ix2 p (0 : Fin 1))) + v29 (ix2 (0 : Fin 1) q)) - max (v42 (ix2 p q)) Matcher.cZero)
              * v43 (ix2 p q)) - Matcher.cOne) := by
  have ec : broadcastTo S512x2048 (subf v24 v21) broadcasts_S512x1_S512x2048 (ix2 p q)
      = (v24 (ix2 p (0 : Fin 1)) : EReal) - v21 (ix2 p (0 : Fin 1)) := col_at (subf v24 v21) p q
  have er : broadcastTo S512x2048 v29 broadcasts_S1x2048_S512x2048 (ix2 p q) = v29 (ix2 (0 : Fin 1) q) := rowv_at v29 p q
  rw [← ec, ← er]
  rfl

/-- The stored value is the fused cost matrix of the loaded blocks. -/
theorem payOf_eq (v0 : Vec Ideal S512x256 .f32) (v15 : Vec Ideal S512x2 .f32) (v12 : Vec Ideal S256x2048 .bf16)
    (v25 : Vec Ideal S3x2048 .f32) :
    payOf (F := Ideal) v0 v15 v12 v25 = Matcher.kerMatrix (N := 512) (K := 256) (M := 2048) v0 v15 v12 v25 := by
  funext i
  obtain ⟨p, q, rfl⟩ : ∃ (p : Fin 512) (q : Fin 2048), i = ix2 p q := ⟨i 0, i 1, eq_ix2 i⟩
  unfold payOf
  rw [pay1_at, pay14_at, pay13_at, pay12_at, pay2_at, pay6_at, pay7_at, pay11_at]
  rfl

/-- The zero offsets of a whole-buffer rectangle. -/
theorem zero_off : (![0, 0] : Fin 2 → Nat) = fun _ => 0 := funext fun a => by fin_cases a <;> rfl

/-- The same from the buffers' contents: a whole-buffer rectangle reads the contents. -/
theorem pay_eq (x0 : Vec Ideal S512x256 .f32) (x1 : Vec Ideal S512x2 .f32) (x2 : Vec Ideal S256x2048 .bf16)
    (x3 : Vec Ideal S3x2048 .f32) :
    pay (F := Ideal) x0 x1 x2 x3 = Matcher.kerMatrix (N := 512) (K := 256) (M := 2048) x0 x1 x2 x3 := by
  unfold pay
  rw [View.ld_unit_zero (S := S512x256) zero_off, View.ld_unit_zero (S := S512x2) zero_off,
    View.ld_unit_zero (S := S256x2048) zero_off, View.ld_unit_zero (S := S3x2048) zero_off]
  exact payOf_eq x0 x1 x2 x3

end Cert.KernelIdeal.Hand

end
-- ==== Proof.LibNary3.lean ====
/-
  A host operation over three operands, read at its result buffer.

  An operation built over a family of references writes its function of the operands' contents to its result
  buffer. For a LITERAL family of three references (a concatenation of three arrays) that value is the function
  applied to the three contents, each read at its own reference — the form in which the operands can be read
  further, one operation at a time. The tactic below reads a buffer after a literal list of operations in that
  way: it unfolds the list, then rewrites each operation's result at its own buffer to its function's value and
  at any other buffer to what was there before, the two references told apart by computation.
-/
import Idealize.ShloMosaic.Lib.StableHlo.Run

noncomputable section

namespace Idealize.ShloMosaic.StableHlo

variable {τ : Topo} {sig : RefSig} {Val : EltTy → Type}

/-- An operation over a literal family of three references, read at its result buffer: its function applied to
    the three operands' contents, each read at its own reference. -/
theorem nary3_result {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (Proc.devRef .tc y)
      = f (Fin.cons (G (Proc.devRef .tc x)) (Fin.cons (G (Proc.devRef .tc a)) (Fin.cons (G (Proc.devRef .tc b))
          (fun i => i.elim0)))) := by
  rw [nary_result]; congr 1; funext k; fin_cases k <;> rfl

/-- Reads a buffer after a literal list of operations (nullary, unary, binary, ternary, reshape, and three-operand
    ones): what is left is an equation over the starting contents at the buffers the list reads. -/
macro "after_results3" : tactic =>
  `(tactic| (simp only [after_cons, after_nil]
             repeat (first
               | rw [nullary_result] | rw [unary_result] | rw [binary_result] | rw [ternary_result] | rw [reshape_result]
               | rw [nary3_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

end Idealize.ShloMosaic.StableHlo

end
-- ==== Proof.KIHost.lean ====
/-
  What the host lines before the kernel's launch leave in the four arrays the launch reads, at the ideal values.

  The logits and the predictions are the arguments re-laid as two-axis arrays.  The class table is the transpose of
  the 0/1 array whose (target, class) entry compares the target's label with the class number.  The target table
  stacks three rows: the targets' left ends, their right ends, and the differences right − left.
-/
import proofs.«409946_j67886253080772_2_alg».proof.Proof.Gen.KernelIdeal.Launch
import proofs.«409946_j67886253080772_2_alg».proof.Proof.LibNary3
import Idealize.ShloMosaic.Lib.StableHlo.Run
import Idealize.ShloMosaic.PureOps.Ideal

noncomputable section

namespace Cert.KernelIdeal.HostVals

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ)

/-- The core's buffer contents when the kernel is launched: after the host lines before the launch. -/
abbrev W0 (c : Dev nD) : Valuation τ sig (Elt Ideal) :=
  StableHlo.after (List.flatten [hostOps0, hostOps0_1, hostOps0_2]) (fun b => m (c, b))

/-- The four argument arrays, and their two-axis (one-axis for the labels) re-layings. -/
abbrev a0 (c : Dev nD) : FVec Ideal S16x1024x256 .f32 := m ((c : Thread nD τ).loc main_arg0)
abbrev a1 (c : Dev nD) : FVec Ideal S16x1024x2 .f32 := m ((c : Thread nD τ).loc main_arg1)
abbrev a2 (c : Dev nD) : FVec Ideal S16x128x2 .f32 := m ((c : Thread nD τ).loc main_arg2)
abbrev a3 (c : Dev nD) : IVec S16x128 32 := m ((c : Thread nD τ).loc main_arg3)
abbrev L2 (c : Dev nD) : FVec Ideal S16384x256 .f32 := shapeCast S16384x256 (a0 m c) shapeCasts_S16x1024x256_S16384x256
abbrev PB2 (c : Dev nD) : FVec Ideal S16384x2 .f32 := shapeCast S16384x2 (a1 m c) shapeCasts_S16x1024x2_S16384x2
abbrev TB2 (c : Dev nD) : FVec Ideal S2048x2 .f32 := shapeCast S2048x2 (a2 m c) shapeCasts_S16x128x2_S2048x2
abbrev LB1 (c : Dev nD) : IVec S2048 32 := shapeCast S2048 (a3 m c) shapeCasts_S16x128_S2048

/-- Column `k` of the targets as a one-axis array. -/
abbrev tcol0 (c : Dev nD) : FVec Ideal S2048 .f32 :=
  shapeCast S2048 (extractStridedSlice S2048x1 ![0, 0] (TB2 m c) slices_S2048x2_S2048x1_0_0) shapeCasts_S2048x1_S2048
abbrev tcol1 (c : Dev nD) : FVec Ideal S2048 .f32 :=
  shapeCast S2048 (extractStridedSlice S2048x1 ![0, 1] (TB2 m c) slices_S2048x2_S2048x1_0_1) shapeCasts_S2048x1_S2048

/-- The class table: (class, target) ↦ 1 where the target's label is the class, 0 elsewhere, as the host builds it. -/
abbrev OH2 (c : Dev nD) : FVec Ideal S256x2048 .bf16 :=
  transpose S256x2048 [1, 0]
    (uitofp .bf16 (cmpi .eq
      (broadcastInDim S2048x256 ![0, 1] bcast_S2048x1_S2048x256_0_1 (broadcastInDim S2048x1 ![0] bcast_S2048_S2048x1_0 (LB1 m c)))
      (broadcastInDim S2048x256 ![0, 1] bcast_S1x256_S2048x256_0_1 (iotaInDim S1x256 32 1))))
    transposes_S2048x256_S256x2048_1_0

/-- The target table: the rows left end, right end, right − left. -/
abbrev TT2 (c : Dev nD) : FVec Ideal S3x2048 .f32 :=
  concatenate S3x2048 0
    [⟨S1x2048, broadcastInDim S1x2048 ![1] bcast_S2048_S1x2048_1 (tcol0 m c)⟩,
     ⟨S1x2048, broadcastInDim S1x2048 ![1] bcast_S2048_S1x2048_1 (tcol1 m c)⟩,
     ⟨S1x2048, broadcastInDim S1x2048 ![1] bcast_S2048_S1x2048_1 (subf (tcol1 m c) (tcol0 m c))⟩]
    concatenates_S1x2048_S1x2048_S1x2048_S3x2048_d0

theorem w_v0 (c : Dev nD) : (W0 m c (Proc.devRef .tc main_v0) : S16384x256.Idx → EReal) = L2 m c := by
  dsimp only [W0]
  simp only [hostOps0, hostOps0_1, hostOps0_2, List.flatten_cons, List.flatten_nil, List.append_nil, List.cons_append, List.nil_append]
  after_results3
  rfl

theorem w_v1 (c : Dev nD) : (W0 m c (Proc.devRef .tc main_v1) : S16384x2.Idx → EReal) = PB2 m c := by
  dsimp only [W0]
  simp only [hostOps0, hostOps0_1, hostOps0_2, List.flatten_cons, List.flatten_nil, List.append_nil, List.cons_append, List.nil_append]
  after_results3
  rfl

theorem w_v5 (c : Dev nD) : (W0 m c (Proc.devRef .tc main_v5) : S256x2048.Idx → EReal) = OH2 m c := by
  dsimp only [W0]
  simp only [hostOps0, hostOps0_1, hostOps0_2, List.flatten_cons, List.flatten_nil, List.append_nil, List.cons_append, List.nil_append]
  after_results3
  rfl

theorem w_v14 (c : Dev nD) : (W0 m c (Proc.devRef .tc main_v14) : S3x2048.Idx → EReal) = TT2 m c := by
  dsimp only [W0]
  simp only [hostOps0, hostOps0_1, hostOps0_2, List.flatten_cons, List.flatten_nil, List.append_nil, List.cons_append, List.nil_append]
  after_results3
  rfl

end Cert.KernelIdeal.HostVals

end
-- ==== Proof.KIValue.lean ====
/-
  The kernel's result array as the fused cost matrix of the arguments.

  The launch walks 32 points; point t reads rows 512·t … 512·t + 511 of the logits and of the predictions, the whole
  class table and the whole target table, and writes rows 512·t … 512·t + 511 of the result.  What it writes is the
  fused cost matrix of its blocks, which is the same rows of the fused cost matrix of the whole arrays: an entry's
  cost depends only on its own row of the logits and predictions and its own column of the two tables.  The blocks
  cover the array, so after the run the array is the fused cost matrix, and the line after the launch re-lays it.
-/
import proofs.«409946_j67886253080772_2_alg».proof.Proof.KIFrame
import proofs.«409946_j67886253080772_2_alg».proof.Proof.KIPayload
import proofs.«409946_j67886253080772_2_alg».proof.Proof.KIHost
import proofs.«409946_j67886253080772_2_alg».proof.Proof.Spec
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.SL.Sem Idealize.ShloMosaic.ValueIdx Idealize.ShloMosaic.Rows
open Idealize.ShloMosaic.Pipeline (Dat Cfg Window)
open Cert.KernelIdeal Cert.KernelIdeal.Gen Cert.KernelIdeal.HostVals Matcher

variable (m : (ℓ : Loc nD τ sig) → Buf (Elt Ideal) ℓ) (ρ : Dev nD → PrngReg)

theorem hz : (![0, 0] : Fin 2 → Nat) = fun _ => 0 := funext fun a => by fin_cases a <;> rfl

/-- The fused cost matrix of the arrays the launch finds. -/
abbrev Gk (c : Dev nD) : FVec Ideal S16384x2048 .f32 :=
  kerMatrix (N := 16384) (K := 256) (M := 2048) (L2 m c) (PB2 m c) (OH2 m c) (TT2 m c)

/-- The four input blocks at a point, at their literal types. -/
abbrev blk0 (c : Dev nD) (t : Fin cfg0.N) : Vec Ideal S512x256 .f32 := iblk m c 0 t
abbrev blk1 (c : Dev nD) (t : Fin cfg0.N) : Vec Ideal S512x2 .f32 := iblk m c 1 t
abbrev blk2 (c : Dev nD) (t : Fin cfg0.N) : Vec Ideal S256x2048 .bf16 := iblk m c 2 t
abbrev blk3 (c : Dev nD) (t : Fin cfg0.N) : Vec Ideal S3x2048 .f32 := iblk m c 3 t

/-- Where each window's block sits at point t: the row windows at block row t, the tables at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem t_lt (t : Fin cfg0.N) : t.val < 32 := lt_of_lt_of_eq t.isLt N_0

/-- Row p of the block at point t is row 512·t + p of the array. -/
abbrev rowAt (t : Fin cfg0.N) (p : Fin 512) : Fin 16384 := ⟨t.val * 512 + p.val, by have := t_lt t; have := p.isLt; omega⟩

theorem blk0_at (c : Dev nD) (t : Fin cfg0.N) (p : Fin 512) (k : Fin 256) :
    blk0 m c t (ix2 p k) = L2 m c (ix2 (rowAt t p) k) := by
  show (V m c main_v0 : S16384x256.Idx → EReal) (((cfg0.win 0).blk t).view.emb (ix2 p k)) = _
  rw [show (V m c main_v0 : S16384x256.Idx → EReal) = L2 m c from w_v0 m c]
  congr 1
  obtain ⟨e0, e1, -⟩ := idx_facts t
  funext a; apply Fin.ext
  match a with
  | ⟨0, _⟩ => show win0_0.index t (0 : Fin 2) * 512 + 1 * p.val = t.val * 512 + p.val; rw [e0]; omega
  | ⟨1, _⟩ => show win0_0.index t (1 : Fin 2) * 256 + 1 * k.val = k.val; rw [e1]; omega

theorem blk1_at (c : Dev nD) (t : Fin cfg0.N) (p : Fin 512) (e : Fin 2) :
    blk1 m c t (ix2 p e) = PB2 m c (ix2 (rowAt t p) e) := by
  show (V m c main_v1 : S16384x2.Idx → EReal) (((cfg0.win 1).blk t).view.emb (ix2 p e)) = _
  rw [show (V m c main_v1 : S16384x2.Idx → EReal) = PB2 m c from w_v1 m c]
  congr 1
  obtain ⟨-, -, e0, e1, -⟩ := idx_facts t
  funext a; apply Fin.ext
  match a with
  | ⟨0, _⟩ => show win0_1.index t (0 : Fin 2) * 512 + 1 * p.val = t.val * 512 + p.val; rw [e0]; omega
  | ⟨1, _⟩ => show win0_1.index t (1 : Fin 2) * 2 + 1 * e.val = e.val; rw [e1]; omega

theorem blk2_at (c : Dev nD) (t : Fin cfg0.N) (k : Fin 256) (q : Fin 2048) :
    blk2 m c t (ix2 k q) = OH2 m c (ix2 k q) := by
  show (V m c main_v5 : S256x2048.Idx → EReal) (((cfg0.win 2).blk t).view.emb (ix2 k q)) = _
  rw [show (V m c main_v5 : S256x2048.Idx → EReal) = OH2 m c from w_v5 m c]
  congr 1
  obtain ⟨-, -, -, -, e0, e1, -⟩ := idx_facts t
  funext a; apply Fin.ext
  match a with
  | ⟨0, _⟩ => show win0_2.index t (0 : Fin 2) * 256 + 1 * k.val = k.val; rw [e0]; omega
  | ⟨1, _⟩ => show win0_2.index t (1 : Fin 2) * 2048 + 1 * q.val = q.val; rw [e1]; omega

theorem blk3_at (c : Dev nD) (t : Fin cfg0.N) (r : Fin 3) (q : Fin 2048) :
    blk3 m c t (ix2 r q) = TT2 m c (ix2 r q) := by
  show (V m c main_v14 : S3x2048.Idx → EReal) (((cfg0.win 3).blk t).view.emb (ix2 r q)) = _
  rw [show (V m c main_v14 : S3x2048.Idx → EReal) = TT2 m c from w_v14 m c]
  congr 1
  obtain ⟨-, -, -, -, -, -, e0, e1, -⟩ := idx_facts t
  funext a; apply Fin.ext
  match a with
  | ⟨0, _⟩ => show win0_3.index t (0 : Fin 2) * 3 + 1 * r.val = r.val; rw [e0]; omega
  | ⟨1, _⟩ => show win0_3.index t (1 : Fin 2) * 2048 + 1 * q.val = q.val; rw [e1]; omega

/-- The fused cost matrix of the blocks at point t is the block of the fused cost matrix of the arrays. -/
theorem kerMatrix_blocks (c : Dev nD) (t : Fin cfg0.N) (p : Fin 512) (q : Fin 2048) :
    kerMatrix (N := 512) (K := 256) (M := 2048) (blk0 m c t) (blk1 m c t) (blk2 m c t) (blk3 m c t) (ix2 p q)
      = Gk m c (ix2 (rowAt t p) q) := by
  have hr : rowOf (blk0 m c t) p = rowOf (L2 m c) (rowAt t p) := funext fun k => blk0_at m c t p k
  show kerCost (∑ k : Fin 256, softmaxRow (rowOf (blk0 m c t) p) k * blk2 m c t (ix2 k q))
      (lo (blk1 m c t (ix2 p 0)) (blk1 m c t (ix2 p 1))) (hi (blk1 m c t (ix2 p 0)) (blk1 m c t (ix2 p 1)))
      (blk3 m c t (ix2 0 q)) (blk3 m c t (ix2 1 q)) (blk3 m c t (ix2 2 q))
    = kerCost (∑ k : Fin 256, softmaxRow (rowOf (L2 m c) (rowAt t p)) k * OH2 m c (ix2 k q))
      (lo (PB2 m c (ix2 (rowAt t p) 0)) (PB2 m c (ix2 (rowAt t p) 1))) (hi (PB2 m c (ix2 (rowAt t p) 0)) (PB2 m c (ix2 (rowAt t p) 1)))
      (TT2 m c (ix2 0 q)) (TT2 m c (ix2 1 q)) (TT2 m c (ix2 2 q))
  rw [hr]
  simp only [blk1_at, blk2_at, blk3_at]

/-- What point t writes back is block t of the fused cost matrix. -/
theorem flushed4_eq (c : Dev nD) (t : Fin cfg0.N) :
    (dats m 0 c).flushed 4 t = ((cfg0.win 4).blk t).view.read (Elt Ideal) (Gk m c) := by
  show (cfg0.win 4).cut (grid0.coords t) ((dats m 0 c).after 4 t) = _
  rw [after0_4]
  unfold out4
  rw [View.canon_unit_zero hz]
  show pay (F := Ideal) (blk0 m c t) (blk1 m c t) (blk2 m c t) (blk3 m c t) = _
  rw [pay_eq]
  funext y
  obtain ⟨p, q, rfl⟩ : ∃ (p : Fin 512) (q : Fin 2048), y = ix2 p q := ⟨y 0, y 1, eq_ix2 y⟩
  rw [kerMatrix_blocks]
  show Gk m c (ix2 (rowAt t p) q) = Gk m c (((cfg0.win 4).blk t).view.emb (ix2 p q))
  congr 1
  obtain ⟨-, -, -, -, -, -, -, -, e0, e1⟩ := idx_facts t
  funext a; apply Fin.ext
  match a with
  | ⟨0, _⟩ => show t.val * 512 + p.val = win0_4.index t (0 : Fin 2) * 512 + 1 * p.val; rw [e0]; omega
  | ⟨1, _⟩ => show q.val = win0_4.index t (1 : Fin 2) * 2048 + 1 * q.val; rw [e1]; omega

/-- An index of the array is in point t's block iff each coordinate is in the block's range on its axis. -/
theorem mem_blk4 (t : Fin cfg0.N) (i : S16384x2048.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v15).slice (win0_4.rect t)).set ↔ _
  rw [View.set_slice_whole, Rect.mem_set_unit]
  exact Iff.rfl

/-- Every index lies in the block of the point its row belongs to. -/
theorem cover4' (i : S16384x2048.Idx) : ∃ t : Fin cfg0.N, (cfg0.win 4).flush t = true ∧ i ∈ ((cfg0.win 4).blk t).view.set := by
  have hi0 : (i 0).val < 16384 := (i 0).isLt
  have hi1 : (i 1).val < 2048 := (i 1).isLt
  let t : Fin cfg0.N := ⟨(i 0).val / 512, lt_of_lt_of_eq (show (i 0).val / 512 < 32 by omega) N_0.symm⟩
  refine ⟨t, flush0_4 t, ?_⟩
  rw [mem_blk4]
  obtain ⟨-, -, -, -, -, -, -, -, e0, e1⟩ := idx_facts t
  intro a
  match a with
  | ⟨0, _⟩ =>
    show win0_4.index t (0 : Fin 2) * 512 ≤ (i 0).val ∧ (i 0).val < win0_4.index t (0 : Fin 2) * 512 + 512
    rw [e0]; show (i 0).val / 512 * 512 ≤ (i 0).val ∧ (i 0).val < (i 0).val / 512 * 512 + 512; omega
  | ⟨1, _⟩ =>
    show win0_4.index t (1 : Fin 2) * 2048 ≤ (i 1).val ∧ (i 1).val < win0_4.index t (1 : Fin 2) * 2048 + 2048
    rw [e1]; omega

/-- The result array after the run is the fused cost matrix. -/
theorem final4 (c : Dev nD) : (dats m 0 c).arrAt 4 cfg0.N = Gk m c :=
  (dats m 0 c).arrAt_eq_of_cover 4 (Gk m c) (fun t _ => flushed4_eq m c t) cover4'

/-- After the line that follows the launch, the result buffer is the fused cost matrix re-laid with three axes. -/
theorem tail_v16 (c : Dev nD) :
    Pipeline.afterTail₀ cfgs (dats m) 0 (V0 m) [hostOps1] c main_v16
      = shapeCast S16x1024x2048 (Gk m c) shapeCasts_S16384x2048_S16x1024x2048 := by
  unfold Pipeline.afterTail₀
  simp only [hostOps1, List.flatten_cons, List.flatten_nil, List.append_nil, StableHlo.after_cons, StableHlo.after_nil]
  rw [StableHlo.reshape_result]
  have e : Pipeline.withArrays (cfgs 0).spec c (V0 m c) (fun w => (dats m 0 c).arrAt w (cfgs 0).N) (Proc.devRef .tc main_v15)
      = Gk m c :=
    (Pipeline.withArrays_arr spec0 launch0.win.arr_inj c _ _ 4).trans (final4 m c)
  rw [e]
  rfl

/-- The run, read: the result buffer ends at the fused cost matrix of the arguments re-laid, the arguments unchanged. -/
theorem run_value : θ_run defs (onTc (τ := τ) (main (F := Ideal))) ⟨m, fun _ => 0, ρ⟩ (fun r => ∀ c : Dev nD,
      r.2.mem ((c.tc : Thread nD τ).loc main_v16) = shapeCast S16x1024x2048 (Gk m c) shapeCasts_S16384x2048_S16x1024x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v16 (Pipeline.mem_restRefs_of main_v16 (by decide) (by decide))).trans (tail_v16 m c),
      ((h c).2 main_arg0 (Pipeline.mem_restRefs_of main_arg0 (by decide) (by decide))).trans
        ((tail_of_ne m (dats m) c main_arg0 (by decide) (by decide)).trans (V_main_arg0 m c)),
      ((h c).2 main_arg1 (Pipeline.mem_restRefs_of main_arg1 (by decide) (by decide))).trans
        ((tail_of_ne m (dats m) c main_arg1 (by decide) (by decide)).trans (V_main_arg1 m c)),
      ((h c).2 main_arg2 (Pipeline.mem_restRefs_of main_arg2 (by decide) (by decide))).trans
        ((tail_of_ne m (dats m) c main_arg2 (by decide) (by decide)).trans (V_main_arg2 m c)),
      ((h c).2 main_arg3 (Pipeline.mem_restRefs_of main_arg3 (by decide) (by decide))).trans
        ((tail_of_ne m (dats m) c main_arg3 (by decide) (by decide)).trans (V_main_arg3 m c))⟩) (run_main m ρ)

end Cert.KernelIdeal.Hand

end
-- ==== Proof.PreDecode.lean ====
/-
  The precondition on the four tables, read back as facts about their entries.

  The precondition is a conjunction of six statements, each "every entry of an array of comparisons is true":
  |x| < +∞ over the logits, over the predictions and over the targets; 0 ≤ label and label < 256 over the labels; and
  0 < max b d − min a c over every (prediction, target) pair, where a = mid − ½·w and b = mid + ½·w are the prediction's ends
  and c, d the target's. Over the extended reals |x| < +∞ says x is a real; a signed comparison of 32-bit words says the
  same of their integer values; and the last comparison, read at the pair (n, j) through the broadcasts, slices and
  reshapes that lay the ends out over the rectangle, is the hull's length being positive.
-/
import proofs.«409946_j67886253080772_2_alg».proof.Pre_finite_inputs
import proofs.«409946_j67886253080772_2_alg».proof.Proof.Spec
import Idealize.ShloMosaic.Lib.ReduceAll
import Idealize.ShloMosaic.Lib.StableHlo.Predicate
import Idealize.ShloMosaic.Lib.ValueIdx
import Idealize.ShloMosaic.Lib.ValueLayout
import Idealize.ShloMosaic.Lib.Pipeline.Value

noncomputable section

namespace Matcher.Pre

open Idealize.ShloMosaic Idealize.ShloMosaic.ValueIdx
open Cert.Pre_finite_inputs Cert.Pre_finite_inputs.Facts

/-- The scalar shape has one index. -/
theorem subsingleton_scalar : Subsingleton S_.Idx := ⟨fun a b => funext fun d => d.elim0⟩

/-! ## Words and values at one element -/

/-- The f32 word `0x7F800000` denotes +∞. -/
theorem ofBits_inf : Ideal.ofBits .f32 0x7F800000#32 = ⊤ := by simp [Ideal.ofBits, Ideal.ieee]

/-- The f32 word `0` denotes 0. -/
theorem ofBits_zero : Ideal.ofBits .f32 0x00000000#32 = 0 := by simp [Ideal.ofBits, Ideal.ieee]

theorem cmp_olt_eq_one {x y : EReal} : Ideal.cmp .olt x y = 1#1 ↔ x < y := by
  unfold Ideal.cmp
  rw [StableHlo.Predicate.ofBool_eq_one_iff]
  simp

theorem cmp_ogt_eq_one {x y : EReal} : Ideal.cmp .ogt x y = 1#1 ↔ y < x := by
  unfold Ideal.cmp
  rw [StableHlo.Predicate.ofBool_eq_one_iff]
  simp

/-- An extended real whose absolute value lies below +∞ is a real. -/
theorem real_of_abs_lt_top (x : EReal) (h : max x (-x) < ⊤) : ∃ r : ℝ, x = (r : EReal) := by
  induction x using EReal.rec with
  | bot => simp at h
  | coe r => exact ⟨r, rfl⟩
  | top => simp at h

/-- One entry of the array `|x| < +∞` being true says that entry of `x` is a real. -/
theorem real_at {s : Shape} (x : FVec Ideal s .f32) (hb : S_.BroadcastsInDim s ![]) (i : s.Idx)
    (h : cmpf .olt (Host.absf x) (broadcastInDim s ![] hb (constant S_ .f32 0x7F800000#32)) i = 1#1) :
    ∃ r : ℝ, x i = (r : EReal) := by
  have h' : Ideal.cmp .olt (max (x i) (-(x i))) (Ideal.ofBits .f32 0x7F800000#32) = 1#1 := h
  rw [cmp_olt_eq_one, ofBits_inf] at h'
  exact real_of_abs_lt_top _ h'

/-- One entry of the array `0 ≤ x` over signed 32-bit words being true says that word's integer value is not negative. -/
theorem nonneg_at {s : Shape} (x : IVec s 32) (hb : S_.BroadcastsInDim s ![]) (i : s.Idx)
    (h : cmpi .sge x (broadcastInDim s ![] hb (constantI S_ 32 0#32)) i = 1#1) : 0 ≤ (x i).toInt := by
  have h' : BitVec.ofBool ((0#32 : BitVec 32).sle (x i)) = 1#1 := h
  rw [StableHlo.Predicate.ofBool_eq_one_iff, BitVec.sle_iff_toInt_le] at h'
  simpa using h'

/-- One entry of the array `x < 256` over signed 32-bit words being true says that word's integer value is below 256. -/
theorem lt256_at {s : Shape} (x : IVec s 32) (hb : S_.BroadcastsInDim s ![]) (i : s.Idx)
    (h : cmpi .slt x (broadcastInDim s ![] hb (constantI S_ 32 256#32)) i = 1#1) : (x i).toInt < 256 := by
  have h' : BitVec.ofBool ((x i).slt (256#32 : BitVec 32)) = 1#1 := h
  rw [StableHlo.Predicate.ofBool_eq_one_iff, BitVec.slt_iff_toInt_lt] at h'
  simpa using h'

/-- A conjunction of two one-bit arrays at an element. -/
theorem andi_at {s : Shape} (a b : IVec s 1) (i : s.Idx) (h : andi a b i = 1#1) : a i = 1#1 ∧ b i = 1#1 :=
  IntOp.andi_eq_one.1 h

/-! ## The layout operations of the hull's four operands, read at an element -/

section Layout
variable {α : Type}

/-- Column 0 of an [N × 2] table, kept as a vector: at `n` the table at `(n, 0)`. -/
theorem column0_apply {N : ℕ} (X : (⟨2, ![N, 2]⟩ : Shape).Idx → α)
    (hs : (⟨2, ![N, 2]⟩ : Shape).Slices ![0, 0] ⟨2, ![N, 1]⟩) (hc : (⟨2, ![N, 1]⟩ : Shape).ShapeCasts ⟨1, ![N]⟩) (n : Fin N) :
    shapeCast ⟨1, ![N]⟩ (extractStridedSlice ⟨2, ![N, 1]⟩ ![0, 0] X hs) hc (ix1 n) = X (ix2 n (0 : Fin 2)) :=
  (shapeCast_apply _ hc (ix1 n) (ix2 n (0 : Fin 1))
    (by rw [Shape.rowMajor_val_two, Shape.rowMajor_val_one]; show n.val * 1 + 0 = n.val; omega)).trans
    (slice2_axis1_apply 0 X hs n (0 : Fin 1) (0 : Fin 2) rfl)

/-- Column 1 of an [N × 2] table, kept as a vector: at `n` the table at `(n, 1)`. -/
theorem column1_apply {N : ℕ} (X : (⟨2, ![N, 2]⟩ : Shape).Idx → α)
    (hs : (⟨2, ![N, 2]⟩ : Shape).Slices ![0, 1] ⟨2, ![N, 1]⟩) (hc : (⟨2, ![N, 1]⟩ : Shape).ShapeCasts ⟨1, ![N]⟩) (n : Fin N) :
    shapeCast ⟨1, ![N]⟩ (extractStridedSlice ⟨2, ![N, 1]⟩ ![0, 1] X hs) hc (ix1 n) = X (ix2 n (1 : Fin 2)) :=
  (shapeCast_apply _ hc (ix1 n) (ix2 n (0 : Fin 1))
    (by rw [Shape.rowMajor_val_two, Shape.rowMajor_val_one]; show n.val * 1 + 0 = n.val; omega)).trans
    (slice2_axis1_apply 1 X hs n (0 : Fin 1) (1 : Fin 2) rfl)

/-- A vector over the predictions laid along the rows of the [16384 × 2048] rectangle reads, at `(n, j)`, the vector at `n`. -/
theorem rows_apply (h1 : S16384.BroadcastsInDim S16384x1 ![0]) (h2 : S16384x1.BroadcastsInDim S16384x2048 ![0, 1])
    (v : S16384.Idx → α) (n : Fin 16384) (j : Fin 2048) :
    broadcastInDim S16384x2048 ![0, 1] h2 (broadcastInDim S16384x1 ![0] h1 v) (ix2 n j) = v (ix1 n) :=
  (broadcastInDim_apply _ h2 _ (ix2 n j) (ix2 n (0 : Fin 1)) (fun a => by
    match a with
    | ⟨0, _⟩ => rfl
    | ⟨1, _⟩ => rfl)).trans
  (broadcastInDim_apply _ h1 v (ix2 n (0 : Fin 1)) (ix1 n) (fun a => by
    match a with
    | ⟨0, _⟩ => rfl))

/-- A vector over the targets laid along the columns of the rectangle reads, at `(n, j)`, the vector at `j`. -/
theorem cols_apply (h1 : S2048.BroadcastsInDim S1x2048 ![1]) (h2 : S1x2048.BroadcastsInDim S16384x2048 ![0, 1])
    (v : S2048.Idx → α) (n : Fin 16384) (j : Fin 2048) :
    broadcastInDim S16384x2048 ![0, 1] h2 (broadcastInDim S1x2048 ![1] h1 v) (ix2 n j) = v (ix1 j) :=
  (broadcastInDim_apply _ h2 _ (ix2 n j) (ix2 (0 : Fin 1) j) (fun a => by
    match a with
    | ⟨0, _⟩ => rfl
    | ⟨1, _⟩ => rfl)).trans
  (broadcastInDim_apply _ h1 v (ix2 (0 : Fin 1) j) (ix1 j) (fun a => by
    match a with
    | ⟨0, _⟩ => rfl))

/-- A scalar broadcast reads the scalar everywhere. -/
theorem scalar_apply {t : Shape} (h : S_.BroadcastsInDim t ![]) (x : S_.Idx → α) (j : t.Idx) :
    broadcastInDim t ![] h x j = x ix0 :=
  broadcastInDim_apply _ h x j ix0 (fun a => a.elim0)

end Layout

/-! ## The precondition, decoded -/

variable [Cert.Pre_finite_inputs.Facts]

/-- The hull's comparison at one pair, read through its operands: the prediction's right end against the target's, the
    prediction's left end against the target's. -/
theorem hull_at (PB : FVec Ideal S16384x2 .f32) (TB : FVec Ideal S2048x2 .f32) (n : Fin 16384) (j : Fin 2048)
    (e : cmpf .ogt
        (subf
          (maximumf
            (broadcastInDim S16384x2048 ![0, 1] bcast_S16384x1_S16384x2048_0_1
              (broadcastInDim S16384x1 ![0] bcast_S16384_S16384x1_0
                (addf (shapeCast S16384 (extractStridedSlice S16384x1 ![0, 0] PB slices_S16384x2_S16384x1_0_0) shapeCasts_S16384x1_S16384)
                  (mulf (broadcastInDim S16384 ![] bcast_S_S16384 (constant S_ .f32 0x3F000000#32))
                    (shapeCast S16384 (extractStridedSlice S16384x1 ![0, 1] PB slices_S16384x2_S16384x1_0_1) shapeCasts_S16384x1_S16384)))))
            (broadcastInDim S16384x2048 ![0, 1] bcast_S1x2048_S16384x2048_0_1
              (broadcastInDim S1x2048 ![1] bcast_S2048_S1x2048_1
                (shapeCast S2048 (extractStridedSlice S2048x1 ![0, 1] TB slices_S2048x2_S2048x1_0_1) shapeCasts_S2048x1_S2048))))
          (minimumf
            (broadcastInDim S16384x2048 ![0, 1] bcast_S16384x1_S16384x2048_0_1
              (broadcastInDim S16384x1 ![0] bcast_S16384_S16384x1_0
                (subf (shapeCast S16384 (extractStridedSlice S16384x1 ![0, 0] PB slices_S16384x2_S16384x1_0_0) shapeCasts_S16384x1_S16384)
                  (mulf (broadcastInDim S16384 ![] bcast_S_S16384 (constant S_ .f32 0x3F000000#32))
                    (shapeCast S16384 (extractStridedSlice S16384x1 ![0, 1] PB slices_S16384x2_S16384x1_0_1) shapeCasts_S16384x1_S16384)))))
            (broadcastInDim S16384x2048 ![0, 1] bcast_S1x2048_S16384x2048_0_1
              (broadcastInDim S1x2048 ![1] bcast_S2048_S1x2048_1
                (shapeCast S2048 (extractStridedSlice S2048x1 ![0, 0] TB slices_S2048x2_S2048x1_0_0) shapeCasts_S2048x1_S2048)))))
        (broadcastInDim S16384x2048 ![] bcast_S_S16384x2048 (constant S_ .f32 0x00000000#32)) (ix2 n j) = 1#1) :
    (0 : EReal) < max (Matcher.hi (PB (ix2 n 0)) (PB (ix2 n 1))) (TB (ix2 j 1))
      - min (Matcher.lo (PB (ix2 n 0)) (PB (ix2 n 1))) (TB (ix2 j 0)) := by
  rw [cmpf_apply, subf_apply, maximumf_apply, minimumf_apply, rows_apply, rows_apply, cols_apply, cols_apply,
    addf_apply, subf_apply, mulf_apply, scalar_apply, scalar_apply, constant_apply, constant_apply,
    column0_apply, column1_apply, column0_apply, column1_apply] at e
  have e' : Ideal.cmp .ogt
      (max (PB (ix2 n 0) + Ideal.ofBits .f32 0x3F000000#32 * PB (ix2 n 1)) (TB (ix2 j 1))
        - min (PB (ix2 n 0) - Ideal.ofBits .f32 0x3F000000#32 * PB (ix2 n 1)) (TB (ix2 j 0)))
      (Ideal.ofBits .f32 0x00000000#32) = 1#1 := e
  rw [cmp_ogt_eq_one, ofBits_zero] at e'
  exact e'

/-- What the precondition says of the tables: the predictions and the targets are real, every label is a class number,
    and every (prediction, target) pair has a hull of positive length. -/
theorem decode (a0 : FVec Ideal S16x1024x256 .f32) (a1 : FVec Ideal S16x1024x2 .f32) (a2 : FVec Ideal S16x128x2 .f32) (a3 : IVec S16x128 32)
    (h : Cert.Pre_finite_inputs.fn (F := Ideal) a0 a1 a2 a3 = fun _ => 1#1) :
    (∀ i, ∃ r : ℝ, a1 i = (r : EReal)) ∧ (∀ i, ∃ r : ℝ, a2 i = (r : EReal))
      ∧ (∀ i, 0 ≤ (a3 i).toInt ∧ (a3 i).toInt < 256)
      ∧ (∀ (n : Fin 16384) (j : Fin 2048),
          (0 : EReal) < max (Matcher.hi ((shapeCast S16384x2 a1 shapeCasts_S16x1024x2_S16384x2) (ix2 n 0))
                ((shapeCast S16384x2 a1 shapeCasts_S16x1024x2_S16384x2) (ix2 n 1)))
              ((shapeCast S2048x2 a2 shapeCasts_S16x128x2_S2048x2) (ix2 j 1))
            - min (Matcher.lo ((shapeCast S16384x2 a1 shapeCasts_S16x1024x2_S16384x2) (ix2 n 0))
                ((shapeCast S16384x2 a1 shapeCasts_S16x1024x2_S16384x2) (ix2 n 1)))
              ((shapeCast S2048x2 a2 shapeCasts_S16x128x2_S2048x2) (ix2 j 0))) := by
  haveI := subsingleton_scalar
  have h0 := congrFun h ix0
  simp only [fn, fn_part1, fn_part2] at h0
  obtain ⟨h0, hH⟩ := andi_at _ _ _ h0
  obtain ⟨h0, hU⟩ := andi_at _ _ _ h0
  obtain ⟨h0, hL⟩ := andi_at _ _ _ h0
  obtain ⟨h0, hT⟩ := andi_at _ _ _ h0
  obtain ⟨_, hP⟩ := andi_at _ _ _ h0
  refine ⟨fun i => ?_, fun i => ?_, fun i => ⟨?_, ?_⟩, fun n j => ?_⟩
  · exact real_at a1 _ i (Host.reduce_andi_all _ _ _ _ _ hP i)
  · exact real_at a2 _ i (Host.reduce_andi_all _ _ _ _ _ hT i)
  · exact nonneg_at a3 _ i (Host.reduce_andi_all _ _ _ _ _ hL i)
  · exact lt256_at a3 _ i (Host.reduce_andi_all _ _ _ _ _ hU i)
  · exact hull_at _ _ n j (Host.reduce_andi_all _ _ _ _ _ hH (ix2 n j))

end Matcher.Pre

end
-- ==== Proof.Algebra.lean ====
/-
  Algebra on the extended reals for the matching cost: the float words the programs carry, the ends of an interval
  given by midpoint and width, the agreement of the two arrangements of the pair cost wherever the hull has positive
  length, and the inner product with a 0/1 column.
-/
import proofs.«409946_j67886253080772_2_alg».proof.Proof.Spec
import Idealize.ShloMosaic.PureOps.Ideal
import Mathlib.Data.EReal.Basic
import Mathlib.Data.EReal.Operations
import Mathlib.Data.EReal.Inv
import Mathlib.Algebra.BigOperators.Group.Finset.Basic
import Mathlib.Algebra.Order.Group.MinMax
import Mathlib.Tactic.FieldSimp
import Mathlib.Tactic.Ring
import Mathlib.Tactic.Linarith
import Mathlib.Tactic.NormNum

noncomputable section

namespace Matcher

open Idealize.ShloMosaic

/-! ### The float words -/

theorem cHalf_eq : cHalf = ((1/2 : ℝ) : EReal) := by
  simp [Ideal.ofBits, Ideal.ieee, -EReal.coe_mul]; norm_num

theorem cZero_eq : cZero = 0 := by
  simp [Ideal.ofBits, Ideal.ieee]

theorem cOne_eq : cOne = 1 := by
  simp [Ideal.ofBits, Ideal.ieee, -EReal.coe_mul]

theorem cTwo_eq : cTwo = 2 := by
  simp [Ideal.ofBits, Ideal.ieee, -EReal.coe_mul]; norm_num; rfl

theorem cFive_eq : cFive = 5 := by
  simp [Ideal.ofBits, Ideal.ieee, -EReal.coe_mul]; norm_num; rfl

/-! ### Maxima, minima and absolute values of reals inside the extended reals -/

theorem coe_max' (x y : ℝ) : max (x : EReal) (y : EReal) = ((max x y : ℝ) : EReal) :=
  (EReal.coe_strictMono.monotone.map_max).symm

theorem coe_min' (x y : ℝ) : min (x : EReal) (y : EReal) = ((min x y : ℝ) : EReal) :=
  (EReal.coe_strictMono.monotone.map_min).symm

/-- The ends of an interval given by a real midpoint and a real width. -/
theorem lo_coe (mid w : ℝ) : lo (mid : EReal) (w : EReal) = ((mid - 1/2 * w : ℝ) : EReal) := by
  rw [lo, cHalf_eq, ← EReal.coe_mul, ← EReal.coe_sub]

theorem hi_coe (mid w : ℝ) : hi (mid : EReal) (w : EReal) = ((mid + 1/2 * w : ℝ) : EReal) := by
  rw [hi, cHalf_eq, ← EReal.coe_mul, ← EReal.coe_add]

/-! ### The distance term -/

/-- Hull minus raw overlap is the sum of the distances of the ends: `max x y + min x y = x + y` twice. -/
theorem hull_sub_overlap (a b c d : ℝ) :
    (max b d - min a c) - (min b d - max a c) = max (a - c) (-(a - c)) + max (b - d) (-(b - d)) := by
  have h1 : max b d + min b d = b + d := max_add_min b d
  have h2 : max a c + min a c = a + c := max_add_min a c
  have h3 : max (a - c) (-(a - c)) = max a c - min a c := by
    rcases le_total a c with h | h
    · rw [max_eq_right h, min_eq_left h, max_eq_right (by linarith)]; ring
    · rw [max_eq_left h, min_eq_right h, max_eq_left (by linarith)]
  have h4 : max (b - d) (-(b - d)) = max b d - min b d := by
    rcases le_total b d with h | h
    · rw [max_eq_right h, min_eq_left h, max_eq_right (by linarith)]; ring
    · rw [max_eq_left h, min_eq_right h, max_eq_left (by linarith)]
  rw [h3, h4]; ring

/-! ### The overlap-over-union term -/

/-- Dividing by zero: the infinity of the dividend's sign, junk at zero. -/
theorem div_coe_zero (x : ℝ) : Ideal.div (x : EReal) ((0 : ℝ) : EReal) = if 0 < x then ⊤ else ⊥ := by
  rw [Ideal.div, if_pos (by simp)]
  simp only [EReal.coe_pos]

/-- A quotient of reals with a nonzero divisor is the real quotient. -/
theorem div_coe_coe (x y : ℝ) (h : y ≠ 0) : Ideal.div (x : EReal) (y : EReal) = ((x / y : ℝ) : EReal) := by
  rw [Ideal.div_coe h, ← EReal.coe_mul]; congr 1; field_simp

/-- The two arrangements of the overlap-over-union term: over one denominator with the hull unclipped, and as a
    difference of two quotients.  Where the union `S − I` vanishes both are the quotient of the overlap by zero,
    minus one. -/
theorem giou_eq (I S H : ℝ) (hH : 0 < H) :
    Ideal.div ((I * H + (S - I) * (S - I) : ℝ) : EReal) (((S - I) * H : ℝ) : EReal) - ((1 : ℝ) : EReal)
      = Ideal.div (I : EReal) ((S - I : ℝ) : EReal) - Ideal.div ((H - (S - I) : ℝ) : EReal) (H : EReal) := by
  by_cases hU : S - I = 0
  · rw [hU, mul_zero, add_zero, zero_mul, sub_zero, div_coe_zero, div_coe_zero, div_coe_coe H H hH.ne', div_self hH.ne']
    simp only [mul_pos_iff_of_pos_right hH]
  · rw [div_coe_coe _ _ (mul_ne_zero hU hH.ne'), div_coe_coe _ _ hU, div_coe_coe _ _ hH.ne', ← EReal.coe_sub, ← EReal.coe_sub]
    congr 1
    field_simp
    ring

/-! ### The whole pair cost -/

/-- Subtracting scaled terms against adding the scaled negatives: no finiteness needed on the extended reals. -/
theorem cost_shape (cls g₁ g₂ : EReal) (x y : ℝ) (hxy : x = y) (hg : g₁ = g₂) :
    (((5 : ℝ) : EReal) * (x : EReal) - ((1 : ℝ) : EReal) * cls) - ((2 : ℝ) : EReal) * g₁
      = (((5 : ℝ) : EReal) * (y : EReal) + ((1 : ℝ) : EReal) * (-cls)) + ((2 : ℝ) : EReal) * (-g₂) := by
  subst hxy; subst hg
  rw [sub_eq_add_neg, sub_eq_add_neg, mul_neg, mul_neg]

/-- the two arrangements of the pair cost agree wherever the hull has positive length; cls is ANY extended real -/
theorem kerCost_eq_refCost (cls : EReal) (a b c d : ℝ) (hH : (0 : ℝ) < max b d - min a c) :
    kerCost cls (a : EReal) (b : EReal) (c : EReal) (d : EReal) ((d : EReal) - (c : EReal))
      = refCost cls (a : EReal) (b : EReal) (c : EReal) (d : EReal) := by
  have k0 : cZero = ((0 : ℝ) : EReal) := by rw [cZero_eq, EReal.coe_zero]
  have k1 : cOne = ((1 : ℝ) : EReal) := by rw [cOne_eq, EReal.coe_one]
  have k2 : cTwo = ((2 : ℝ) : EReal) := by rw [cTwo_eq]; rfl
  have k5 : cFive = ((5 : ℝ) : EReal) := by rw [cFive_eq]; rfl
  rw [kerCost, refCost, k0, k1, k2, k5]
  simp only [coe_max', coe_min', ← EReal.coe_sub, ← EReal.coe_add, ← EReal.coe_mul, ← EReal.coe_neg]
  rw [max_eq_right hH.le, max_comm (0 : ℝ) (min b d - max a c)]
  exact cost_shape cls _ _ _ _ (hull_sub_overlap a b c d)
    (giou_eq (max (min b d - max a c) 0) ((b - a) + (d - c)) (max b d - min a c) hH)

/-! ### The class term -/

/-- an inner product with a 0/1 column picks one entry; no finiteness of s needed (0 * x = 0 and x * 1 = x on EReal) -/
theorem sum_mul_indicator {K : ℕ} (s oh : Fin K → EReal) (j : Fin K) (h : ∀ k, oh k = if k = j then 1 else 0) :
    ∑ k : Fin K, s k * oh k = s j := by
  rw [Finset.sum_eq_single j]
  · rw [h j, if_pos rfl, mul_one]
  · intro k _ hk; rw [h k, if_neg hk, mul_zero]
  · intro hj; exact absurd (Finset.mem_univ j) hj

end Matcher

end
-- ==== Proof.Bridge.lean ====
/-
  The fused cost matrix is the textbook one.

  Where every prediction and target entry is a real number, the class table has a single one in each column (at
  the row of that target's label), the target table's rows are the targets' left ends, right ends and lengths, and
  every (prediction, target) pair has a hull of positive length, the two arrangements of the cost agree entry by
  entry: the inner product with a 0/1 column picks the label's probability, and the pair costs agree by the
  identity between the two arrangements.
-/
import proofs.«409946_j67886253080772_2_alg».proof.Proof.Spec
import proofs.«409946_j67886253080772_2_alg».proof.Proof.Algebra

noncomputable section

namespace Matcher

open Idealize.ShloMosaic Idealize.ShloMosaic.ValueIdx Idealize.ShloMosaic.Rows

theorem kerMatrix_eq_refMatrix {N K M : ℕ} (L : FVec Ideal ⟨2, ![N, K]⟩ .f32) (PB : FVec Ideal ⟨2, ![N, 2]⟩ .f32)
    (TB : FVec Ideal ⟨2, ![M, 2]⟩ .f32) (OH : FVec Ideal ⟨2, ![K, M]⟩ .bf16) (TT : FVec Ideal ⟨2, ![3, M]⟩ .f32)
    (lab : Fin M → Fin K)
    (hPB : ∀ i, ∃ r : ℝ, PB i = (r : EReal)) (hTB : ∀ i, ∃ r : ℝ, TB i = (r : EReal))
    (hOH : ∀ (k : Fin K) (j : Fin M), OH (ix2 k j) = if k = lab j then 1 else 0)
    (hT0 : ∀ j : Fin M, TT (ix2 0 j) = TB (ix2 j 0)) (hT1 : ∀ j : Fin M, TT (ix2 1 j) = TB (ix2 j 1))
    (hT2 : ∀ j : Fin M, TT (ix2 2 j) = TB (ix2 j 1) - TB (ix2 j 0))
    (hH : ∀ (n : Fin N) (j : Fin M),
      (0 : EReal) < max (hi (PB (ix2 n 0)) (PB (ix2 n 1))) (TB (ix2 j 1)) - min (lo (PB (ix2 n 0)) (PB (ix2 n 1))) (TB (ix2 j 0))) :
    kerMatrix L PB OH TT = refMatrix L PB TB lab := by
  funext i
  obtain ⟨n, j, rfl⟩ : ∃ (n : Fin N) (j : Fin M), i = ix2 n j := ⟨i 0, i 1, eq_ix2 i⟩
  obtain ⟨mid, hmid⟩ := hPB (ix2 n 0)
  obtain ⟨w, hw⟩ := hPB (ix2 n 1)
  obtain ⟨c, hc⟩ := hTB (ix2 j 0)
  obtain ⟨d, hd⟩ := hTB (ix2 j 1)
  have h := hH n j
  show kerCost (∑ k : Fin K, softmaxRow (rowOf L n) k * OH (ix2 k j)) (lo (PB (ix2 n 0)) (PB (ix2 n 1)))
      (hi (PB (ix2 n 0)) (PB (ix2 n 1))) (TT (ix2 0 j)) (TT (ix2 1 j)) (TT (ix2 2 j))
    = refCost (softmaxRow (rowOf L n) (lab j)) (lo (PB (ix2 n 0)) (PB (ix2 n 1)))
      (hi (PB (ix2 n 0)) (PB (ix2 n 1))) (TB (ix2 j 0)) (TB (ix2 j 1))
  rw [hT0, hT1, hT2, sum_mul_indicator _ (fun k => OH (ix2 k j)) (lab j) (fun k => hOH k j)]
  rw [hmid, hw, hc, hd, lo_coe, hi_coe] at h ⊢
  rw [coe_max', coe_min', ← EReal.coe_sub, EReal.coe_pos] at h
  exact kerCost_eq_refCost _ _ _ _ _ h

end Matcher

end
-- ==== Proof.KIHostRead.lean ====
/-
  The two tables the host builds before the launch, read at an index, at the ideal values.

  The class table's (class k, target j) entry is 1 where target j's label is k and 0 elsewhere: the transpose of the
  0/1 array comparing each target's label with each class number.  The target table's rows are the targets' left
  ends, their right ends, and the differences right − left.

  First the single layout operations over variables, each read at an index built from its coordinates; then a word
  in the class range against a class number; then the two tables.
-/
import proofs.«409946_j67886253080772_2_alg».proof.Proof.KIHost
import proofs.«409946_j67886253080772_2_alg».proof.Proof.Spec
import Idealize.ShloMosaic.Lib.ValueIdx
import Idealize.ShloMosaic.Lib.Pipeline.Value
import Idealize.ShloMosaic.Lib.StableHlo.Predicate
import Idealize.ShloMosaic.PureOps.Ideal

noncomputable section

namespace Cert.KernelIdeal.HostVals

open Idealize.ShloMosaic Idealize.ShloMosaic.TcCoe Idealize.SL.Sem Idealize.ShloMosaic.StableHlo Cert.KernelIdeal Cert.KernelIdeal.Gen
open Idealize.ShloMosaic.ValueIdx

/-! ## Single layout operations at an index -/

section Layout
variable {α : Type}

/-- A one-axis array laid as a single row reads, at (0, q), the array at q. -/
theorem row_of_vec_apply {n : ℕ} (h : (⟨1, ![n]⟩ : Shape).BroadcastsInDim ⟨2, ![1, n]⟩ ![1])
    (v : (⟨1, ![n]⟩ : Shape).Idx → α) (q : Fin n) :
    broadcastInDim ⟨2, ![1, n]⟩ ![1] h v (ix2 0 q) = v (ix1 q) := by
  refine broadcastInDim_apply _ h v _ (ix1 q) fun a => ?_
  match a with
  | ⟨0, _⟩ =>
    show q.val = if n = 1 then 0 else q.val
    have := q.isLt
    split
    · omega
    · rfl

/-- A one-axis array laid as a single column reads, at (p, 0), the array at p. -/
theorem col_of_vec_apply {n : ℕ} (h : (⟨1, ![n]⟩ : Shape).BroadcastsInDim ⟨2, ![n, 1]⟩ ![0])
    (v : (⟨1, ![n]⟩ : Shape).Idx → α) (p : Fin n) :
    broadcastInDim ⟨2, ![n, 1]⟩ ![0] h v (ix2 p 0) = v (ix1 p) := by
  refine broadcastInDim_apply _ h v _ (ix1 p) fun a => ?_
  match a with
  | ⟨0, _⟩ =>
    show p.val = if n = 1 then 0 else p.val
    have := p.isLt
    split
    · omega
    · rfl

/-- A column repeated along the second axis reads, at (p, q), the column at (p, 0). -/
theorem spread_col_apply {n m : ℕ} (h : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h v (ix2 p q) = v (ix2 p 0) := by
  refine broadcastInDim_apply _ h v _ (ix2 p 0) fun a => ?_
  match a with
  | ⟨0, _⟩ =>
    show p.val = if n = 1 then 0 else p.val
    have := p.isLt
    split
    · omega
    · rfl
  | ⟨1, _⟩ =>
    split
    · rfl
    · next h1 => exact absurd rfl h1

/-- A row repeated along the first axis reads, at (p, q), the row at (0, q). -/
theorem spread_row_apply {n m : ℕ} (h : (⟨2, ![1, m]⟩ : Shape).BroadcastsInDim ⟨2, ![n, m]⟩ ![0, 1])
    (v : (⟨2, ![1, m]⟩ : Shape).Idx → α) (p : Fin n) (q : Fin m) :
    broadcastInDim ⟨2, ![n, m]⟩ ![0, 1] h v (ix2 p q) = v (ix2 0 q) := by
  refine broadcastInDim_apply _ h v _ (ix2 0 q) fun a => ?_
  match a with
  | ⟨0, _⟩ =>
    split
    · rfl
    · next h1 => exact absurd rfl h1
  | ⟨1, _⟩ =>
    show q.val = if m = 1 then 0 else q.val
    have := q.isLt
    split
    · omega
    · rfl

/-- The positions along the second axis of a single row. -/
theorem iota_row_apply {m w : ℕ} (q : Fin m) :
    iotaInDim (⟨2, ![1, m]⟩ : Shape) w 1 (ix2 0 q) = BitVec.ofNat w q.val := rfl

/-- The transpose of a two-axis array reads, at (q, p), the array at (p, q). -/
theorem transpose2_apply {n m : ℕ} (h : (⟨2, ![n, m]⟩ : Shape).Transposes [1, 0] ⟨2, ![m, n]⟩)
    (x : (⟨2, ![n, m]⟩ : Shape).Idx → α) (q : Fin m) (p : Fin n) :
    transpose ⟨2, ![m, n]⟩ [1, 0] x h (ix2 q p) = x (ix2 p q) := by
  refine transpose_apply [1, 0] x h _ (ix2 p q) fun b => ?_
  match b with
  | ⟨0, _⟩ => rfl
  | ⟨1, _⟩ => rfl

/-- A single column re-laid as a one-axis array reads, at p, the column at (p, 0). -/
theorem unit_col_cast_apply {n : ℕ} (h : (⟨2, ![n, 1]⟩ : Shape).ShapeCasts ⟨1, ![n]⟩)
    (x : (⟨2, ![n, 1]⟩ : Shape).Idx → α) (p : Fin n) :
    shapeCast ⟨1, ![n]⟩ x h (ix1 p) = x (ix2 p 0) := by
  refine shapeCast_apply x h _ (ix2 p 0) ?_
  rw [Shape.rowMajor_val_two, Shape.rowMajor_val_one]
  show p.val * 1 + 0 = p.val
  omega

/-- Column `c` cut out of a two-axis array reads, at (p, 0), the array at (p, c). -/
theorem slice_col_apply {n m : ℕ} (c : Fin m) (h : (⟨2, ![n, m]⟩ : Shape).Slices ![0, c.val] ⟨2, ![n, 1]⟩)
    (x : (⟨2, ![n, m]⟩ : Shape).Idx → α) (p : Fin n) :
    extractStridedSlice ⟨2, ![n, 1]⟩ ![0, c.val] x h (ix2 p 0) = x (ix2 p c) := by
  refine extractStridedSlice_apply _ x h _ (ix2 p c) fun a => ?_
  match a with
  | ⟨0, _⟩ => show p.val = 0 + p.val; omega
  | ⟨1, _⟩ => show c.val = c.val + 0; omega

/-- Three single rows stacked: row r of the stack is the r-th piece. -/
theorem stack3_apply {n : ℕ} (x₀ x₁ x₂ : (⟨2, ![1, n]⟩ : Shape).Idx → α)
    (h : Shape.Concatenates (([⟨⟨2, ![1, n]⟩, x₀⟩, ⟨⟨2, ![1, n]⟩, x₁⟩, ⟨⟨2, ![1, n]⟩, x₂⟩] :
      List ((s : Shape) × (s.Idx → α))).map (·.1)) ⟨2, ![3, n]⟩ 0) (q : Fin n) :
    concatenate ⟨2, ![3, n]⟩ 0 [⟨⟨2, ![1, n]⟩, x₀⟩, ⟨⟨2, ![1, n]⟩, x₁⟩, ⟨⟨2, ![1, n]⟩, x₂⟩] h (ix2 0 q) = x₀ (ix2 0 q)
    ∧ concatenate ⟨2, ![3, n]⟩ 0 [⟨⟨2, ![1, n]⟩, x₀⟩, ⟨⟨2, ![1, n]⟩, x₁⟩, ⟨⟨2, ![1, n]⟩, x₂⟩] h (ix2 1 q) = x₁ (ix2 0 q)
    ∧ concatenate ⟨2, ![3, n]⟩ 0 [⟨⟨2, ![1, n]⟩, x₀⟩, ⟨⟨2, ![1, n]⟩, x₁⟩, ⟨⟨2, ![1, n]⟩, x₂⟩] h (ix2 2 q) = x₂ (ix2 0 q) := by
  have hoff : ∀ b : Fin 2, b.cast (rfl : (⟨2, ![1, n]⟩ : Shape).rank = (⟨2, ![3, n]⟩ : Shape).rank) ≠ 0 →
      ∀ r : Fin 3, ((ix2 (0 : Fin 1) q : (⟨2, ![1, n]⟩ : Shape).Idx) b).val
        = ((ix2 r q : (⟨2, ![3, n]⟩ : Shape).Idx) (b.cast rfl)).val := fun b hb r => by
    match b with
    | ⟨0, _⟩ => exact absurd rfl hb
    | ⟨1, _⟩ => rfl
  refine ⟨?_, ?_, ?_⟩
  · exact concatenate_apply_piece 0 _ h _ 0 (by show 0 < 3; omega) ⟨2, ![1, n]⟩ x₀ rfl rfl 0 rfl (ix2 0 q)
      (fun b hb => hoff b hb 0) rfl
  · exact concatenate_apply_piece 0 _ h _ 1 (by show 1 < 3; omega) ⟨2, ![1, n]⟩ x₁ rfl rfl 1 rfl (ix2 0 q)
      (fun b hb => hoff b hb 1) rfl
  · exact concatenate_apply_piece 0 _ h _ 2 (by show 2 < 3; omega) ⟨2, ![1, n]⟩ x₂ rfl rfl 2 rfl (ix2 0 q)
      (fun b hb => hoff b hb 2) rfl

end Layout

/-! ## A label in the class range against a class number -/

/-- A one-bit word read unsigned, at the ideal values: 1 for the set bit, 0 for the clear one. -/
theorem uitofp_bit (φ : FTy) (b : BitVec 1) :
    (FloatOps.uitofp (F := Ideal) φ b : EReal) = if b = 1#1 then 1 else 0 := by
  have hb : b = 0#1 ∨ b = 1#1 := by revert b; decide
  rcases hb with rfl | rfl
  · show (((0#1 : BitVec 1).toNat : ℝ) : EReal) = _
    simp
  · show (((1#1 : BitVec 1).toNat : ℝ) : EReal) = _
    simp

/-- A 32-bit word whose signed value lies in `[0, K)`, `K ≤ 2³¹`, equals the word of a class number `k < K` exactly
    when `k` is its value. -/
theorem word_eq_ofNat_iff (w : BitVec 32) {K : ℕ} (hK : K ≤ 2 ^ 31) (h0 : 0 ≤ w.toInt) (h1 : w.toInt < (K : ℤ)) (k : Fin K) :
    w = BitVec.ofNat 32 k.val ↔ k.val = w.toInt.toNat := by
  have hk := k.isLt
  have hw := w.isLt
  have ht : w.toInt = (w.toNat : ℤ) := by
    have hc := BitVec.toInt_eq_toNat_cond w
    split at hc
    · exact hc
    · omega
  constructor
  · intro h
    have : w.toNat = k.val := by
      rw [h, BitVec.toNat_ofNat]; exact Nat.mod_eq_of_lt (by omega)
    omega
  · intro h
    apply BitVec.eq_of_toNat_eq
    rw [BitVec.toNat_ofNat, Nat.mod_eq_of_lt (by omega)]
    omega

/-! ## The two tables -/

variable (m : (ℓ : Loc nD τ sig) → Buf (Elt Ideal) ℓ)

/-- The class table at (class k, target j): 1 where target j's label is k, 0 elsewhere. -/
theorem OH2_lab (c : Dev nD) (hlab : ∀ j : Fin 2048, 0 ≤ ((LB1 m c) (ix1 j)).toInt ∧ ((LB1 m c) (ix1 j)).toInt < ((256 : ℕ) : ℤ)) (k : Fin 256) (j : Fin 2048) :
    OH2 m c (ix2 k j) = if k = Matcher.labOf (LB1 m c) hlab j then 1 else 0 := by
  have e1 : OH2 m c (ix2 k j)
      = FloatOps.uitofp (F := Ideal) .bf16 (IntOp.cmpi .eq ((LB1 m c) (ix1 j)) (BitVec.ofNat 32 k.val)) := by
    refine (transpose2_apply transposes_S2048x256_S256x2048_1_0 _ k j).trans ?_
    show FloatOps.uitofp (F := Ideal) .bf16 (IntOp.cmpi .eq _ _) = _
    rw [spread_col_apply, col_of_vec_apply, spread_row_apply, iota_row_apply]
  have hiff : IntOp.cmpi .eq ((LB1 m c) (ix1 j)) (BitVec.ofNat 32 k.val) = 1#1
      ↔ k = Matcher.labOf (LB1 m c) hlab j := by
    rw [Predicate.cmpi_eq_iff, word_eq_ofNat_iff _ (by norm_num) (hlab j).1 (hlab j).2 k]
    constructor
    · intro h; exact Fin.ext h
    · intro h; rw [h]; rfl
  rw [e1, uitofp_bit]
  exact if_congr hiff rfl rfl

/-- Row 0 of the target table: the targets' left ends. -/
theorem TT2_row0 (c : Dev nD) (j : Fin 2048) : TT2 m c (ix2 0 j) = TB2 m c (ix2 j 0) := by
  refine (stack3_apply _ _ _ concatenates_S1x2048_S1x2048_S1x2048_S3x2048_d0 j).1.trans ?_
  rw [row_of_vec_apply]
  refine (unit_col_cast_apply shapeCasts_S2048x1_S2048 _ j).trans ?_
  exact slice_col_apply (0 : Fin 2) slices_S2048x2_S2048x1_0_0 (TB2 m c) j

/-- Row 1: their right ends. -/
theorem TT2_row1 (c : Dev nD) (j : Fin 2048) : TT2 m c (ix2 1 j) = TB2 m c (ix2 j 1) := by
  refine (stack3_apply _ _ _ concatenates_S1x2048_S1x2048_S1x2048_S3x2048_d0 j).2.1.trans ?_
  rw [row_of_vec_apply]
  refine (unit_col_cast_apply shapeCasts_S2048x1_S2048 _ j).trans ?_
  exact slice_col_apply (1 : Fin 2) slices_S2048x2_S2048x1_0_1 (TB2 m c) j

/-- Row 2: right end minus left end. -/
theorem TT2_row2 (c : Dev nD) (j : Fin 2048) : TT2 m c (ix2 2 j) = TB2 m c (ix2 j 1) - TB2 m c (ix2 j 0) := by
  refine (stack3_apply _ _ _ concatenates_S1x2048_S1x2048_S1x2048_S3x2048_d0 j).2.2.trans ?_
  rw [row_of_vec_apply]
  show tcol1 m c (ix1 j) - tcol0 m c (ix1 j) = _
  congr 1
  · refine (unit_col_cast_apply shapeCasts_S2048x1_S2048 _ j).trans ?_
    exact slice_col_apply (1 : Fin 2) slices_S2048x2_S2048x1_0_1 (TB2 m c) j
  · refine (unit_col_cast_apply shapeCasts_S2048x1_S2048 _ j).trans ?_
    exact slice_col_apply (0 : Fin 2) slices_S2048x2_S2048x1_0_0 (TB2 m c) j

end Cert.KernelIdeal.HostVals

end
-- ==== Proof.LibGather.lean ====
/-
  Reading a row gather at an element.

  jnp's `table[idx]` over a two-axis table of N rows prints as a gather whose start indices are an (n, 1) column of
  row numbers: the table's first axis is collapsed and start-indexed, its second axis is the one offset axis of the
  result, and the index vector lies along axis 1 of the column.  Result element (p, k) is then the table's element
  (r, k), where r is the p-th start index read as a signed integer and clamped into [0, N - 1].
-/
import Idealize.ShloMosaic.PureOps.ShapeOps
import Idealize.ShloMosaic.Lib.ValueIdx

namespace Idealize.ShloMosaic.RowGather

open Idealize.ShloMosaic Idealize.ShloMosaic.ValueIdx

/-- A list known to be one element long, read at any position, gives that element. -/
theorem getElem_of_eq_singleton {β : Type} {l : List β} {b : β} (h : l = [b]) (i : Nat) (hi : i < l.length) : l[i] = b := by
  subst h
  have : i = 0 := by simpa using hi
  subst this; rfl

section
variable {N n C w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (idx : IVec ⟨2, ![n, 1]⟩ w) (p : Fin n) (k : Fin C)
include hoff hcoll hob hsim hivd

/-- On the table's row axis the operand index is the clamped start index. -/
theorem operandIdx_row : (d.operandIdx (ix2 p k) idx (0 : Fin 2)).val = min (idx (ix2 p 0)).toInt.toNat (N - 1) := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes 0 = 1 := d.slice_collapsed 0 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  show min (idx _).toInt.toNat (N - d.sliceSizes 0) = min (idx (ix2 p 0)).toInt.toNat (N - 1)
  rw [hsl]
  congr 3
  congr 1
  funext b
  match b with
  | ⟨0, _⟩ =>
    unfold GatherDims.siIdx
    rw [dif_neg (by rw [hivd]; simp)]
    unfold GatherDims.siCoord
    apply Fin.ext
    simp only [Fin.val_cast]
    have hbd : d.batchDims = [0] := by
      simp [GatherDims.batchDims, Shape.kept, hoff, List.finRange]
    rw [getElem_of_eq_singleton hbd]
    rfl
  | ⟨1, _⟩ =>
    unfold GatherDims.siIdx
    rw [dif_pos (by rw [hivd])]
    apply Fin.ext
    show List.idxOf (0 : Fin 2) d.startIndexMap = 0
    rw [hsim]; simp

/-- On the table's column axis the operand index is the result's column. -/
theorem operandIdx_col : (d.operandIdx (ix2 p k) idx (1 : Fin 2)).val = k.val := by
  have hb : (1 : Fin 2) ∉ d.operandBatchingDims := by rw [hob]; exact List.not_mem_nil
  have hk : (1 : Fin 2) ∈ d.sKept := by rw [GatherDims.mem_sKept, hcoll, hob]; simp
  have hm : (1 : Fin 2) ∉ d.startIndexMap := by rw [hsim]; simp
  simp only [GatherDims.operandIdx, GatherDims.batchCoord_eq_zero _ _ _ hb, Nat.add_zero, GatherDims.start,
    dif_neg hm, Nat.zero_add]
  unfold GatherDims.offCoord
  rw [dif_pos hk, getElem_of_eq_singleton hoff]
  rfl

/-- Element (p, k) of a row gather is the table's element (r, k), r the p-th start index read signed and clamped into the
    table. -/
theorem gather_rows {α : Type} (x : (⟨2, ![N, C]⟩ : Shape).Idx → α) (hN : 0 < N) :
    Host.gather d x idx (ix2 p k) = x (ix2 ⟨min (idx (ix2 p 0)).toInt.toNat (N - 1), by omega⟩ k) := by
  unfold Host.gather
  congr 1
  funext a
  apply Fin.ext
  match a with
  | ⟨0, _⟩ => exact operandIdx_row d hoff hcoll hob hsim hivd idx p k
  | ⟨1, _⟩ => exact operandIdx_col d hoff hcoll hob hsim hivd idx p k
end

end Idealize.ShloMosaic.RowGather
-- ==== Proof.RefRead.lean ====
/-
  The reference program's result read as the textbook matching-cost matrix.

  The program flattens its four arguments (logits L, one row of 256 per prediction; predictions PB as midpoint and
  width; targets TB as left and right end; one label per target) to 16384 predictions and 2048 targets and computes, for
  prediction n and target j,
      5·(|a − c| + |b − d|) + 1·(−p) + 2·(−giou),
  where a = mid − ½·w and b = mid + ½·w are the prediction's ends, c and d the target's, p the probability that the
  softmax of row n of L gives to target j's label, and giou = I/U − (H − U)/H with I the clipped overlap, U the union
  and H the clipped hull of the two intervals.  This file reads that off the program one operation at a time:

  * the class term is a gather along the class axis: entry (n, j) of the gathered array is the softmax's entry
    (n, r), r the j-th start index read signed and clamped into the class range; a label in the class range is not
    negative, so it passes the program's wrap-around of negative labels unchanged and is its own clamp;
  * the softmax is the exponential of each row shifted by its maximum over that row's sum;
  * the prediction's two ends are joined into a two-column table, and every later use takes one column out again,
    flattens it, and lays it along the rows of the 16384 × 2048 matrix; a target's end is a column of TB laid down the
    matrix's columns.  Each such chain read at (n, j) is one entry of the table;
  * the remaining operations act entry by entry, in exactly the order in which the textbook cost is written.
-/
import proofs.«409946_j67886253080772_2_alg».proof.Proof.Gen.ReferenceIdeal.Run
import proofs.«409946_j67886253080772_2_alg».proof.Proof.Gen.ReferenceIdeal.Read
import proofs.«409946_j67886253080772_2_alg».proof.Proof.Spec
import proofs.«409946_j67886253080772_2_alg».proof.Proof.LibRows
import proofs.«409946_j67886253080772_2_alg».proof.Proof.LibCosineSoftmax
import proofs.«409946_j67886253080772_2_alg».proof.Proof.LibGather

noncomputable section

namespace Cert.ReferenceIdeal.RefValue

open Cert.ReferenceIdeal Cert.ReferenceIdeal.Gen Cert.ReferenceIdeal.Read Idealize.ShloMosaic Idealize.ShloMosaic.ValueIdx
  Idealize.ShloMosaic.Rows Idealize.ShloMosaic.TcCoe Idealize.SL.Sem Idealize.ShloMosaic.StableHlo

/-! ## A column gather read at an element -/

section ColumnGather
variable {N C n w : Nat} (d : GatherDims ⟨2, ![N, C]⟩ ⟨2, ![n, 1]⟩ ⟨2, ![N, n]⟩)
    (hoff : d.offsetDims = [0]) (hcoll : d.collapsedSliceDims = [1]) (hob : d.operandBatchingDims = [])
    (hsim : d.startIndexMap = [1]) (hivd : d.indexVectorDim = 1)
    (idx : IVec ⟨2, ![n, 1]⟩ w) (p : Fin N) (j : Fin n)
include hoff hcoll hob hsim hivd

/-- On the table's column axis the operand index is the clamped start index of the result's column. -/
theorem operandIdx_col : (d.operandIdx (ix2 p j) idx (1 : Fin 2)).val = min (idx (ix2 j 0)).toInt.toNat (C - 1) := by
  have hb : (1 : Fin 2) ∉ d.operandBatchingDims := by rw [hob]; exact List.not_mem_nil
  have hk : (1 : Fin 2) ∉ d.sKept := by rw [GatherDims.mem_sKept, hcoll]; simp
  have hm : (1 : Fin 2) ∈ d.startIndexMap := by rw [hsim]; exact List.mem_singleton.mpr rfl
  have hsl : d.sliceSizes 1 = 1 := d.slice_collapsed 1 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  show min (idx _).toInt.toNat (C - d.sliceSizes 1) = min (idx (ix2 j 0)).toInt.toNat (C - 1)
  rw [hsl]
  congr 3
  congr 1
  funext b
  match b with
  | ⟨0, _⟩ =>
    unfold GatherDims.siIdx
    rw [dif_neg (by rw [hivd]; simp)]
    unfold GatherDims.siCoord
    apply Fin.ext
    simp only [Fin.val_cast]
    have hbd : d.batchDims = [1] := by
      simp [GatherDims.batchDims, Shape.kept, hoff, List.finRange]
    rw [RowGather.getElem_of_eq_singleton hbd]
    rfl
  | ⟨1, _⟩ =>
    unfold GatherDims.siIdx
    rw [dif_pos (by rw [hivd])]
    apply Fin.ext
    show List.idxOf (1 : Fin 2) d.startIndexMap = 0
    rw [hsim]; simp

/-- On the table's row axis the operand index is the result's row. -/
theorem operandIdx_row : (d.operandIdx (ix2 p j) idx (0 : Fin 2)).val = p.val := by
  have hb : (0 : Fin 2) ∉ d.operandBatchingDims := by rw [hob]; exact List.not_mem_nil
  have hk : (0 : Fin 2) ∈ d.sKept := by rw [GatherDims.mem_sKept, hcoll, hob]; simp
  have hm : (0 : Fin 2) ∉ d.startIndexMap := by rw [hsim]; simp
  simp only [GatherDims.operandIdx, GatherDims.batchCoord_eq_zero _ _ _ hb, Nat.add_zero, GatherDims.start,
    dif_neg hm, Nat.zero_add]
  unfold GatherDims.offCoord
  rw [dif_pos hk, RowGather.getElem_of_eq_singleton hoff]
  rfl

/-- Element (p, j) of a column gather is the table's element (p, c), c the j-th start index read signed and clamped into
    the table's columns. -/
theorem gather_cols {α : Type} (x : (⟨2, ![N, C]⟩ : Shape).Idx → α) (hC : 0 < C) :
    Host.gather d x idx (ix2 p j) = x (ix2 p ⟨min (idx (ix2 j 0)).toInt.toNat (C - 1), by omega⟩) := by
  unfold Host.gather
  congr 1
  funext a
  apply Fin.ext
  match a with
  | ⟨0, _⟩ => exact operandIdx_row d hoff hcoll hob hsim hivd idx p j
  | ⟨1, _⟩ => exact operandIdx_col d hoff hcoll hob hsim hivd idx p j
end ColumnGather

/-! ## Columns of a two-column table laid over a matrix -/

section Layout
variable {N M : Nat}

/-- Column `o` of a two-column table taken out and flattened: entry n is the table's (n, o). -/
theorem col_flat (X : FVec Ideal ⟨2, ![N, 2]⟩ .f32) (o : Nat) (ho : o < 2)
    (sl : (⟨2, ![N, 2]⟩ : Shape).Slices ![0, o] ⟨2, ![N, 1]⟩) (sc : (⟨2, ![N, 1]⟩ : Shape).ShapeCasts ⟨1, ![N]⟩) (n : Fin N) :
    shapeCast ⟨1, ![N]⟩ (extractStridedSlice ⟨2, ![N, 1]⟩ ![0, o] X sl) sc (ix1 n) = X (ix2 n ⟨o, ho⟩) := by
  have e3 := shapeCast_apply (extractStridedSlice ⟨2, ![N, 1]⟩ ![0, o] X sl) sc (ix1 n) (ix2 n (0 : Fin 1)) (by
    rw [Shape.rowMajor_val_two, Shape.rowMajor_val_one]; show n.val * 1 + 0 = n.val; omega)
  have e4 := extractStridedSlice_apply ![0, o] X sl (ix2 n (0 : Fin 1)) (ix2 n (⟨o, ho⟩ : Fin 2)) (by
    intro a
    match a with
    | ⟨0, _⟩ => show n.val = 0 + n.val; omega
    | ⟨1, _⟩ => show o = o + 0; rfl)
  exact e3.trans e4

/-- One value per matrix row laid along the rows: entry (n, j) is the n-th value. -/
theorem vals_over_rows (c : FVec Ideal ⟨1, ![N]⟩ .f32) (b1 : (⟨1, ![N]⟩ : Shape).BroadcastsInDim ⟨2, ![N, 1]⟩ ![0])
    (b2 : (⟨2, ![N, 1]⟩ : Shape).BroadcastsInDim ⟨2, ![N, M]⟩ ![0, 1]) (n : Fin N) (j : Fin M) :
    broadcastInDim ⟨2, ![N, M]⟩ ![0, 1] b2 (broadcastInDim ⟨2, ![N, 1]⟩ ![0] b1 c) (ix2 n j) = c (ix1 n) :=
  congrFun (hcol_eq c b1 b2) (ix2 n j)

/-- One value per matrix column laid down the columns: entry (n, j) is the j-th value. -/
theorem vals_over_cols (c : FVec Ideal ⟨1, ![M]⟩ .f32) (b1 : (⟨1, ![M]⟩ : Shape).BroadcastsInDim ⟨2, ![1, M]⟩ ![1])
    (b2 : (⟨2, ![1, M]⟩ : Shape).BroadcastsInDim ⟨2, ![N, M]⟩ ![0, 1]) (n : Fin N) (j : Fin M) :
    broadcastInDim ⟨2, ![N, M]⟩ ![0, 1] b2 (broadcastInDim ⟨2, ![1, M]⟩ ![1] b1 c) (ix2 n j) = c (ix1 j) := by
  have e1 := Idealize.ShloMosaic.broadcastInDim_oneRow_apply b2 (broadcastInDim ⟨2, ![1, M]⟩ ![1] b1 c) n j
  have e2 : broadcastInDim ⟨2, ![1, M]⟩ ![1] b1 c (ix2 (0 : Fin 1) j) = c (ix1 j) :=
    broadcastInDim_apply ![1] b1 c (ix2 (0 : Fin 1) j) (ix1 j) fun a => by
      match a with
      | ⟨0, _⟩ =>
        show j.val = if M = 1 then 0 else j.val
        split
        · have := j.isLt; omega
        · rfl
  exact e1.trans e2

/-- Column `o` of a table with one row per matrix row, laid along the rows: entry (n, j) is the table's (n, o). -/
theorem col_over_rows (X : FVec Ideal ⟨2, ![N, 2]⟩ .f32) (o : Nat) (ho : o < 2)
    (sl : (⟨2, ![N, 2]⟩ : Shape).Slices ![0, o] ⟨2, ![N, 1]⟩) (sc : (⟨2, ![N, 1]⟩ : Shape).ShapeCasts ⟨1, ![N]⟩)
    (b1 : (⟨1, ![N]⟩ : Shape).BroadcastsInDim ⟨2, ![N, 1]⟩ ![0])
    (b2 : (⟨2, ![N, 1]⟩ : Shape).BroadcastsInDim ⟨2, ![N, M]⟩ ![0, 1]) (n : Fin N) (j : Fin M) :
    broadcastInDim ⟨2, ![N, M]⟩ ![0, 1] b2 (broadcastInDim ⟨2, ![N, 1]⟩ ![0] b1
      (shapeCast ⟨1, ![N]⟩ (extractStridedSlice ⟨2, ![N, 1]⟩ ![0, o] X sl) sc)) (ix2 n j) = X (ix2 n ⟨o, ho⟩) :=
  (vals_over_rows _ b1 b2 n j).trans (col_flat X o ho sl sc n)

/-- Column `o` of a table with one row per matrix column, laid down the columns: entry (n, j) is the table's (j, o). -/
theorem col_over_cols (Y : FVec Ideal ⟨2, ![M, 2]⟩ .f32) (o : Nat) (ho : o < 2)
    (sl : (⟨2, ![M, 2]⟩ : Shape).Slices ![0, o] ⟨2, ![M, 1]⟩) (sc : (⟨2, ![M, 1]⟩ : Shape).ShapeCasts ⟨1, ![M]⟩)
    (b1 : (⟨1, ![M]⟩ : Shape).BroadcastsInDim ⟨2, ![1, M]⟩ ![1])
    (b2 : (⟨2, ![1, M]⟩ : Shape).BroadcastsInDim ⟨2, ![N, M]⟩ ![0, 1]) (n : Fin N) (j : Fin M) :
    broadcastInDim ⟨2, ![N, M]⟩ ![0, 1] b2 (broadcastInDim ⟨2, ![1, M]⟩ ![1] b1
      (shapeCast ⟨1, ![M]⟩ (extractStridedSlice ⟨2, ![M, 1]⟩ ![0, o] Y sl) sc)) (ix2 n j) = Y (ix2 j ⟨o, ho⟩) :=
  (vals_over_cols _ b1 b2 n j).trans (col_flat Y o ho sl sc j)

/-- A value stood up as a one-entry row: the entry is the value. -/
theorem val_as_col (c : FVec Ideal ⟨1, ![N]⟩ .f32) (b1 : (⟨1, ![N]⟩ : Shape).BroadcastsInDim ⟨2, ![N, 1]⟩ ![0]) (n : Fin N) :
    broadcastInDim ⟨2, ![N, 1]⟩ ![0] b1 c (ix2 n (0 : Fin 1)) = c (ix1 n) :=
  congrFun (hcol1_eq c b1) (ix2 n (0 : Fin 1))

end Layout

/-! ## The class probabilities -/

section Prob
variable (a0 : FVec Ideal S16x1024x256 .f32) (a3 : IVec S16x128 32)

/-- The exponentials of the logits, each row shifted by its maximum. -/
theorem v7_eq : val_main_v7 (F := Ideal) a0
    = ofRows fun i k => Ideal.exp (rowOf (val_main_v0 (F := Ideal) a0) i k - rowMax (rowOf (val_main_v0 (F := Ideal) a0) i)) :=
  hexpshift_eq (N := 16384) (K := 256) (val_main_v0 (F := Ideal) a0) reducesTo_S16384x256_S16384_d1 (by decide) h_S_
    bcast_S_S16384 bcast_S16384_S16384x1_0 bcast_S16384x1_S16384x256_0_1

/-- The softmax of every row of the logits. -/
theorem v11_eq : val_main_v11 (F := Ideal) a0 = ofRows fun i => softmaxRow (rowOf (val_main_v0 (F := Ideal) a0) i) := by
  have h := hdivsum_eq (N := 16384) (K := 256) (val_main_v7 (F := Ideal) a0) (val_main_v7 (F := Ideal) a0)
    reducesTo_S16384x256_S16384_d1 (by decide) h_S_ bcast_S16384_S16384x1_0 bcast_S16384x1_S16384x256_0_1
  refine h.trans ?_
  rw [v7_eq]
  exact softmax_of_expshift _

/-- A label that is not negative passes the wrap-around of negative labels unchanged. -/
theorem v33_at (j : Fin 2048) (h : 0 ≤ (val_main_v27 (F := Ideal) a3 (ix1 j)).toInt) :
    val_main_v33 (F := Ideal) a3 (ix2 j (0 : Fin 1)) = val_main_v27 (F := Ideal) a3 (ix1 j) := by
  have hi : idx_main_v33 (ix2 j (0 : Fin 1)) = ix1 j := funext fun a => by
    match a with
    | ⟨0, _⟩ => rfl
  rw [val_main_v33_apply, hi, val_main_v32_apply, val_main_v29_apply, val_main_v28_apply, val_main_c_apply]
  generalize val_main_v27 (F := Ideal) a3 (ix1 j) = x at h ⊢
  have hc : IntOp.cmpi .slt x 0#32 = 0#1 := by
    have hd : decide (x.toInt < 0) = false := decide_eq_false (by omega)
    simp [IntOp.cmpi, BitVec.slt, hd]
  rw [hc, select_zero]

/-- The class term: the gathered entry (n, j) is the probability prediction n's softmax gives to target j's label. -/
theorem v34_at (hlab : ∀ j : Fin 2048, 0 ≤ (val_main_v27 (F := Ideal) a3 (ix1 j)).toInt
      ∧ (val_main_v27 (F := Ideal) a3 (ix1 j)).toInt < ((256 : ℕ) : ℤ)) (n : Fin 16384) (j : Fin 2048) :
    val_main_v34 (F := Ideal) a0 a3 (ix2 n j)
      = softmaxRow (rowOf (val_main_v0 (F := Ideal) a0) n) (Matcher.labOf (val_main_v27 (F := Ideal) a3) hlab j) := by
  refine (gather_cols gather_S16384x256_S2048x1_S16384x2048_0_1_n_n_1_1_163841 rfl rfl rfl rfl rfl
    (val_main_v33 (F := Ideal) a3) n j (val_main_v11 (F := Ideal) a0) (by decide)).trans ?_
  rw [v11_eq, ofRows_apply]
  congr 1
  apply Fin.ext
  show min (val_main_v33 (F := Ideal) a3 (ix2 j (0 : Fin 1))).toInt.toNat (256 - 1)
    = (val_main_v27 (F := Ideal) a3 (ix1 j)).toInt.toNat
  rw [v33_at a3 j (hlab j).1]
  have := (hlab j).2
  omega

end Prob

/-! ## The boxes -/

section Boxes
variable (a1 : FVec Ideal S16x1024x2 .f32) (a2 : FVec Ideal S16x128x2 .f32)

/-- The left end of prediction n's interval, from its midpoint and width. -/
theorem v19_at (n : Fin 16384) : val_main_v19 (F := Ideal) a1 (ix1 n)
    = Matcher.lo (val_main_v12 (F := Ideal) a1 (ix2 n (0 : Fin 2))) (val_main_v12 (F := Ideal) a1 (ix2 n (1 : Fin 2))) := by
  have e14 : val_main_v14 (F := Ideal) a1 (ix1 n) = val_main_v12 (F := Ideal) a1 (ix2 n (0 : Fin 2)) :=
    col_flat (val_main_v12 (F := Ideal) a1) 0 (by decide) slices_S16384x2_S16384x1_0_0 shapeCasts_S16384x1_S16384 n
  have e16 : val_main_v16 (F := Ideal) a1 (ix1 n) = val_main_v12 (F := Ideal) a1 (ix2 n (1 : Fin 2)) :=
    col_flat (val_main_v12 (F := Ideal) a1) 1 (by decide) slices_S16384x2_S16384x1_0_1 shapeCasts_S16384x1_S16384 n
  rw [val_main_v19_apply, val_main_v18_apply, val_main_v17_apply, val_main_cst_2_apply, e14, e16]
  rfl

/-- The right end of prediction n's interval. -/
theorem v22_at (n : Fin 16384) : val_main_v22 (F := Ideal) a1 (ix1 n)
    = Matcher.hi (val_main_v12 (F := Ideal) a1 (ix2 n (0 : Fin 2))) (val_main_v12 (F := Ideal) a1 (ix2 n (1 : Fin 2))) := by
  have e14 : val_main_v14 (F := Ideal) a1 (ix1 n) = val_main_v12 (F := Ideal) a1 (ix2 n (0 : Fin 2)) :=
    col_flat (val_main_v12 (F := Ideal) a1) 0 (by decide) slices_S16384x2_S16384x1_0_0 shapeCasts_S16384x1_S16384 n
  have e16 : val_main_v16 (F := Ideal) a1 (ix1 n) = val_main_v12 (F := Ideal) a1 (ix2 n (1 : Fin 2)) :=
    col_flat (val_main_v12 (F := Ideal) a1) 1 (by decide) slices_S16384x2_S16384x1_0_1 shapeCasts_S16384x1_S16384 n
  rw [val_main_v22_apply, val_main_v21_apply, val_main_v20_apply, val_main_cst_3_apply, e14, e16]
  rfl

/-- The two ends side by side: one row (left end, right end) per prediction. -/
theorem v25_eq : val_main_v25 (F := Ideal) a1
    = ofRows fun i => cat (A := 1) (B := 1) (C := 2) rfl (rowOf (val_main_v23 (F := Ideal) a1) i) (rowOf (val_main_v24 (F := Ideal) a1) i) :=
  cat_eq rfl (val_main_v23 (F := Ideal) a1) (val_main_v24 (F := Ideal) a1) concatenates_S16384x1_S16384x1_S16384x2_d1

theorem v25_at0 (n : Fin 16384) : val_main_v25 (F := Ideal) a1 (ix2 n (0 : Fin 2))
    = Matcher.lo (val_main_v12 (F := Ideal) a1 (ix2 n (0 : Fin 2))) (val_main_v12 (F := Ideal) a1 (ix2 n (1 : Fin 2))) := by
  rw [v25_eq, ofRows_apply]
  show val_main_v23 (F := Ideal) a1 (ix2 n (0 : Fin 1)) = _
  exact (val_as_col (val_main_v19 (F := Ideal) a1) bcast_S16384_S16384x1_0 n).trans (v19_at a1 n)

theorem v25_at1 (n : Fin 16384) : val_main_v25 (F := Ideal) a1 (ix2 n (1 : Fin 2))
    = Matcher.hi (val_main_v12 (F := Ideal) a1 (ix2 n (0 : Fin 2))) (val_main_v12 (F := Ideal) a1 (ix2 n (1 : Fin 2))) := by
  rw [v25_eq, ofRows_apply]
  show val_main_v24 (F := Ideal) a1 (ix2 n (0 : Fin 1)) = _
  exact (val_as_col (val_main_v22 (F := Ideal) a1) bcast_S16384_S16384x1_0 n).trans (v22_at a1 n)

/-! Each use of an end: a column of the table of ends (or of the targets) laid over the matrix. -/

theorem v42_at (n : Fin 16384) (j : Fin 2048) :
    val_main_v42 (F := Ideal) a1 (ix2 n j) = val_main_v25 (F := Ideal) a1 (ix2 n (0 : Fin 2)) :=
  col_over_rows (val_main_v25 (F := Ideal) a1) 0 (by decide) slices_S16384x2_S16384x1_0_0 shapeCasts_S16384x1_S16384
    bcast_S16384_S16384x1_0 bcast_S16384x1_S16384x2048_0_1 n j
theorem v52_at (n : Fin 16384) (j : Fin 2048) :
    val_main_v52 (F := Ideal) a1 (ix2 n j) = val_main_v25 (F := Ideal) a1 (ix2 n (1 : Fin 2)) :=
  col_over_rows (val_main_v25 (F := Ideal) a1) 1 (by decide) slices_S16384x2_S16384x1_0_1 shapeCasts_S16384x1_S16384
    bcast_S16384_S16384x1_0 bcast_S16384x1_S16384x2048_0_1 n j
theorem v73_at (n : Fin 16384) (j : Fin 2048) :
    val_main_v73 (F := Ideal) a1 (ix2 n j) = val_main_v25 (F := Ideal) a1 (ix2 n (0 : Fin 2)) :=
  col_over_rows (val_main_v25 (F := Ideal) a1) 0 (by decide) slices_S16384x2_S16384x1_0_0 shapeCasts_S16384x1_S16384
    bcast_S16384_S16384x1_0 bcast_S16384x1_S16384x2048_0_1 n j
theorem v82_at (n : Fin 16384) (j : Fin 2048) :
    val_main_v82 (F := Ideal) a1 (ix2 n j) = val_main_v25 (F := Ideal) a1 (ix2 n (1 : Fin 2)) :=
  col_over_rows (val_main_v25 (F := Ideal) a1) 1 (by decide) slices_S16384x2_S16384x1_0_1 shapeCasts_S16384x1_S16384
    bcast_S16384_S16384x1_0 bcast_S16384x1_S16384x2048_0_1 n j
theorem v100_at (n : Fin 16384) (j : Fin 2048) :
    val_main_v100 (F := Ideal) a1 (ix2 n j) = val_main_v25 (F := Ideal) a1 (ix2 n (0 : Fin 2)) :=
  col_over_rows (val_main_v25 (F := Ideal) a1) 0 (by decide) slices_S16384x2_S16384x1_0_0 shapeCasts_S16384x1_S16384
    bcast_S16384_S16384x1_0 bcast_S16384x1_S16384x2048_0_1 n j
theorem v109_at (n : Fin 16384) (j : Fin 2048) :
    val_main_v109 (F := Ideal) a1 (ix2 n j) = val_main_v25 (F := Ideal) a1 (ix2 n (1 : Fin 2)) :=
  col_over_rows (val_main_v25 (F := Ideal) a1) 1 (by decide) slices_S16384x2_S16384x1_0_1 shapeCasts_S16384x1_S16384
    bcast_S16384_S16384x1_0 bcast_S16384x1_S16384x2048_0_1 n j

theorem v43_at (n : Fin 16384) (j : Fin 2048) :
    val_main_v43 (F := Ideal) a2 (ix2 n j) = val_main_v26 (F := Ideal) a2 (ix2 j (0 : Fin 2)) :=
  col_over_cols (val_main_v26 (F := Ideal) a2) 0 (by decide) slices_S2048x2_S2048x1_0_0 shapeCasts_S2048x1_S2048
    bcast_S2048_S1x2048_1 bcast_S1x2048_S16384x2048_0_1 n j
theorem v53_at (n : Fin 16384) (j : Fin 2048) :
    val_main_v53 (F := Ideal) a2 (ix2 n j) = val_main_v26 (F := Ideal) a2 (ix2 j (1 : Fin 2)) :=
  col_over_cols (val_main_v26 (F := Ideal) a2) 1 (by decide) slices_S2048x2_S2048x1_0_1 shapeCasts_S2048x1_S2048
    bcast_S2048_S1x2048_1 bcast_S1x2048_S16384x2048_0_1 n j
theorem v74_at (n : Fin 16384) (j : Fin 2048) :
    val_main_v74 (F := Ideal) a2 (ix2 n j) = val_main_v26 (F := Ideal) a2 (ix2 j (0 : Fin 2)) :=
  col_over_cols (val_main_v26 (F := Ideal) a2) 0 (by decide) slices_S2048x2_S2048x1_0_0 shapeCasts_S2048x1_S2048
    bcast_S2048_S1x2048_1 bcast_S1x2048_S16384x2048_0_1 n j
theorem v83_at (n : Fin 16384) (j : Fin 2048) :
    val_main_v83 (F := Ideal) a2 (ix2 n j) = val_main_v26 (F := Ideal) a2 (ix2 j (1 : Fin 2)) :=
  col_over_cols (val_main_v26 (F := Ideal) a2) 1 (by decide) slices_S2048x2_S2048x1_0_1 shapeCasts_S2048x1_S2048
    bcast_S2048_S1x2048_1 bcast_S1x2048_S16384x2048_0_1 n j
theorem v101_at (n : Fin 16384) (j : Fin 2048) :
    val_main_v101 (F := Ideal) a2 (ix2 n j) = val_main_v26 (F := Ideal) a2 (ix2 j (0 : Fin 2)) :=
  col_over_cols (val_main_v26 (F := Ideal) a2) 0 (by decide) slices_S2048x2_S2048x1_0_0 shapeCasts_S2048x1_S2048
    bcast_S2048_S1x2048_1 bcast_S1x2048_S16384x2048_0_1 n j
theorem v110_at (n : Fin 16384) (j : Fin 2048) :
    val_main_v110 (F := Ideal) a2 (ix2 n j) = val_main_v26 (F := Ideal) a2 (ix2 j (1 : Fin 2)) :=
  col_over_cols (val_main_v26 (F := Ideal) a2) 1 (by decide) slices_S2048x2_S2048x1_0_1 shapeCasts_S2048x1_S2048
    bcast_S2048_S1x2048_1 bcast_S1x2048_S16384x2048_0_1 n j

/-- The prediction's length, laid along the rows. -/
theorem v89_at (n : Fin 16384) (j : Fin 2048) : val_main_v89 (F := Ideal) a1 (ix2 n j)
    = val_main_v25 (F := Ideal) a1 (ix2 n (1 : Fin 2)) - val_main_v25 (F := Ideal) a1 (ix2 n (0 : Fin 2)) := by
  have e : val_main_v89 (F := Ideal) a1 (ix2 n j) = val_main_v61 (F := Ideal) a1 (ix1 n) :=
    vals_over_rows (val_main_v61 (F := Ideal) a1) bcast_S16384_S16384x1_0 bcast_S16384x1_S16384x2048_0_1 n j
  have e58 : val_main_v58 (F := Ideal) a1 (ix1 n) = val_main_v25 (F := Ideal) a1 (ix2 n (1 : Fin 2)) :=
    col_flat (val_main_v25 (F := Ideal) a1) 1 (by decide) slices_S16384x2_S16384x1_0_1 shapeCasts_S16384x1_S16384 n
  have e60 : val_main_v60 (F := Ideal) a1 (ix1 n) = val_main_v25 (F := Ideal) a1 (ix2 n (0 : Fin 2)) :=
    col_flat (val_main_v25 (F := Ideal) a1) 0 (by decide) slices_S16384x2_S16384x1_0_0 shapeCasts_S16384x1_S16384 n
  rw [e, val_main_v61_apply, e58, e60]
  rfl

/-- The target's length, laid down the columns. -/
theorem v90_at (n : Fin 16384) (j : Fin 2048) : val_main_v90 (F := Ideal) a2 (ix2 n j)
    = val_main_v26 (F := Ideal) a2 (ix2 j (1 : Fin 2)) - val_main_v26 (F := Ideal) a2 (ix2 j (0 : Fin 2)) := by
  have e : val_main_v90 (F := Ideal) a2 (ix2 n j) = val_main_v66 (F := Ideal) a2 (ix1 j) :=
    vals_over_cols (val_main_v66 (F := Ideal) a2) bcast_S2048_S1x2048_1 bcast_S1x2048_S16384x2048_0_1 n j
  have e63 : val_main_v63 (F := Ideal) a2 (ix1 j) = val_main_v26 (F := Ideal) a2 (ix2 j (1 : Fin 2)) :=
    col_flat (val_main_v26 (F := Ideal) a2) 1 (by decide) slices_S2048x2_S2048x1_0_1 shapeCasts_S2048x1_S2048 j
  have e65 : val_main_v65 (F := Ideal) a2 (ix1 j) = val_main_v26 (F := Ideal) a2 (ix2 j (0 : Fin 2)) :=
    col_flat (val_main_v26 (F := Ideal) a2) 0 (by decide) slices_S2048x2_S2048x1_0_0 shapeCasts_S2048x1_S2048 j
  rw [e, val_main_v66_apply, e63, e65]
  rfl

end Boxes

/-! ## The whole matrix -/

section Whole
variable (a0 : FVec Ideal S16x1024x256 .f32) (a1 : FVec Ideal S16x1024x2 .f32) (a2 : FVec Ideal S16x128x2 .f32)
  (a3 : IVec S16x128 32)

/-- Entry (n, j) of the cost, before the last reshape, is the textbook cost of prediction n against target j. -/
theorem v125_at (hlab : ∀ j : Fin 2048, 0 ≤ (val_main_v27 (F := Ideal) a3 (ix1 j)).toInt
      ∧ (val_main_v27 (F := Ideal) a3 (ix1 j)).toInt < ((256 : ℕ) : ℤ)) (n : Fin 16384) (j : Fin 2048) :
    val_main_v125 (F := Ideal) a0 a1 a2 a3 (ix2 n j)
      = Matcher.refCost (softmaxRow (rowOf (val_main_v0 (F := Ideal) a0) n) (Matcher.labOf (val_main_v27 (F := Ideal) a3) hlab j))
          (Matcher.lo (val_main_v12 (F := Ideal) a1 (ix2 n (0 : Fin 2))) (val_main_v12 (F := Ideal) a1 (ix2 n (1 : Fin 2))))
          (Matcher.hi (val_main_v12 (F := Ideal) a1 (ix2 n (0 : Fin 2))) (val_main_v12 (F := Ideal) a1 (ix2 n (1 : Fin 2))))
          (val_main_v26 (F := Ideal) a2 (ix2 j (0 : Fin 2))) (val_main_v26 (F := Ideal) a2 (ix2 j (1 : Fin 2))) := by
  simp only [val_main_v125_apply, val_main_v122_apply, val_main_v119_apply, val_main_v118_apply, val_main_cst_7_apply,
    val_main_v56_apply, val_main_v45_apply, val_main_v44_apply, val_main_v55_apply, val_main_v54_apply,
    val_main_v121_apply, val_main_v120_apply, val_main_cst_8_apply, val_main_v35_apply,
    val_main_v124_apply, val_main_v123_apply, val_main_cst_9_apply, val_main_v117_apply, val_main_v116_apply,
    val_main_v93_apply, val_main_v115_apply, val_main_v114_apply, val_main_v113_apply, val_main_call1_v1_apply,
    val_main_call1_v0_apply, val_main_cst_6_apply, val_main_v112_apply, val_main_v111_apply, val_main_v102_apply,
    val_main_v92_apply, val_main_v91_apply, val_main_v86_apply, val_main_call0_v1_apply, val_main_call0_v0_apply,
    val_main_cst_5_apply, val_main_v85_apply, val_main_v84_apply, val_main_v75_apply]
  rw [v42_at, v43_at, v52_at, v53_at, v34_at a0 a3 hlab, v73_at, v74_at, v82_at, v83_at, v89_at, v90_at, v100_at, v101_at,
    v109_at, v110_at, v25_at0, v25_at1]
  rfl

/-- The cost before the last reshape is the textbook matrix of the reshaped arguments. -/
theorem v125_eq (hlab : ∀ j : Fin 2048, 0 ≤ (val_main_v27 (F := Ideal) a3 (ix1 j)).toInt
      ∧ (val_main_v27 (F := Ideal) a3 (ix1 j)).toInt < ((256 : ℕ) : ℤ)) :
    val_main_v125 (F := Ideal) a0 a1 a2 a3
      = Matcher.refMatrix (N := 16384) (K := 256) (M := 2048) (val_main_v0 (F := Ideal) a0) (val_main_v12 (F := Ideal) a1)
          (val_main_v26 (F := Ideal) a2) (Matcher.labOf (val_main_v27 (F := Ideal) a3) hlab) := by
  funext i
  obtain ⟨n, j, rfl⟩ : ∃ (n : Fin 16384) (j : Fin 2048), i = ix2 n j := ⟨i 0, i 1, eq_ix2 i⟩
  exact v125_at a0 a1 a2 a3 hlab n j

/-- The reference's result is the textbook cost matrix of its reshaped arguments, reshaped to the result's three axes, when
    every label lies in the class range. -/
theorem ref_eq (hlab : ∀ j : Fin 2048, 0 ≤ ((shapeCast S2048 a3 shapeCasts_S16x128_S2048) (ix1 j)).toInt
      ∧ ((shapeCast S2048 a3 shapeCasts_S16x128_S2048) (ix1 j)).toInt < ((256 : ℕ) : ℤ)) :
    val_main_v126 (F := Ideal) a0 a1 a2 a3
      = shapeCast S16x1024x2048 (Matcher.refMatrix (N := 16384) (K := 256) (M := 2048)
          (shapeCast S16384x256 a0 shapeCasts_S16x1024x256_S16384x256) (shapeCast S16384x2 a1 shapeCasts_S16x1024x2_S16384x2)
          (shapeCast S2048x2 a2 shapeCasts_S16x128x2_S2048x2) (Matcher.labOf (shapeCast S2048 a3 shapeCasts_S16x128_S2048) hlab))
        shapeCasts_S16384x2048_S16x1024x2048 :=
  congrArg (fun v => shapeCast S16x1024x2048 v shapeCasts_S16384x2048_S16x1024x2048) (v125_eq a0 a1 a2 a3 hlab)

end Whole

/-- The run's result term is the textbook cost matrix of the launch's argument arrays. -/
theorem res_eq (m : (ℓ : Loc nD τ sig) → Buf (Elt Ideal) ℓ) (c : Dev nD)
    (hlab : ∀ j : Fin 2048, 0 ≤ ((shapeCast S2048 (m ((c.tc : Thread nD τ).loc main_arg3) : IVec S16x128 32) shapeCasts_S16x128_S2048) (ix1 j)).toInt
      ∧ ((shapeCast S2048 (m ((c.tc : Thread nD τ).loc main_arg3) : IVec S16x128 32) shapeCasts_S16x128_S2048) (ix1 j)).toInt < ((256 : ℕ) : ℤ)) :
    Cert.ReferenceIdeal.Value.res_main_v126 (F := Ideal) m c
      = shapeCast S16x1024x2048 (Matcher.refMatrix (N := 16384) (K := 256) (M := 2048)
          (shapeCast S16384x256 (m ((c.tc : Thread nD τ).loc main_arg0) : FVec Ideal S16x1024x256 .f32) shapeCasts_S16x1024x256_S16384x256)
          (shapeCast S16384x2 (m ((c.tc : Thread nD τ).loc main_arg1) : FVec Ideal S16x1024x2 .f32) shapeCasts_S16x1024x2_S16384x2)
          (shapeCast S2048x2 (m ((c.tc : Thread nD τ).loc main_arg2) : FVec Ideal S16x128x2 .f32) shapeCasts_S16x128x2_S2048x2)
          (Matcher.labOf (shapeCast S2048 (m ((c.tc : Thread nD τ).loc main_arg3) : IVec S16x128 32) shapeCasts_S16x128_S2048) hlab))
        shapeCasts_S16384x2048_S16x1024x2048 :=
  (val_main_v126_eq (F := Ideal) m c).trans (ref_eq _ _ _ _ hlab)

end Cert.ReferenceIdeal.RefValue

end
-- ==== Proof.lean ====
/-
  The certificate of the matching-cost kernel against its reference.

  Both programs compute, for every prediction n (an interval given by midpoint and width, with a row of class logits)
  and every target j (an interval given by its ends, with a class label), the cost
      5·(|a − c| + |b − d|) − softmax(logits n)[label j] − 2·giou,
  the kernel in a fused arrangement (the distance from the hull and the overlap it needs anyway, the class
  probability by an inner product with a 0/1 class table, the two quotients of giou over one denominator, the hull
  unclipped), the reference in the textbook one.  The two agree on the extended reals where the inputs are finite,
  the labels index the class axis, and every pair's hull has positive length (where the reference's own division by
  the hull is defined) — the precondition.

  The frames of the two kernel programs are the launch of the one grid of 32 points around the body's run
  (KFrame, KIFrame); the reference's frame is its run with the result dropped.  The kernel's result array is read
  off its frame run block by block (KIValue, over KIPayload and KIHost), the reference's off its run operation by
  operation (RefRead); the precondition is decoded in PreDecode, and Bridge joins the two arrangements.
-/
import proofs.«409946_j67886253080772_2_alg».proof.Defs
import proofs.«409946_j67886253080772_2_alg».proof.Proof.Gen.Kernel
import proofs.«409946_j67886253080772_2_alg».proof.Proof.Gen.KernelIdeal
import proofs.«409946_j67886253080772_2_alg».proof.Proof.Gen.ReferenceIdeal
import proofs.«409946_j67886253080772_2_alg».proof.Proof.Gen.Pre_finite_inputs
import proofs.«409946_j67886253080772_2_alg».proof.Proof.Gen.ReferenceIdeal.Run
import proofs.«409946_j67886253080772_2_alg».proof.Proof.Gen.ReferenceIdeal.Read
import proofs.«409946_j67886253080772_2_alg».proof.Proof.KFrame
import proofs.«409946_j67886253080772_2_alg».proof.Proof.KIFrame
import proofs.«409946_j67886253080772_2_alg».proof.Proof.KIValue
import proofs.«409946_j67886253080772_2_alg».proof.Proof.PreDecode
import proofs.«409946_j67886253080772_2_alg».proof.Proof.Bridge
import proofs.«409946_j67886253080772_2_alg».proof.Proof.KIHostRead
import proofs.«409946_j67886253080772_2_alg».proof.Proof.RefRead
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

section Alg
open Cert.KernelIdeal Cert.KernelIdeal.HostVals Cert.KernelIdeal.Hand

/-- What the precondition says of one device's arguments, over the re-laid arrays: real entries, labels in the class
    range, and a hull of positive length for every pair. -/
theorem facts_of_pre (m : (ℓ : Loc nD τ sig) → Buf (Elt Ideal) ℓ) (hpre : Cert.Pre_KernelIdeal m) (c : Dev nD) :
    (∀ i, ∃ r : ℝ, PB2 m c i = (r : EReal)) ∧ (∀ i, ∃ r : ℝ, TB2 m c i = (r : EReal))
    ∧ (∀ j : Fin 2048, 0 ≤ ((LB1 m c) (ix1 j)).toInt ∧ ((LB1 m c) (ix1 j)).toInt < ((256 : ℕ) : ℤ))
    ∧ (∀ (n : Fin 16384) (j : Fin 2048), (0 : EReal) < max (Matcher.hi (PB2 m c (ix2 n 0)) (PB2 m c (ix2 n 1))) (TB2 m c (ix2 j 1))
        - min (Matcher.lo (PB2 m c (ix2 n 0)) (PB2 m c (ix2 n 1))) (TB2 m c (ix2 j 0))) := by
  obtain ⟨h1, h2, h3, h4⟩ := Matcher.Pre.decode _ _ _ _ (hpre c)
  refine ⟨fun i => h1 _, fun i => h2 _, fun j => ?_, h4⟩
  have := h3 (Shape.reshapeEquiv Gen.shapeCasts_S16x128_S2048 (ix1 j))
  exact this

/-- Under the precondition the fused cost matrix of a device's arguments is the textbook one. -/
theorem Gk_eq (m : (ℓ : Loc nD τ sig) → Buf (Elt Ideal) ℓ) (hpre : Cert.Pre_KernelIdeal m) (c : Dev nD) :
    Gk m c = Matcher.refMatrix (N := 16384) (K := 256) (M := 2048) (L2 m c) (PB2 m c) (TB2 m c)
      (Matcher.labOf (LB1 m c) (facts_of_pre m hpre c).2.2.1) := by
  obtain ⟨hPB, hTB, hlab, hH⟩ := facts_of_pre m hpre c
  exact Matcher.kerMatrix_eq_refMatrix _ _ _ _ _ _ hPB hTB (OH2_lab m c hlab) (TT2_row0 m c) (TT2_row1 m c) (TT2_row2 m c) hH

/-- The two programs at the ideal values: the kernel's run ends with the fused cost matrix of its arguments (re-laid with
    three axes), the reference's with the textbook cost matrix of its own; the arguments agree, and under the precondition
    the two matrices are one. -/
theorem algebraic : Cert.algebraic_KernelIdeal_ReferenceIdeal := by
  intro m ρ m' ρ' hpre hagree
  refine ⟨fun c => shapeCast S16x1024x2048 (Gk m c) Gen.shapeCasts_S16384x2048_S16x1024x2048, run_value m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v126 m' c
    = shapeCast S16x1024x2048 (Gk m c) Gen.shapeCasts_S16384x2048_S16x1024x2048
  have hl := (facts_of_pre m hpre c).2.2.1
  rw [Gk_eq m hpre c, Cert.ReferenceIdeal.RefValue.res_eq m' c (by rw [(hagree c).2.2.2]; exact hl)]
  simp only [(hagree c).1, (hagree c).2.1, (hagree c).2.2.1]
  have key : ∀ (b3 : IVec Cert.ReferenceIdeal.S16x128 32) (e : b3 = m ((c.tc : Thread nD τ).loc main_arg3))
      (h' : ∀ j : Fin 2048,
        0 ≤ ((shapeCast Cert.ReferenceIdeal.S2048 b3 Cert.ReferenceIdeal.Gen.shapeCasts_S16x128_S2048) (ix1 j)).toInt
        ∧ ((shapeCast Cert.ReferenceIdeal.S2048 b3 Cert.ReferenceIdeal.Gen.shapeCasts_S16x128_S2048) (ix1 j)).toInt < ((256 : ℕ) : ℤ)),
      shapeCast Cert.ReferenceIdeal.S16x1024x2048
          (Matcher.refMatrix (N := 16384) (K := 256) (M := 2048) (L2 m c) (PB2 m c) (TB2 m c)
            (Matcher.labOf (shapeCast Cert.ReferenceIdeal.S2048 b3 Cert.ReferenceIdeal.Gen.shapeCasts_S16x128_S2048) h'))
          Cert.ReferenceIdeal.Gen.shapeCasts_S16384x2048_S16x1024x2048
        = shapeCast S16x1024x2048 (Matcher.refMatrix (L2 m c) (PB2 m c) (TB2 m c) (Matcher.labOf (LB1 m c) hl))
          Gen.shapeCasts_S16384x2048_S16x1024x2048 := by
    intro b3 e h'
    subst e
    rfl
  exact key _ (hagree c).2.2.2 _

end Alg

/-- Everything the certificate claims: the three frames, the (empty) idealization ledger, and the equality of the two
    programs' results over the extended reals. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
